-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64 : Shape := ⟨2, ![32, 64]⟩
abbrev S32x64x64 : Shape := ⟨3, ![32, 64, 64]⟩
abbrev S32000x128 : Shape := ⟨2, ![32000, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S32000x128 : S_.BroadcastsInDim S32000x128 (![] : Fin 0 → Fin S32000x128.rank)
  reducesTo_S32000x128_S_d0_1 : S32000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg10 : FVec F S128x256 .f32) (main_arg11 : FVec F S128 .f32) (main_v33 : IVec S_ 1) : IVec S_ 1 :=
  let main_v34 : FVec F S128x256 .f32 := Host.absf main_arg10
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg7 : FVec F S128 .f32) (main_arg8 : FVec F S256x256 .f32) (main_arg9 : FVec F S256 .f32) (main_arg10 : FVec F S128x256 .f32) (main_arg11 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x256 .f32 := Host.absf main_arg8
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg10 main_arg11 main_v33

def fn {F : FTy → Type} [FloatOps F] (main_arg0 : IVec S32x64 32) (main_arg1 : IVec S32x64x64 32) (main_arg2 : IVec S32x64 32) (main_arg3 : FVec F S32000x128 .f32) (main_arg4 : FVec F S256x256 .f32) (main_arg5 : FVec F S256 .f32) (main_arg6 : FVec F S128x256 .f32) (main_arg7 : FVec F S128 .f32) (main_arg8 : FVec F S256x256 .f32) (main_arg9 : FVec F S256 .f32) (main_arg10 : FVec F S128x256 .f32) (main_arg11 : FVec F S128 .f32) : IVec S_ 1 :=
  let main_v0 : FVec F S32000x128 .f32 := Host.absf main_arg3
  let main_cst : FVec F S_ .f32 := constant S_ .f32 0x7F800000#32
  let main_v1 : FVec F S32000x128 .f32 := broadcastInDim S32000x128 ![] bcast_S_S32000x128 main_cst
  let main_v2 : IVec S32000x128 1 := cmpf .olt main_v0 main_v1
  let main_c : IVec S_ 1 := constantI S_ 1 1#1
  let main_v3 : IVec S_ 1 := (fun x v => Host.reduce IntOp.andi x v reducesTo_S32000x128_S_d0_1 h_S_) main_v2 main_c
  let main_v4 : FVec F S256x256 .f32 := Host.absf main_arg4
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg6
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg7 main_arg8 main_arg9 main_arg10 main_arg11 main_v13 main_v16
-- ==== Kernel.lean ====
abbrev S32x64 : Shape := ⟨2, ![32, 64]⟩
abbrev S32x64x64 : Shape := ⟨3, ![32, 64, 64]⟩
abbrev S32000x128 : Shape := ⟨2, ![32000, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩
abbrev S32x64x1 : Shape := ⟨3, ![32, 64, 1]⟩
abbrev S32x64x128 : Shape := ⟨3, ![32, 64, 128]⟩
abbrev S1x64x128 : Shape := ⟨3, ![1, 64, 128]⟩
abbrev S1x64x64 : Shape := ⟨3, ![1, 64, 64]⟩
abbrev S64x128 : Shape := ⟨2, ![64, 128]⟩
abbrev S64x64 : Shape := ⟨2, ![64, 64]⟩
abbrev S64x64x128 : Shape := ⟨3, ![64, 64, 128]⟩
abbrev S64x1x128 : Shape := ⟨3, ![64, 1, 128]⟩
abbrev S64x64x256 : Shape := ⟨3, ![64, 64, 256]⟩
abbrev S4096x256 : Shape := ⟨2, ![4096, 256]⟩
abbrev S1x256 : Shape := ⟨2, ![1, 256]⟩
abbrev S256x128 : Shape := ⟨2, ![256, 128]⟩
abbrev S4096x128 : Shape := ⟨2, ![4096, 128]⟩
abbrev S1x128 : Shape := ⟨2, ![1, 128]⟩
abbrev S64x64x1 : Shape := ⟨3, ![64, 64, 1]⟩
abbrev S32x1x128 : Shape := ⟨3, ![32, 1, 128]⟩
abbrev S32x128 : Shape := ⟨2, ![32, 128]⟩

abbrev nBuf : Space → Nat
  | .hbm => 26
  | .vmem => 42
  | .smem => 0
  | _ => 0

abbrev bufTy : (tb : Table) → Fin (tcTables nBuf tb) → BufTy
  | .hbm, ⟨0, _⟩ => ⟨S32x64, .i32⟩
  | .hbm, ⟨1, _⟩ => ⟨S32x64x64, .i32⟩
  | .hbm, ⟨2, _⟩ => ⟨S32x64, .i32⟩
  | .hbm, ⟨3, _⟩ => ⟨S32000x128, .f32⟩
  | .hbm, ⟨4, _⟩ => ⟨S256x256, .f32⟩
  | .hbm, ⟨5, _⟩ => ⟨S256, .f32⟩
  | .hbm, ⟨6, _⟩ => ⟨S128x256, .f32⟩
  | .hbm, ⟨7, _⟩ => ⟨S128, .f32⟩
  | .hbm, ⟨8, _⟩ => ⟨S256x256, .f32⟩
  | .hbm, ⟨9, _⟩ => ⟨S256, .f32⟩
  | .hbm, ⟨10, _⟩ => ⟨S128x256, .f32⟩
  | .hbm, ⟨11, _⟩ => ⟨S128, .f32⟩
  | .hbm, ⟨12, _⟩ => ⟨S_, .i32⟩
  | .hbm, ⟨13, _⟩ => ⟨S32x64, .i32⟩
  | .hbm, ⟨14, _⟩ => ⟨S32x64, .i1⟩
  | .hbm, ⟨15, _⟩ => ⟨S_, .i32⟩
  | .hbm, ⟨16, _⟩ => ⟨S32x64, .i32⟩
  | .hbm, ⟨17, _⟩ => ⟨S32x64, .i32⟩
  | .hbm, ⟨18, _⟩ => ⟨S32x64, .i32⟩
  | .hbm, ⟨19, _⟩ => ⟨S32x64x1, .i32⟩
  | .hbm, ⟨20, _⟩ => ⟨S32x64x128, .f32⟩
  | .hbm, ⟨21, _⟩ => ⟨S32x64x128, .f32⟩
  | .hbm, ⟨22, _⟩ => ⟨S32x64x128, .f32⟩
  | .hbm, ⟨23, _⟩ => ⟨S32x64x128, .f32⟩
  | .hbm, ⟨24, _⟩ => ⟨S32x1x128, .f32⟩
  | .hbm, ⟨25, _⟩ => ⟨S32x128, .f32⟩
  | .local _ .vmem, ⟨0, _⟩ => ⟨S1x64x128, .f32⟩
  | .local _ .vmem, ⟨1, _⟩ => ⟨S1x64x128, .f32⟩
  | .local _ .vmem, ⟨2, _⟩ => ⟨S1x64x64, .i32⟩
  | .local _ .vmem, ⟨3, _⟩ => ⟨S1x64x64, .i32⟩
  | .local _ .vmem, ⟨4, _⟩ => ⟨S256x256, .f32⟩
  | .local _ .vmem, ⟨5, _⟩ => ⟨S256, .f32⟩
  | .local _ .vmem, ⟨6, _⟩ => ⟨S128x256, .f32⟩
  | .local _ .vmem, ⟨7, _⟩ => ⟨S128, .f32⟩
  | .local _ .vmem, ⟨8, _⟩ => ⟨S256x256, .f32⟩
  | .local _ .vmem, ⟨9, _⟩ => ⟨S256, .f32⟩
  | .local _ .vmem, ⟨10, _⟩ => ⟨S128x256, .f32⟩
  | .local _ .vmem, ⟨11, _⟩ => ⟨S128, .f32⟩
  | .local _ .vmem, ⟨12, _⟩ => ⟨S1x64x128, .f32⟩
  | .local _ .vmem, ⟨13, _⟩ => ⟨S1x64x128, .f32⟩
  | .local _ .vmem, ⟨14, _⟩ => ⟨S1x64x128, .f32⟩
  | .local _ .vmem, ⟨15, _⟩ => ⟨S1x64x128, .f32⟩
  | .local _ .vmem, ⟨16, _⟩ => ⟨S1x64x64, .i32⟩
  | .local _ .vmem, ⟨17, _⟩ => ⟨S1x64x64, .i32⟩
  | .local _ .vmem, ⟨18, _⟩ => ⟨S256x256, .f32⟩
  | .local _ .vmem, ⟨19, _⟩ => ⟨S256, .f32⟩
  | .local _ .vmem, ⟨20, _⟩ => ⟨S128x256, .f32⟩
  | .local _ .vmem, ⟨21, _⟩ => ⟨S128, .f32⟩
  | .local _ .vmem, ⟨22, _⟩ => ⟨S256x256, .f32⟩
  | .local _ .vmem, ⟨23, _⟩ => ⟨S256, .f32⟩
  | .local _ .vmem, ⟨24, _⟩ => ⟨S128x256, .f32⟩
  | .local _ .vmem, ⟨25, _⟩ => ⟨S128, .f32⟩
  | .local _ .vmem, ⟨26, _⟩ => ⟨S1x64x128, .f32⟩
  | .local _ .vmem, ⟨27, _⟩ => ⟨S1x64x128, .f32⟩
  | .local _ .vmem, ⟨28, _⟩ => ⟨S1x64x128, .f32⟩
  | .local _ .vmem, ⟨29, _⟩ => ⟨S1x64x128, .f32⟩
  | .local _ .vmem, ⟨30, _⟩ => ⟨S1x64x64, .i32⟩
  | .local _ .vmem, ⟨31, _⟩ => ⟨S1x64x64, .i32⟩
  | .local _ .vmem, ⟨32, _⟩ => ⟨S256x256, .f32⟩
  | .local _ .vmem, ⟨33, _⟩ => ⟨S256, .f32⟩
  | .local _ .vmem, ⟨34, _⟩ => ⟨S128x256, .f32⟩
  | .local _ .vmem, ⟨35, _⟩ => ⟨S128, .f32⟩
  | .local _ .vmem, ⟨36, _⟩ => ⟨S256x256, .f32⟩
  | .local _ .vmem, ⟨37, _⟩ => ⟨S256, .f32⟩
  | .local _ .vmem, ⟨38, _⟩ => ⟨S128x256, .f32⟩
  | .local _ .vmem, ⟨39, _⟩ => ⟨S128, .f32⟩
  | .local _ .vmem, ⟨40, _⟩ => ⟨S1x64x128, .f32⟩
  | .local _ .vmem, ⟨41, _⟩ => ⟨S1x64x128, .f32⟩
  | _, _ => ⟨S32x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x64 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1x64x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x64x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x64x64 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S1x64x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  bcast_S_S32x64 : S_.BroadcastsInDim S32x64 (![] : Fin 0 → Fin S32x64.rank)
  bcast_S32x64_S32x64x1_0_1 : S32x64.BroadcastsInDim S32x64x1 (![0, 1] : Fin 2 → Fin S32x64x1.rank)
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x128_S1x64x128 : S64x128.ShapeCasts S1x64x128
  shapeCasts_S1x64x128_S1x64x128 : S1x64x128.ShapeCasts S1x64x128
  broadcasts_S1x64x128_S64x64x128 : S1x64x128.Broadcasts S64x64x128
  shapeCasts_S64x128_S64x1x128 : S64x128.ShapeCasts S64x1x128
  shapeCasts_S64x1x128_S64x1x128 : S64x1x128.ShapeCasts S64x1x128
  broadcasts_S64x1x128_S64x64x128 : S64x1x128.Broadcasts S64x64x128
  concatenates_S64x64x128_S64x64x128_S64x64x256_d2 : Shape.Concatenates [S64x64x128, S64x64x128] S64x64x256 2
  shapeCasts_S64x64x256_S4096x256 : S64x64x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  shapeCasts_S4096x128_S64x64x128 : S4096x128.ShapeCasts S64x64x128
  shapeCasts_S64x64_S64x64x1 : S64x64.ShapeCasts S64x64x1
  broadcasts_S64x64x1_S64x64x128 : S64x64x1.Broadcasts S64x64x128
  reduces_S64x64x128_S64x128 : S64x64x128.Reduces [1] S64x128
  slices_S32x64x128_S32x1x128_0_0_0 : S32x64x128.Slices ![0, 0, 0] S32x1x128
  shapeCasts_S32x1x128_S32x128 : S32x1x128.ShapeCasts S32x128
  gather_S32000x128_S32x64x1_S32x64x128_2_0_n_n_0_2_1128_wf : GatherDims.WF S32000x128 S32x64x1 S32x64x128 [2] [0] [] [0] [] 2 ![1, 128]
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S32x64x128.size a
  hwx0_0 : ∀ i : grid0.Coords, EltTy.bits .f32 = 32 ∨ (Rect.block (s := S32x64x128) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S32x64x64.size a
  hwx0_1 : ∀ i : grid0.Coords, EltTy.bits .i32 = 32 ∨ (Rect.block (s := S32x64x64) S1x64x64.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x256.size a ≤ S128x256.size a
  hwx0_8 : ∀ i : grid0.Coords, EltTy.bits .f32 = 32 ∨ (Rect.block (s := S128x256) S128x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x64x128.size a ≤ S32x64x128.size a
  hwx0_10 : ∀ i : grid0.Coords, EltTy.bits .f32 = 32 ∨ (Rect.block (s := S32x64x128) S1x64x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x128.size a ≤ S32x64x128.size a
  hwx1_0 : ∀ i : grid1.Coords, EltTy.bits .f32 = 32 ∨ (Rect.block (s := S32x64x128) S1x64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64.size a ≤ S32x64x64.size a
  hwx1_1 : ∀ i : grid1.Coords, EltTy.bits .i32 = 32 ∨ (Rect.block (s := S32x64x64) S1x64x64.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256.size a ≤ S256.size a
  hwx1_7 : ∀ i : grid1.Coords, EltTy.bits .f32 = 32 ∨ (Rect.block (s := S256) S256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x256.size a ≤ S128x256.size a
  hwx1_8 : ∀ i : grid1.Coords, EltTy.bits .f32 = 32 ∨ (Rect.block (s := S128x256) S128x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x64x128.size a ≤ S32x64x128.size a
  hwx1_10 : ∀ i : grid1.Coords, EltTy.bits .f32 = 32 ∨ (Rect.block (s := S32x64x128) S1x64x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x64x128.size a ≤ S32x64x128.size a
  hwx2_0 : ∀ i : grid2.Coords, EltTy.bits .f32 = 32 ∨ (Rect.block (s := S32x64x128) S1x64x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x64.size a ≤ S32x64x64.size a
  hwx2_1 : ∀ i : grid2.Coords, EltTy.bits .i32 = 32 ∨ (Rect.block (s := S32x64x64) S1x64x64.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x256.size a ≤ S128x256.size a
  hwx2_4 : ∀ i : grid2.Coords, EltTy.bits .f32 = 32 ∨ (Rect.block (s := S128x256) S128x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256.size a ≤ S256.size a
  hwx2_7 : ∀ i : grid2.Coords, EltTy.bits .f32 = 32 ∨ (Rect.block (s := S256) S256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x256.size a ≤ S128x256.size a
  hwx2_8 : ∀ i : grid2.Coords, EltTy.bits .f32 = 32 ∨ (Rect.block (s := S128x256) S128x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128.size a ≤ S128.size a
  hwx2_9 : ∀ i : grid2.Coords, EltTy.bits .f32 = 32 ∨ (Rect.block (s := S128) S128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S1x64x128.size a ≤ S32x64x128.size a
  hwx2_10 : ∀ i : grid2.Coords, EltTy.bits .f32 = 32 ∨ (Rect.block (s := S32x64x128) S1x64x128.size (cc2_transform_10 i) (hinb2_10 i)).WholeWords (EltTy.packing .f32)

variable [Facts₀]

def gather_S32000x128_S32x64x1_S32x64x128_2_0_n_n_0_2_1128 : GatherDims S32000x128 S32x64x1 S32x64x128 where
  offsetDims := [2]
  collapsedSliceDims := [0]
  operandBatchingDims := []
  startIndicesBatchingDims := []
  startIndexMap := [0]
  indexVectorDim := 2
  sliceSizes := ![1, 128]
  wf := gather_S32000x128_S32x64x1_S32x64x128_2_0_n_n_0_2_1128_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v6) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x64x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v7) S1x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S128x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg11) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v8) S1x64x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v8) S1x64x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1x64x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg9) S256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg10) S128x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg11) S128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v9) S1x64x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S32x64 : Shape := ⟨2, ![32, 64]⟩
abbrev S32x64x64 : Shape := ⟨3, ![32, 64, 64]⟩
abbrev S32000x128 : Shape := ⟨2, ![32000, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩
abbrev S32x64x1 : Shape := ⟨3, ![32, 64, 1]⟩
abbrev S32x64x128 : Shape := ⟨3, ![32, 64, 128]⟩
abbrev S32x64x64x1 : Shape := ⟨4, ![32, 64, 64, 1]⟩
abbrev S32x1x64x128 : Shape := ⟨4, ![32, 1, 64, 128]⟩
abbrev S32x64x64x128 : Shape := ⟨4, ![32, 64, 64, 128]⟩
abbrev S32x64x1x128 : Shape := ⟨4, ![32, 64, 1, 128]⟩
abbrev S32x64x64x256 : Shape := ⟨4, ![32, 64, 64, 256]⟩
abbrev S1x1x1x256 : Shape := ⟨4, ![1, 1, 1, 256]⟩
abbrev S1x1x1x128 : Shape := ⟨4, ![1, 1, 1, 128]⟩
abbrev S32x1x128 : Shape := ⟨3, ![32, 1, 128]⟩
abbrev S32x128 : Shape := ⟨2, ![32, 128]⟩

abbrev nBuf : Space → Nat
  | .hbm => 157
  | .vmem => 0
  | .smem => 0
  | _ => 0

abbrev hbmTy0_0 (i : Nat) : BufTy := match i % 128 with
  | 0 => ⟨S32x64, .i32⟩
  | 1 => ⟨S32x64x64, .i32⟩
  | 2 => ⟨S32x64, .i32⟩
  | 3 => ⟨S32000x128, .f32⟩
  | 4 => ⟨S256x256, .f32⟩
  | 5 => ⟨S256, .f32⟩
  | 6 => ⟨S128x256, .f32⟩
  | 7 => ⟨S128, .f32⟩
  | 8 => ⟨S256x256, .f32⟩
  | 9 => ⟨S256, .f32⟩
  | 10 => ⟨S128x256, .f32⟩
  | 11 => ⟨S128, .f32⟩
  | 12 => ⟨S_, .i32⟩
  | 13 => ⟨S32x64, .i32⟩
  | 14 => ⟨S32x64, .i1⟩
  | 15 => ⟨S_, .i32⟩
  | 16 => ⟨S32x64, .i32⟩
  | 17 => ⟨S32x64, .i32⟩
  | 18 => ⟨S32x64, .i32⟩
  | 19 => ⟨S32x64x1, .i32⟩
  | 20 => ⟨S32x64x128, .f32⟩
  | 21 => ⟨S32x64x64, .f32⟩
  | 22 => ⟨S32x64x64x1, .f32⟩
  | 23 => ⟨S32x1x64x128, .f32⟩
  | 24 => ⟨S32x64x64x128, .f32⟩
  | 25 => ⟨S32x64x1x128, .f32⟩
  | 26 => ⟨S32x64x64x128, .f32⟩
  | 27 => ⟨S32x64x64x256, .f32⟩
  | 28 => ⟨S32x64x64x256, .f32⟩
  | 29 => ⟨S1x1x1x256, .f32⟩
  | 30 => ⟨S32x64x64x256, .f32⟩
  | 31 => ⟨S32x64x64x256, .f32⟩
  | 32 => ⟨S_, .f32⟩
  | 33 => ⟨S32x64x64x256, .f32⟩
  | 34 => ⟨S32x64x64x256, .f32⟩
  | 35 => ⟨S32x64x64x128, .f32⟩
  | 36 => ⟨S1x1x1x128, .f32⟩
  | 37 => ⟨S32x64x64x128, .f32⟩
  | 38 => ⟨S32x64x64x128, .f32⟩
  | 39 => ⟨S_, .f32⟩
  | 40 => ⟨S32x64x64x128, .f32⟩
  | 41 => ⟨S32x64x64x128, .f32⟩
  | 42 => ⟨S32x64x64x256, .f32⟩
  | 43 => ⟨S1x1x1x256, .f32⟩
  | 44 => ⟨S32x64x64x256, .f32⟩
  | 45 => ⟨S32x64x64x256, .f32⟩
  | 46 => ⟨S_, .f32⟩
  | 47 => ⟨S32x64x64x256, .f32⟩
  | 48 => ⟨S32x64x64x256, .f32⟩
  | 49 => ⟨S32x64x64x128, .f32⟩
  | 50 => ⟨S1x1x1x128, .f32⟩
  | 51 => ⟨S32x64x64x128, .f32⟩
  | 52 => ⟨S32x64x64x128, .f32⟩
  | 53 => ⟨S_, .f32⟩
  | 54 => ⟨S32x64x64x128, .f32⟩
  | 55 => ⟨S32x64x64x128, .f32⟩
  | 56 => ⟨S_, .f32⟩
  | 57 => ⟨S32x64x64x1, .f32⟩
  | 58 => ⟨S32x64x64x1, .f32⟩
  | 59 => ⟨S32x64x64x128, .f32⟩
  | 60 => ⟨S32x64x64x128, .f32⟩
  | 61 => ⟨S32x64x64x128, .f32⟩
  | 62 => ⟨S32x64x64x128, .f32⟩
  | 63 => ⟨S32x64x64x128, .f32⟩
  | 64 => ⟨S_, .f32⟩
  | 65 => ⟨S32x64x128, .f32⟩
  | 66 => ⟨S32x64x128, .f32⟩
  | 67 => ⟨S32x1x64x128, .f32⟩
  | 68 => ⟨S32x64x64x128, .f32⟩
  | 69 => ⟨S32x64x1x128, .f32⟩
  | 70 => ⟨S32x64x64x128, .f32⟩
  | 71 => ⟨S32x64x64x256, .f32⟩
  | 72 => ⟨S32x64x64x256, .f32⟩
  | 73 => ⟨S1x1x1x256, .f32⟩
  | 74 => ⟨S32x64x64x256, .f32⟩
  | 75 => ⟨S32x64x64x256, .f32⟩
  | 76 => ⟨S_, .f32⟩
  | 77 => ⟨S32x64x64x256, .f32⟩
  | 78 => ⟨S32x64x64x256, .f32⟩
  | 79 => ⟨S32x64x64x128, .f32⟩
  | 80 => ⟨S1x1x1x128, .f32⟩
  | 81 => ⟨S32x64x64x128, .f32⟩
  | 82 => ⟨S32x64x64x128, .f32⟩
  | 83 => ⟨S_, .f32⟩
  | 84 => ⟨S32x64x64x128, .f32⟩
  | 85 => ⟨S32x64x64x128, .f32⟩
  | 86 => ⟨S32x64x64x256, .f32⟩
  | 87 => ⟨S1x1x1x256, .f32⟩
  | 88 => ⟨S32x64x64x256, .f32⟩
  | 89 => ⟨S32x64x64x256, .f32⟩
  | 90 => ⟨S_, .f32⟩
  | 91 => ⟨S32x64x64x256, .f32⟩
  | 92 => ⟨S32x64x64x256, .f32⟩
  | 93 => ⟨S32x64x64x128, .f32⟩
  | 94 => ⟨S1x1x1x128, .f32⟩
  | 95 => ⟨S32x64x64x128, .f32⟩
  | 96 => ⟨S32x64x64x128, .f32⟩
  | 97 => ⟨S_, .f32⟩
  | 98 => ⟨S32x64x64x128, .f32⟩
  | 99 => ⟨S32x64x64x128, .f32⟩
  | 100 => ⟨S_, .f32⟩
  | 101 => ⟨S32x64x64x1, .f32⟩
  | 102 => ⟨S32x64x64x1, .f32⟩
  | 103 => ⟨S32x64x64x128, .f32⟩
  | 104 => ⟨S32x64x64x128, .f32⟩
  | 105 => ⟨S32x64x64x128, .f32⟩
  | 106 => ⟨S32x64x64x128, .f32⟩
  | 107 => ⟨S32x64x64x128, .f32⟩
  | 108 => ⟨S_, .f32⟩
  | 109 => ⟨S32x64x128, .f32⟩
  | 110 => ⟨S32x64x128, .f32⟩
  | 111 => ⟨S32x1x64x128, .f32⟩
  | 112 => ⟨S32x64x64x128, .f32⟩
  | 113 => ⟨S32x64x1x128, .f32⟩
  | 114 => ⟨S32x64x64x128, .f32⟩
  | 115 => ⟨S32x64x64x256, .f32⟩
  | 116 => ⟨S32x64x64x256, .f32⟩
  | 117 => ⟨S1x1x1x256, .f32⟩
  | 118 => ⟨S32x64x64x256, .f32⟩
  | 119 => ⟨S32x64x64x256, .f32⟩
  | 120 => ⟨S_, .f32⟩
  | 121 => ⟨S32x64x64x256, .f32⟩
  | 122 => ⟨S32x64x64x256, .f32⟩
  | 123 => ⟨S32x64x64x128, .f32⟩
  | 124 => ⟨S1x1x1x128, .f32⟩
  | 125 => ⟨S32x64x64x128, .f32⟩
  | 126 => ⟨S32x64x64x128, .f32⟩
  | 127 => ⟨S_, .f32⟩
  | _ => ⟨S32x64, .i32⟩

abbrev hbmTy0_1 (i : Nat) : BufTy := match i % 128 with
  | 0 => ⟨S32x64x64x128, .f32⟩
  | 1 => ⟨S32x64x64x128, .f32⟩
  | 2 => ⟨S32x64x64x256, .f32⟩
  | 3 => ⟨S1x1x1x256, .f32⟩
  | 4 => ⟨S32x64x64x256, .f32⟩
  | 5 => ⟨S32x64x64x256, .f32⟩
  | 6 => ⟨S_, .f32⟩
  | 7 => ⟨S32x64x64x256, .f32⟩
  | 8 => ⟨S32x64x64x256, .f32⟩
  | 9 => ⟨S32x64x64x128, .f32⟩
  | 10 => ⟨S1x1x1x128, .f32⟩
  | 11 => ⟨S32x64x64x128, .f32⟩
  | 12 => ⟨S32x64x64x128, .f32⟩
  | 13 => ⟨S_, .f32⟩
  | 14 => ⟨S32x64x64x128, .f32⟩
  | 15 => ⟨S32x64x64x128, .f32⟩
  | 16 => ⟨S_, .f32⟩
  | 17 => ⟨S32x64x64x1, .f32⟩
  | 18 => ⟨S32x64x64x1, .f32⟩
  | 19 => ⟨S32x64x64x128, .f32⟩
  | 20 => ⟨S32x64x64x128, .f32⟩
  | 21 => ⟨S32x64x64x128, .f32⟩
  | 22 => ⟨S32x64x64x128, .f32⟩
  | 23 => ⟨S32x64x64x128, .f32⟩
  | 24 => ⟨S_, .f32⟩
  | 25 => ⟨S32x64x128, .f32⟩
  | 26 => ⟨S32x64x128, .f32⟩
  | 27 => ⟨S32x1x128, .f32⟩
  | 28 => ⟨S32x128, .f32⟩
  | _ => ⟨S32x64, .i32⟩

abbrev hbmTy (i : Nat) : BufTy := match i / 128 with
  | 0 => hbmTy0_0 i
  | 1 => hbmTy0_1 i
  | _ => ⟨S32x64, .i32⟩

abbrev bufTy : (tb : Table) → Fin (tcTables nBuf tb) → BufTy
  | .hbm, ⟨i, _⟩ => hbmTy i
  | _, _ => ⟨S32x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_cst : Ref sig .tc := ⟨.hbm, 32, rfl⟩
abbrev main_call0_v0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call1_cst : Ref sig .tc := ⟨.hbm, 39, rfl⟩
abbrev main_call1_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call2_cst : Ref sig .tc := ⟨.hbm, 46, rfl⟩
abbrev main_call2_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call3_cst : Ref sig .tc := ⟨.hbm, 53, rfl⟩
abbrev main_call3_v0 : Ref sig .tc := ⟨.hbm, 54, rfl⟩
abbrev main_v33 : Ref sig .tc := ⟨.hbm, 55, rfl⟩
abbrev main_cst : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_1 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call4_cst : Ref sig .tc := ⟨.hbm, 76, rfl⟩
abbrev main_call4_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call5_cst : Ref sig .tc := ⟨.hbm, 83, rfl⟩
abbrev main_call5_v0 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call6_cst : Ref sig .tc := ⟨.hbm, 90, rfl⟩
abbrev main_call6_v0 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call7_cst : Ref sig .tc := ⟨.hbm, 97, rfl⟩
abbrev main_call7_v0 : Ref sig .tc := ⟨.hbm, 98, rfl⟩
abbrev main_v67 : Ref sig .tc := ⟨.hbm, 99, rfl⟩
abbrev main_cst_2 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_3 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_call8_cst : Ref sig .tc := ⟨.hbm, 120, rfl⟩
abbrev main_call8_v0 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call9_cst : Ref sig .tc := ⟨.hbm, 127, rfl⟩
abbrev main_call9_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_call10_cst : Ref sig .tc := ⟨.hbm, 134, rfl⟩
abbrev main_call10_v0 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_call11_cst : Ref sig .tc := ⟨.hbm, 141, rfl⟩
abbrev main_call11_v0 : Ref sig .tc := ⟨.hbm, 142, rfl⟩
abbrev main_v101 : Ref sig .tc := ⟨.hbm, 143, rfl⟩
abbrev main_cst_4 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_5 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩

abbrev nD : Nat := 1
abbrev τ : Topo := Topo.v7x

variable {F : FTy → Type} [FloatOps F]

class Facts₀ : Prop where
  bcast_S_S32x64 : S_.BroadcastsInDim S32x64 (![] : Fin 0 → Fin S32x64.rank)
  bcast_S32x64_S32x64x1_0_1 : S32x64.BroadcastsInDim S32x64x1 (![0, 1] : Fin 2 → Fin S32x64x1.rank)
  bcast_S32x64x64_S32x64x64x1_0_1_2 : S32x64x64.BroadcastsInDim S32x64x64x1 (![0, 1, 2] : Fin 3 → Fin S32x64x64x1.rank)
  bcast_S32x64x128_S32x1x64x128_0_2_3 : S32x64x128.BroadcastsInDim S32x1x64x128 (![0, 2, 3] : Fin 3 → Fin S32x1x64x128.rank)
  bcast_S32x1x64x128_S32x64x64x128_0_1_2_3 : S32x1x64x128.BroadcastsInDim S32x64x64x128 (![0, 1, 2, 3] : Fin 4 → Fin S32x64x64x128.rank)
  bcast_S32x64x128_S32x64x1x128_0_1_3 : S32x64x128.BroadcastsInDim S32x64x1x128 (![0, 1, 3] : Fin 3 → Fin S32x64x1x128.rank)
  bcast_S32x64x1x128_S32x64x64x128_0_1_2_3 : S32x64x1x128.BroadcastsInDim S32x64x64x128 (![0, 1, 2, 3] : Fin 4 → Fin S32x64x64x128.rank)
  concatenates_S32x64x64x128_S32x64x64x128_S32x64x64x256_d3 : Shape.Concatenates [S32x64x64x128, S32x64x64x128] S32x64x64x256 3
  bcast_S256_S1x1x1x256_3 : S256.BroadcastsInDim S1x1x1x256 (![3] : Fin 1 → Fin S1x1x1x256.rank)
  bcast_S1x1x1x256_S32x64x64x256_0_1_2_3 : S1x1x1x256.BroadcastsInDim S32x64x64x256 (![0, 1, 2, 3] : Fin 4 → Fin S32x64x64x256.rank)
  bcast_S_S32x64x64x256 : S_.BroadcastsInDim S32x64x64x256 (![] : Fin 0 → Fin S32x64x64x256.rank)
  bcast_S128_S1x1x1x128_3 : S128.BroadcastsInDim S1x1x1x128 (![3] : Fin 1 → Fin S1x1x1x128.rank)
  bcast_S1x1x1x128_S32x64x64x128_0_1_2_3 : S1x1x1x128.BroadcastsInDim S32x64x64x128 (![0, 1, 2, 3] : Fin 4 → Fin S32x64x64x128.rank)
  bcast_S_S32x64x64x128 : S_.BroadcastsInDim S32x64x64x128 (![] : Fin 0 → Fin S32x64x64x128.rank)
  bcast_S_S32x64x64x1 : S_.BroadcastsInDim S32x64x64x1 (![] : Fin 0 → Fin S32x64x64x1.rank)
  bcast_S32x64x64x1_S32x64x64x128_0_1_2_3 : S32x64x64x1.BroadcastsInDim S32x64x64x128 (![0, 1, 2, 3] : Fin 4 → Fin S32x64x64x128.rank)
  reducesTo_S32x64x64x128_S32x64x128_d2 : S32x64x64x128.ReducesTo [2] S32x64x128
  h_S_ : 0 < S_.numel
  slices_S32x64x128_S32x1x128_0_0_0 : S32x64x128.Slices ![0, 0, 0] S32x1x128
  shapeCasts_S32x1x128_S32x128 : S32x1x128.ShapeCasts S32x128
  gather_S32000x128_S32x64x1_S32x64x128_2_0_n_n_0_2_1128_wf : GatherDims.WF S32000x128 S32x64x1 S32x64x128 [2] [0] [] [0] [] 2 ![1, 128]
  dot_S32x64x64x256_S256x256_S32x64x64x256_3_1_012_0_n_n_wf : DotDims.WF S32x64x64x256 S256x256 S32x64x64x256 [3] [1] [0, 1, 2] [0] [] []
  dot_S32x64x64x256_S128x256_S32x64x64x128_3_1_012_0_n_n_wf : DotDims.WF S32x64x64x256 S128x256 S32x64x64x128 [3] [1] [0, 1, 2] [0] [] []

variable [Facts₀]

def gather_S32000x128_S32x64x1_S32x64x128_2_0_n_n_0_2_1128 : GatherDims S32000x128 S32x64x1 S32x64x128 where
  offsetDims := [2]
  collapsedSliceDims := [0]
  operandBatchingDims := []
  startIndicesBatchingDims := []
  startIndexMap := [0]
  indexVectorDim := 2
  sliceSizes := ![1, 128]
  wf := gather_S32000x128_S32x64x1_S32x64x128_2_0_n_n_0_2_1128_wf
def dot_S32x64x64x256_S256x256_S32x64x64x256_3_1_012_0_n_n : DotDims S32x64x64x256 S256x256 S32x64x64x256 where
  lhsContracting := [3]
  rhsContracting := [1]
  lhsNonContracting := [0, 1, 2]
  rhsNonContracting := [0]
  lhsBatch := []
  rhsBatch := []
  wf := dot_S32x64x64x256_S256x256_S32x64x64x256_3_1_012_0_n_n_wf
def dot_S32x64x64x256_S128x256_S32x64x64x128_3_1_012_0_n_n : DotDims S32x64x64x256 S128x256 S32x64x64x128 where
  lhsContracting := [3]
  rhsContracting := [1]
  lhsNonContracting := [0, 1, 2]
  rhsNonContracting := [0]
  lhsBatch := []
  rhsBatch := []
  wf := dot_S32x64x64x256_S128x256_S32x64x64x128_3_1_012_0_n_n_wf

class Facts : Prop extends Facts₀ where

variable [Facts]
-- ==== Proof.RefKeep.lean ====
/-
  The reference's operations leave its arguments alone.

  Each of the reference's 145 host operations writes exactly one buffer, its own result, and no result buffer is one of
  the twelve argument buffers. So after the whole line of operations every argument holds what it held at launch: the
  contents after the line at a buffer that no operation writes are the contents before it.
-/
import proofs.«135701_j65085934403743_1_alg».proof.Proof.RefOps
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Closes "no operation of the line writes this buffer": each operation writes one buffer, and it is another one. -/
macro "writes_another" : tactic => `(tactic| (
  simp only [ValueP.ops, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- Argument 0 ends as launched. -/
theorem kept_main_arg0 (V : Valuation τ sig (Elt F)) :
    StableHlo.after (Cert.ReferenceIdeal.ValueP.ops (F := F)) V (Proc.devRef .tc main_arg0) = V (Proc.devRef .tc main_arg0) :=
  StableHlo.after_of_forall_not_mem (b := Proc.devRef .tc main_arg0) _ _ (List.forall_iff_forall_mem.mp (by writes_another))

/-- Argument 1 ends as launched. -/
theorem kept_main_arg1 (V : Valuation τ sig (Elt F)) :
    StableHlo.after (Cert.ReferenceIdeal.ValueP.ops (F := F)) V (Proc.devRef .tc main_arg1) = V (Proc.devRef .tc main_arg1) :=
  StableHlo.after_of_forall_not_mem (b := Proc.devRef .tc main_arg1) _ _ (List.forall_iff_forall_mem.mp (by writes_another))

/-- Argument 2 ends as launched. -/
theorem kept_main_arg2 (V : Valuation τ sig (Elt F)) :
    StableHlo.after (Cert.ReferenceIdeal.ValueP.ops (F := F)) V (Proc.devRef .tc main_arg2) = V (Proc.devRef .tc main_arg2) :=
  StableHlo.after_of_forall_not_mem (b := Proc.devRef .tc main_arg2) _ _ (List.forall_iff_forall_mem.mp (by writes_another))

/-- Argument 3 ends as launched. -/
theorem kept_main_arg3 (V : Valuation τ sig (Elt F)) :
    StableHlo.after (Cert.ReferenceIdeal.ValueP.ops (F := F)) V (Proc.devRef .tc main_arg3) = V (Proc.devRef .tc main_arg3) :=
  StableHlo.after_of_forall_not_mem (b := Proc.devRef .tc main_arg3) _ _ (List.forall_iff_forall_mem.mp (by writes_another))

/-- Argument 4 ends as launched. -/
theorem kept_main_arg4 (V : Valuation τ sig (Elt F)) :
    StableHlo.after (Cert.ReferenceIdeal.ValueP.ops (F := F)) V (Proc.devRef .tc main_arg4) = V (Proc.devRef .tc main_arg4) :=
  StableHlo.after_of_forall_not_mem (b := Proc.devRef .tc main_arg4) _ _ (List.forall_iff_forall_mem.mp (by writes_another))

/-- Argument 5 ends as launched. -/
theorem kept_main_arg5 (V : Valuation τ sig (Elt F)) :
    StableHlo.after (Cert.ReferenceIdeal.ValueP.ops (F := F)) V (Proc.devRef .tc main_arg5) = V (Proc.devRef .tc main_arg5) :=
  StableHlo.after_of_forall_not_mem (b := Proc.devRef .tc main_arg5) _ _ (List.forall_iff_forall_mem.mp (by writes_another))

/-- Argument 6 ends as launched. -/
theorem kept_main_arg6 (V : Valuation τ sig (Elt F)) :
    StableHlo.after (Cert.ReferenceIdeal.ValueP.ops (F := F)) V (Proc.devRef .tc main_arg6) = V (Proc.devRef .tc main_arg6) :=
  StableHlo.after_of_forall_not_mem (b := Proc.devRef .tc main_arg6) _ _ (List.forall_iff_forall_mem.mp (by writes_another))

/-- Argument 7 ends as launched. -/
theorem kept_main_arg7 (V : Valuation τ sig (Elt F)) :
    StableHlo.after (Cert.ReferenceIdeal.ValueP.ops (F := F)) V (Proc.devRef .tc main_arg7) = V (Proc.devRef .tc main_arg7) :=
  StableHlo.after_of_forall_not_mem (b := Proc.devRef .tc main_arg7) _ _ (List.forall_iff_forall_mem.mp (by writes_another))

/-- Argument 8 ends as launched. -/
theorem kept_main_arg8 (V : Valuation τ sig (Elt F)) :
    StableHlo.after (Cert.ReferenceIdeal.ValueP.ops (F := F)) V (Proc.devRef .tc main_arg8) = V (Proc.devRef .tc main_arg8) :=
  StableHlo.after_of_forall_not_mem (b := Proc.devRef .tc main_arg8) _ _ (List.forall_iff_forall_mem.mp (by writes_another))

/-- Argument 9 ends as launched. -/
theorem kept_main_arg9 (V : Valuation τ sig (Elt F)) :
    StableHlo.after (Cert.ReferenceIdeal.ValueP.ops (F := F)) V (Proc.devRef .tc main_arg9) = V (Proc.devRef .tc main_arg9) :=
  StableHlo.after_of_forall_not_mem (b := Proc.devRef .tc main_arg9) _ _ (List.forall_iff_forall_mem.mp (by writes_another))

/-- Argument 10 ends as launched. -/
theorem kept_main_arg10 (V : Valuation τ sig (Elt F)) :
    StableHlo.after (Cert.ReferenceIdeal.ValueP.ops (F := F)) V (Proc.devRef .tc main_arg10) = V (Proc.devRef .tc main_arg10) :=
  StableHlo.after_of_forall_not_mem (b := Proc.devRef .tc main_arg10) _ _ (List.forall_iff_forall_mem.mp (by writes_another))

/-- Argument 11 ends as launched. -/
theorem kept_main_arg11 (V : Valuation τ sig (Elt F)) :
    StableHlo.after (Cert.ReferenceIdeal.ValueP.ops (F := F)) V (Proc.devRef .tc main_arg11) = V (Proc.devRef .tc main_arg11) :=
  StableHlo.after_of_forall_not_mem (b := Proc.devRef .tc main_arg11) _ _ (List.forall_iff_forall_mem.mp (by writes_another))

end Cert.ReferenceIdeal.HandRun

end
-- ==== Proof.RefRun.lean ====
/-
  The reference program's run, read one stretch at a time.

  The program is a straight line of 145 operations, each writing one buffer as a pure function of buffers written before
  it; the buffers after the line are the left fold of the operations' results over the launch contents. The line falls into
  five stretches: the tokens' embeddings and the edge types as floats, three rounds of message passing, and the selection of
  node 0. Each stretch is read for an ARBITRARY valuation before it: its result buffer is the corresponding stage function
  of the arguments whenever the buffers it reads are, and it leaves the edge types and the weights as they were. The fold
  over the whole line is the fold over the stretches in turn, so the last buffer is the last stage of the arguments; the
  arguments themselves are written by no operation.
-/
import proofs.«135701_j65085934403743_1_alg».proof.Proof.RefOps
import proofs.«135701_j65085934403743_1_alg».proof.Proof.RefRead
import proofs.«135701_j65085934403743_1_alg».proof.Proof.RefKeep

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

section Lemmas

variable {F : FTy → Type} [FloatOps F]

/-- The fold over two lines in a row is the fold over the second from the fold over the first. -/
theorem after_two (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

section Stretches

variable (W : Valuation τ sig (Elt F))
variable (x0 : (⟨S32x64, .i32⟩ : BufTy).Contents (Elt F)) (x1 : (⟨S32x64x64, .i32⟩ : BufTy).Contents (Elt F))
  (x3 : (⟨S32000x128, .f32⟩ : BufTy).Contents (Elt F)) (x4 : (⟨S256x256, .f32⟩ : BufTy).Contents (Elt F))
  (x5 : (⟨S256, .f32⟩ : BufTy).Contents (Elt F)) (x6 : (⟨S128x256, .f32⟩ : BufTy).Contents (Elt F))
  (x7 : (⟨S128, .f32⟩ : BufTy).Contents (Elt F)) (x8 : (⟨S256x256, .f32⟩ : BufTy).Contents (Elt F))
  (x9 : (⟨S256, .f32⟩ : BufTy).Contents (Elt F)) (x10 : (⟨S128x256, .f32⟩ : BufTy).Contents (Elt F))
  (x11 : (⟨S128, .f32⟩ : BufTy).Contents (Elt F))

/-! ## The first stretch: the embeddings and the edge types -/

/-- After the first stretch the embeddings' buffer is the gather stage of the token and table arguments. -/
theorem head_v6 : after opsHead W (Proc.devRef .tc main_v6)
    = val_main_v6 (F := F) (W (Proc.devRef .tc main_arg0)) (W (Proc.devRef .tc main_arg3)) := by
  after_results
  rfl

/-- After the first stretch the edge types' buffer is the conversion stage of the edge-type argument. -/
theorem head_v8 : after opsHead W (Proc.devRef .tc main_v8) = val_main_v8 (F := F) (W (Proc.devRef .tc main_arg1)) := by
  after_results
  rfl

/-- The first stretch writes none of the eight weight arguments. -/
theorem head_keeps :
    after opsHead W (Proc.devRef .tc main_arg4) = W (Proc.devRef .tc main_arg4)
    ∧ after opsHead W (Proc.devRef .tc main_arg5) = W (Proc.devRef .tc main_arg5)
    ∧ after opsHead W (Proc.devRef .tc main_arg6) = W (Proc.devRef .tc main_arg6)
    ∧ after opsHead W (Proc.devRef .tc main_arg7) = W (Proc.devRef .tc main_arg7)
    ∧ after opsHead W (Proc.devRef .tc main_arg8) = W (Proc.devRef .tc main_arg8)
    ∧ after opsHead W (Proc.devRef .tc main_arg9) = W (Proc.devRef .tc main_arg9)
    ∧ after opsHead W (Proc.devRef .tc main_arg10) = W (Proc.devRef .tc main_arg10)
    ∧ after opsHead W (Proc.devRef .tc main_arg11) = W (Proc.devRef .tc main_arg11) := by
  refine ⟨?_, ?_, ?_, ?_, ?_, ?_, ?_, ?_⟩ <;> after_results_simp

/-! ## The first round -/

/-- The first round: from the embeddings' and the edge types' buffers and the weights, the round's result buffer is the
    round's last stage. -/
theorem round1_fold (h6 : W (Proc.devRef .tc main_v6) = val_main_v6 (F := F) x0 x3)
    (h8 : W (Proc.devRef .tc main_v8) = val_main_v8 (F := F) x1)
    (h4 : W (Proc.devRef .tc main_arg4) = x4) (h5 : W (Proc.devRef .tc main_arg5) = x5)
    (h6' : W (Proc.devRef .tc main_arg6) = x6) (h7 : W (Proc.devRef .tc main_arg7) = x7)
    (h8' : W (Proc.devRef .tc main_arg8) = x8) (h9 : W (Proc.devRef .tc main_arg9) = x9)
    (h10 : W (Proc.devRef .tc main_arg10) = x10) (h11 : W (Proc.devRef .tc main_arg11) = x11) :
    after opsRound1 W (Proc.devRef .tc main_v42) = val_main_v42 (F := F) x0 x1 x3 x4 x5 x6 x7 x8 x9 x10 x11 := by
  after_results_simp
  repeat (first | rw [unary_result] | (rw [unary_result_ne]; rotate_left; decide))
  simp only [TRef.ofBuf, TRef.toBuf, cast_eq]
  rw [h6, h8, h4, h5, h6', h7, h8', h9, h10, h11]
  rfl

/-- The first round writes neither the edge types' buffer nor any of the eight weight arguments. -/
theorem round1_keeps :
    after opsRound1 W (Proc.devRef .tc main_v8) = W (Proc.devRef .tc main_v8)
    ∧ after opsRound1 W (Proc.devRef .tc main_arg4) = W (Proc.devRef .tc main_arg4)
    ∧ after opsRound1 W (Proc.devRef .tc main_arg5) = W (Proc.devRef .tc main_arg5)
    ∧ after opsRound1 W (Proc.devRef .tc main_arg6) = W (Proc.devRef .tc main_arg6)
    ∧ after opsRound1 W (Proc.devRef .tc main_arg7) = W (Proc.devRef .tc main_arg7)
    ∧ after opsRound1 W (Proc.devRef .tc main_arg8) = W (Proc.devRef .tc main_arg8)
    ∧ after opsRound1 W (Proc.devRef .tc main_arg9) = W (Proc.devRef .tc main_arg9)
    ∧ after opsRound1 W (Proc.devRef .tc main_arg10) = W (Proc.devRef .tc main_arg10)
    ∧ after opsRound1 W (Proc.devRef .tc main_arg11) = W (Proc.devRef .tc main_arg11) := by
  refine ⟨?_, ?_, ?_, ?_, ?_, ?_, ?_, ?_, ?_⟩ <;> after_results_simp

/-! ## The second round -/

/-- The second round: from the first round's result, the edge types' buffer and the weights, the round's result buffer is
    the round's last stage. -/
theorem round2_fold (h42 : W (Proc.devRef .tc main_v42) = val_main_v42 (F := F) x0 x1 x3 x4 x5 x6 x7 x8 x9 x10 x11)
    (h8 : W (Proc.devRef .tc main_v8) = val_main_v8 (F := F) x1)
    (h4 : W (Proc.devRef .tc main_arg4) = x4) (h5 : W (Proc.devRef .tc main_arg5) = x5)
    (h6' : W (Proc.devRef .tc main_arg6) = x6) (h7 : W (Proc.devRef .tc main_arg7) = x7)
    (h8' : W (Proc.devRef .tc main_arg8) = x8) (h9 : W (Proc.devRef .tc main_arg9) = x9)
    (h10 : W (Proc.devRef .tc main_arg10) = x10) (h11 : W (Proc.devRef .tc main_arg11) = x11) :
    after opsRound2 W (Proc.devRef .tc main_v76) = val_main_v76 (F := F) x0 x1 x3 x4 x5 x6 x7 x8 x9 x10 x11 := by
  after_results_simp
  repeat (first | rw [unary_result] | (rw [unary_result_ne]; rotate_left; decide))
  simp only [TRef.ofBuf, TRef.toBuf, cast_eq]
  rw [h42, h8, h4, h5, h6', h7, h8', h9, h10, h11]
  rfl

/-- The second round writes neither the edge types' buffer nor any of the eight weight arguments. -/
theorem round2_keeps :
    after opsRound2 W (Proc.devRef .tc main_v8) = W (Proc.devRef .tc main_v8)
    ∧ after opsRound2 W (Proc.devRef .tc main_arg4) = W (Proc.devRef .tc main_arg4)
    ∧ after opsRound2 W (Proc.devRef .tc main_arg5) = W (Proc.devRef .tc main_arg5)
    ∧ after opsRound2 W (Proc.devRef .tc main_arg6) = W (Proc.devRef .tc main_arg6)
    ∧ after opsRound2 W (Proc.devRef .tc main_arg7) = W (Proc.devRef .tc main_arg7)
    ∧ after opsRound2 W (Proc.devRef .tc main_arg8) = W (Proc.devRef .tc main_arg8)
    ∧ after opsRound2 W (Proc.devRef .tc main_arg9) = W (Proc.devRef .tc main_arg9)
    ∧ after opsRound2 W (Proc.devRef .tc main_arg10) = W (Proc.devRef .tc main_arg10)
    ∧ after opsRound2 W (Proc.devRef .tc main_arg11) = W (Proc.devRef .tc main_arg11) := by
  refine ⟨?_, ?_, ?_, ?_, ?_, ?_, ?_, ?_, ?_⟩ <;> after_results_simp

/-! ## The third round -/

/-- The third round: from the second round's result, the edge types' buffer and the weights, the round's result buffer is
    the round's last stage. -/
theorem round3_fold (h76 : W (Proc.devRef .tc main_v76) = val_main_v76 (F := F) x0 x1 x3 x4 x5 x6 x7 x8 x9 x10 x11)
    (h8 : W (Proc.devRef .tc main_v8) = val_main_v8 (F := F) x1)
    (h4 : W (Proc.devRef .tc main_arg4) = x4) (h5 : W (Proc.devRef .tc main_arg5) = x5)
    (h6' : W (Proc.devRef .tc main_arg6) = x6) (h7 : W (Proc.devRef .tc main_arg7) = x7)
    (h8' : W (Proc.devRef .tc main_arg8) = x8) (h9 : W (Proc.devRef .tc main_arg9) = x9)
    (h10 : W (Proc.devRef .tc main_arg10) = x10) (h11 : W (Proc.devRef .tc main_arg11) = x11) :
    after opsRound3 W (Proc.devRef .tc main_v110) = val_main_v110 (F := F) x0 x1 x3 x4 x5 x6 x7 x8 x9 x10 x11 := by
  after_results_simp
  repeat (first | rw [unary_result] | (rw [unary_result_ne]; rotate_left; decide))
  simp only [TRef.ofBuf, TRef.toBuf, cast_eq]
  rw [h76, h8, h4, h5, h6', h7, h8', h9, h10, h11]
  rfl

/-! ## The last stretch: node 0 of every batch entry -/

/-- The last stretch: from the third round's result, the program's result buffer is the last stage. -/
theorem tail_fold (h110 : W (Proc.devRef .tc main_v110) = val_main_v110 (F := F) x0 x1 x3 x4 x5 x6 x7 x8 x9 x10 x11) :
    after opsTail W (Proc.devRef .tc main_v112) = val_main_v112 (F := F) x0 x1 x3 x4 x5 x6 x7 x8 x9 x10 x11 := by
  after_results
  rw [h110]
  rfl

end Stretches

/-! ## The whole line -/

/-- After the whole line, from ANY valuation, the result buffer is the last stage of the valuation's arguments. -/
theorem fold_v112 (V : Valuation τ sig (Elt F)) :
    after ops V (Proc.devRef .tc main_v112)
      = val_main_v112 (F := F) (V (Proc.devRef .tc main_arg0)) (V (Proc.devRef .tc main_arg1)) (V (Proc.devRef .tc main_arg3))
          (V (Proc.devRef .tc main_arg4)) (V (Proc.devRef .tc main_arg5)) (V (Proc.devRef .tc main_arg6))
          (V (Proc.devRef .tc main_arg7)) (V (Proc.devRef .tc main_arg8)) (V (Proc.devRef .tc main_arg9))
          (V (Proc.devRef .tc main_arg10)) (V (Proc.devRef .tc main_arg11)) := by
  rw [ops_eq_stretches, after_two, after_two, after_two, after_two]
  obtain ⟨a4, a5, a6, a7, a8, a9, a10, a11⟩ := head_keeps V
  obtain ⟨b, b4, b5, b6, b7, b8, b9, b10, b11⟩ := round1_keeps (after opsHead V)
  obtain ⟨c, c4, c5, c6, c7, c8, c9, c10, c11⟩ := round2_keeps (after opsRound1 (after opsHead V))
  have e8 := head_v8 V
  have e42 := round1_fold (after opsHead V) _ _ _ _ _ _ _ _ _ _ _ (head_v6 V) e8 a4 a5 a6 a7 a8 a9 a10 a11
  have e76 := round2_fold (after opsRound1 (after opsHead V)) _ _ _ _ _ _ _ _ _ _ _ e42 (b.trans e8) (b4.trans a4) (b5.trans a5)
    (b6.trans a6) (b7.trans a7) (b8.trans a8) (b9.trans a9) (b10.trans a10) (b11.trans a11)
  have e110 := round3_fold (after opsRound2 (after opsRound1 (after opsHead V))) _ _ _ _ _ _ _ _ _ _ _ e76 (c.trans (b.trans e8))
    (c4.trans (b4.trans a4)) (c5.trans (b5.trans a5)) (c6.trans (b6.trans a6)) (c7.trans (b7.trans a7)) (c8.trans (b8.trans a8))
    (c9.trans (b9.trans a9)) (c10.trans (b10.trans a10)) (c11.trans (b11.trans a11))
  exact tail_fold (after opsRound3 (after opsRound2 (after opsRound1 (after opsHead V)))) _ _ _ _ _ _ _ _ _ _ _ e110

end Lemmas

/-- On every device, for any float values, from any memory with zero counters: every weakly fair execution of @main
    terminates with the result buffer at the last stage of the arguments' launch contents and the arguments unchanged. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v112) = Cert.ReferenceIdeal.ReadP.val_main_v112 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v112).trans (fold_v112 (launchContents m c)),
      (h c main_arg0).trans (kept_main_arg0 (launchContents m c)),
      (h c main_arg1).trans (kept_main_arg1 (launchContents m c)),
      (h c main_arg2).trans (kept_main_arg2 (launchContents m c)),
      (h c main_arg3).trans (kept_main_arg3 (launchContents m c)),
      (h c main_arg4).trans (kept_main_arg4 (launchContents m c)),
      (h c main_arg5).trans (kept_main_arg5 (launchContents m c)),
      (h c main_arg6).trans (kept_main_arg6 (launchContents m c)),
      (h c main_arg7).trans (kept_main_arg7 (launchContents m c)),
      (h c main_arg8).trans (kept_main_arg8 (launchContents m c)),
      (h c main_arg9).trans (kept_main_arg9 (launchContents m c)),
      (h c main_arg10).trans (kept_main_arg10 (launchContents m c)),
      (h c main_arg11).trans (kept_main_arg11 (launchContents m c))⟩)
    (run_seq scopedRefs_eq scopedSems_eq defs main (fun _ => ops) main_eq (fun _ => ops_sub) m ρ)

end Cert.ReferenceIdeal.HandRun

end
-- ==== Proof.Prologue.lean ====
/-
  The host prologue of the kernel's program: a token `x` selects row `x` of the embedding table, or row `x + 32000` when
  `x` is negative, and the selected rows are gathered into the [32, 64, 128] embeddings array that the first region reads.
  The prologue writes only its own intermediate buffers, so every argument is as launched when the first region is entered.
-/
import proofs.«135701_j65085934403743_1_alg».proof.Proof.Gen.KernelIdeal.Frame
import Idealize.ShloMosaic.Lib.StableHlo.Run
import Idealize.ShloMosaic.PureOps.Ideal

set_option maxRecDepth 16384

noncomputable section

open Idealize.ShloMosaic Idealize.ShloMosaic.TcCoe Idealize.SL.Sem

namespace Cert.KernelIdeal.Round

open Cert.KernelIdeal Cert.KernelIdeal.Gen

variable (m : (ℓ : Loc nD τ sig) → Buf (Elt Ideal) ℓ) (ρ : Dev nD → PrngReg)

/-- The embeddings the host prologue gathers, as a function of the tokens `x0` and the table `x3`. -/
def gathered (x0 : (⟨S32x64, .i32⟩ : BufTy).Contents (Elt Ideal)) (x3 : (⟨S32000x128, .f32⟩ : BufTy).Contents (Elt Ideal)) :
    (⟨S32x64x128, .f32⟩ : BufTy).Contents (Elt Ideal) :=
  Host.gather gather_S32000x128_S32x64x1_S32x64x128_2_0_n_n_0_2_1128 x3
    (broadcastInDim S32x64x1 ![0, 1] bcast_S32x64_S32x64x1_0_1
      (select (cmpi .slt x0 (broadcastInDim S32x64 ![] bcast_S_S32x64 (constantI S_ 32 0#32)))
        (addi x0 (broadcastInDim S32x64 ![] bcast_S_S32x64 (constantI S_ 32 32000#32))) x0))

/-- Closes "no operation of the prologue writes this buffer": each operation writes one buffer, another one. -/
macro "prologue_keeps" : tactic => `(tactic| (
  simp only [hostOps0, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- When the first region is entered the embeddings array holds the gathered embeddings. -/
theorem entry1_emb (c : Dev nD) :
    V1 m ρ c main_v6 = gathered (m ((c : Thread nD τ).loc main_arg0)) (m ((c : Thread nD τ).loc main_arg3)) := by
  show StableHlo.after hostOps0 (W0 m ρ c) (Proc.devRef .tc main_v6) = _
  after_results
  rfl

/-- An example of the macro's use, kept as a check: the edge types are as launched when the first region is entered. -/
theorem entry1_edgeTypes (c : Dev nD) : V1 m ρ c main_arg1 = m ((c : Thread nD τ).loc main_arg1) :=
  StableHlo.after_of_forall_not_mem (b := Proc.devRef .tc main_arg1) _ _ (List.forall_iff_forall_mem.mp (by prologue_keeps))

end Cert.KernelIdeal.Round

end
-- ==== Proof.ArgsKept.lean ====
/-
  The nine arguments the regions read (the edge types and the eight weight arrays) hold their launch contents when each of the
  three regions is entered: no host operation of the prologue writes them, and a region that stages an array through an input
  window leaves it as it found it.
-/
import proofs.«135701_j65085934403743_1_alg».proof.Proof.Prologue

set_option maxRecDepth 16384

noncomputable section

open Idealize.ShloMosaic Idealize.ShloMosaic.TcCoe Idealize.SL.Sem
open Idealize.ShloMosaic.Pipeline (Dat)

namespace Cert.KernelIdeal.Round

open Cert.KernelIdeal Cert.KernelIdeal.Gen

variable (m : (ℓ : Loc nD τ sig) → Buf (Elt Ideal) ℓ) (ρ : Dev nD → PrngReg)

/-- `main_arg1` at the three regions' entries. -/
theorem entry1_main_arg1 (c : Dev nD) : V1 m ρ c main_arg1 = m ((c : Thread nD τ).loc main_arg1) :=
  StableHlo.after_of_forall_not_mem (b := Proc.devRef .tc main_arg1) _ _ (List.forall_iff_forall_mem.mp (by prologue_keeps))
theorem entry2_main_arg1 (c : Dev nD) : V2 m ρ c main_arg1 = m ((c : Thread nD τ).loc main_arg1) :=
  ((W2_arr m ρ c 1).trans (((dat0 (V1 m ρ) c).arrAt_in 1 rfl _).trans (A_eq0 (V1 m ρ) c 1))).trans (entry1_main_arg1 m ρ c)
theorem entry3_main_arg1 (c : Dev nD) : V3 m ρ c main_arg1 = m ((c : Thread nD τ).loc main_arg1) :=
  ((W3_arr m ρ c 1).trans (((dat1 (V2 m ρ) c).arrAt_in 1 rfl _).trans (A_eq1 (V2 m ρ) c 1))).trans (entry2_main_arg1 m ρ c)

/-- `main_arg4` at the three regions' entries. -/
theorem entry1_main_arg4 (c : Dev nD) : V1 m ρ c main_arg4 = m ((c : Thread nD τ).loc main_arg4) :=
  StableHlo.after_of_forall_not_mem (b := Proc.devRef .tc main_arg4) _ _ (List.forall_iff_forall_mem.mp (by prologue_keeps))
theorem entry2_main_arg4 (c : Dev nD) : V2 m ρ c main_arg4 = m ((c : Thread nD τ).loc main_arg4) :=
  ((W2_arr m ρ c 2).trans (((dat0 (V1 m ρ) c).arrAt_in 2 rfl _).trans (A_eq0 (V1 m ρ) c 2))).trans (entry1_main_arg4 m ρ c)
theorem entry3_main_arg4 (c : Dev nD) : V3 m ρ c main_arg4 = m ((c : Thread nD τ).loc main_arg4) :=
  ((W3_arr m ρ c 2).trans (((dat1 (V2 m ρ) c).arrAt_in 2 rfl _).trans (A_eq1 (V2 m ρ) c 2))).trans (entry2_main_arg4 m ρ c)

/-- `main_arg5` at the three regions' entries. -/
theorem entry1_main_arg5 (c : Dev nD) : V1 m ρ c main_arg5 = m ((c : Thread nD τ).loc main_arg5) :=
  StableHlo.after_of_forall_not_mem (b := Proc.devRef .tc main_arg5) _ _ (List.forall_iff_forall_mem.mp (by prologue_keeps))
theorem entry2_main_arg5 (c : Dev nD) : V2 m ρ c main_arg5 = m ((c : Thread nD τ).loc main_arg5) :=
  ((W2_arr m ρ c 3).trans (((dat0 (V1 m ρ) c).arrAt_in 3 rfl _).trans (A_eq0 (V1 m ρ) c 3))).trans (entry1_main_arg5 m ρ c)
theorem entry3_main_arg5 (c : Dev nD) : V3 m ρ c main_arg5 = m ((c : Thread nD τ).loc main_arg5) :=
  ((W3_arr m ρ c 3).trans (((dat1 (V2 m ρ) c).arrAt_in 3 rfl _).trans (A_eq1 (V2 m ρ) c 3))).trans (entry2_main_arg5 m ρ c)

/-- `main_arg6` at the three regions' entries. -/
theorem entry1_main_arg6 (c : Dev nD) : V1 m ρ c main_arg6 = m ((c : Thread nD τ).loc main_arg6) :=
  StableHlo.after_of_forall_not_mem (b := Proc.devRef .tc main_arg6) _ _ (List.forall_iff_forall_mem.mp (by prologue_keeps))
theorem entry2_main_arg6 (c : Dev nD) : V2 m ρ c main_arg6 = m ((c : Thread nD τ).loc main_arg6) :=
  ((W2_arr m ρ c 4).trans (((dat0 (V1 m ρ) c).arrAt_in 4 rfl _).trans (A_eq0 (V1 m ρ) c 4))).trans (entry1_main_arg6 m ρ c)
theorem entry3_main_arg6 (c : Dev nD) : V3 m ρ c main_arg6 = m ((c : Thread nD τ).loc main_arg6) :=
  ((W3_arr m ρ c 4).trans (((dat1 (V2 m ρ) c).arrAt_in 4 rfl _).trans (A_eq1 (V2 m ρ) c 4))).trans (entry2_main_arg6 m ρ c)

/-- `main_arg7` at the three regions' entries. -/
theorem entry1_main_arg7 (c : Dev nD) : V1 m ρ c main_arg7 = m ((c : Thread nD τ).loc main_arg7) :=
  StableHlo.after_of_forall_not_mem (b := Proc.devRef .tc main_arg7) _ _ (List.forall_iff_forall_mem.mp (by prologue_keeps))
theorem entry2_main_arg7 (c : Dev nD) : V2 m ρ c main_arg7 = m ((c : Thread nD τ).loc main_arg7) :=
  ((W2_arr m ρ c 5).trans (((dat0 (V1 m ρ) c).arrAt_in 5 rfl _).trans (A_eq0 (V1 m ρ) c 5))).trans (entry1_main_arg7 m ρ c)
theorem entry3_main_arg7 (c : Dev nD) : V3 m ρ c main_arg7 = m ((c : Thread nD τ).loc main_arg7) :=
  ((W3_arr m ρ c 5).trans (((dat1 (V2 m ρ) c).arrAt_in 5 rfl _).trans (A_eq1 (V2 m ρ) c 5))).trans (entry2_main_arg7 m ρ c)

/-- `main_arg8` at the three regions' entries. -/
theorem entry1_main_arg8 (c : Dev nD) : V1 m ρ c main_arg8 = m ((c : Thread nD τ).loc main_arg8) :=
  StableHlo.after_of_forall_not_mem (b := Proc.devRef .tc main_arg8) _ _ (List.forall_iff_forall_mem.mp (by prologue_keeps))
theorem entry2_main_arg8 (c : Dev nD) : V2 m ρ c main_arg8 = m ((c : Thread nD τ).loc main_arg8) :=
  ((W2_arr m ρ c 6).trans (((dat0 (V1 m ρ) c).arrAt_in 6 rfl _).trans (A_eq0 (V1 m ρ) c 6))).trans (entry1_main_arg8 m ρ c)
theorem entry3_main_arg8 (c : Dev nD) : V3 m ρ c main_arg8 = m ((c : Thread nD τ).loc main_arg8) :=
  ((W3_arr m ρ c 6).trans (((dat1 (V2 m ρ) c).arrAt_in 6 rfl _).trans (A_eq1 (V2 m ρ) c 6))).trans (entry2_main_arg8 m ρ c)

/-- `main_arg9` at the three regions' entries. -/
theorem entry1_main_arg9 (c : Dev nD) : V1 m ρ c main_arg9 = m ((c : Thread nD τ).loc main_arg9) :=
  StableHlo.after_of_forall_not_mem (b := Proc.devRef .tc main_arg9) _ _ (List.forall_iff_forall_mem.mp (by prologue_keeps))
theorem entry2_main_arg9 (c : Dev nD) : V2 m ρ c main_arg9 = m ((c : Thread nD τ).loc main_arg9) :=
  ((W2_arr m ρ c 7).trans (((dat0 (V1 m ρ) c).arrAt_in 7 rfl _).trans (A_eq0 (V1 m ρ) c 7))).trans (entry1_main_arg9 m ρ c)
theorem entry3_main_arg9 (c : Dev nD) : V3 m ρ c main_arg9 = m ((c : Thread nD τ).loc main_arg9) :=
  ((W3_arr m ρ c 7).trans (((dat1 (V2 m ρ) c).arrAt_in 7 rfl _).trans (A_eq1 (V2 m ρ) c 7))).trans (entry2_main_arg9 m ρ c)

/-- `main_arg10` at the three regions' entries. -/
theorem entry1_main_arg10 (c : Dev nD) : V1 m ρ c main_arg10 = m ((c : Thread nD τ).loc main_arg10) :=
  StableHlo.after_of_forall_not_mem (b := Proc.devRef .tc main_arg10) _ _ (List.forall_iff_forall_mem.mp (by prologue_keeps))
theorem entry2_main_arg10 (c : Dev nD) : V2 m ρ c main_arg10 = m ((c : Thread nD τ).loc main_arg10) :=
  ((W2_arr m ρ c 8).trans (((dat0 (V1 m ρ) c).arrAt_in 8 rfl _).trans (A_eq0 (V1 m ρ) c 8))).trans (entry1_main_arg10 m ρ c)
theorem entry3_main_arg10 (c : Dev nD) : V3 m ρ c main_arg10 = m ((c : Thread nD τ).loc main_arg10) :=
  ((W3_arr m ρ c 8).trans (((dat1 (V2 m ρ) c).arrAt_in 8 rfl _).trans (A_eq1 (V2 m ρ) c 8))).trans (entry2_main_arg10 m ρ c)

/-- `main_arg11` at the three regions' entries. -/
theorem entry1_main_arg11 (c : Dev nD) : V1 m ρ c main_arg11 = m ((c : Thread nD τ).loc main_arg11) :=
  StableHlo.after_of_forall_not_mem (b := Proc.devRef .tc main_arg11) _ _ (List.forall_iff_forall_mem.mp (by prologue_keeps))
theorem entry2_main_arg11 (c : Dev nD) : V2 m ρ c main_arg11 = m ((c : Thread nD τ).loc main_arg11) :=
  ((W2_arr m ρ c 9).trans (((dat0 (V1 m ρ) c).arrAt_in 9 rfl _).trans (A_eq0 (V1 m ρ) c 9))).trans (entry1_main_arg11 m ρ c)
theorem entry3_main_arg11 (c : Dev nD) : V3 m ρ c main_arg11 = m ((c : Thread nD τ).loc main_arg11) :=
  ((W3_arr m ρ c 9).trans (((dat1 (V2 m ρ) c).arrAt_in 9 rfl _).trans (A_eq1 (V2 m ρ) c 9))).trans (entry2_main_arg11 m ρ c)

end Cert.KernelIdeal.Round

end
-- ==== Proof.Spec.lean ====
/-
  One round of message passing on a dense graph, as a function of its arrays, index by index, on the extended reals.

  For one batch entry with node embeddings `E : 64 × 128` and edge types `a : 64 × 64` (as reals), the feature vector of
  the ordered pair (receiver `r`, sender `c`) is the sender's embedding followed by the receiver's (`pairFeat`, length 256).
  Each of two edge-type networks maps it through two affine layers with a rectified output (`hidden`, `message`):
  `message r c d = max (∑ h, max (∑ e, pairFeat r c e · W1 h e + b1 h) 0 · W2 d h + b2 d) 0`.
  The two networks' messages are blended by the edge type, summed over the senders and added to the receiver's embedding:
  `roundRow r d = E r d + ∑ c, (message₀ r c d · (1 − a r c) + message₁ r c d · a r c)`.
  `roundG` is that function on the whole [32, 64, 128] array, one batch entry at a time; `firstNode` keeps node 0 of every
  batch entry. Sums over a finite index type on the extended reals are sums in a commutative monoid, so the order in which
  either program adds its terms does not matter, and no identity used below needs a finite operand.
-/
import Idealize.ShloMosaic.PureOps.Ideal
import Idealize.ShloMosaic.Lib.ValueIdx

noncomputable section

open Idealize.ShloMosaic

namespace Cert.Spec

open ValueIdx

/-- The two float words either program mentions: 0.0 and 1.0 (kept as words; the same word stands on both sides). -/
abbrev zeroW : EReal := Ideal.ofBits .f32 0x00000000#32
abbrev oneW : EReal := Ideal.ofBits .f32 0x3F800000#32

/-- Feature `e` of the ordered pair (receiver `r`, sender `c`): entries 0…127 are the sender's embedding, entries
    128…255 the receiver's. -/
def pairFeat (E : Fin 64 → Fin 128 → EReal) (r c : Fin 64) (e : Fin 256) : EReal :=
  if h : e.val < 128 then E c ⟨e.val, h⟩ else E r ⟨e.val - 128, by have := e.isLt; omega⟩

/-- The hidden unit `h` of one edge-type network on the pair (r, c): an affine map of the pair's features, rectified. -/
def hidden (W1 : Fin 256 → Fin 256 → EReal) (b1 : Fin 256 → EReal) (E : Fin 64 → Fin 128 → EReal) (r c : Fin 64)
    (h : Fin 256) : EReal :=
  max ((∑ e : Fin 256, pairFeat E r c e * W1 h e) + b1 h) zeroW

/-- Coordinate `d` of the message one edge-type network sends along the pair (r, c): an affine map of the hidden units,
    rectified. -/
def message (W1 : Fin 256 → Fin 256 → EReal) (b1 : Fin 256 → EReal) (W2 : Fin 128 → Fin 256 → EReal) (b2 : Fin 128 → EReal)
    (E : Fin 64 → Fin 128 → EReal) (r c : Fin 64) (d : Fin 128) : EReal :=
  max ((∑ h : Fin 256, hidden W1 b1 E r c h * W2 d h) + b2 d) zeroW

/-- One round for one batch entry, at receiver `r` and coordinate `d`: the embedding plus the sum over the senders of the
    two networks' messages blended by the edge type. -/
def roundRow (E : Fin 64 → Fin 128 → EReal) (a : Fin 64 → Fin 64 → EReal)
    (W1₀ : Fin 256 → Fin 256 → EReal) (b1₀ : Fin 256 → EReal) (W2₀ : Fin 128 → Fin 256 → EReal) (b2₀ : Fin 128 → EReal)
    (W1₁ : Fin 256 → Fin 256 → EReal) (b1₁ : Fin 256 → EReal) (W2₁ : Fin 128 → Fin 256 → EReal) (b2₁ : Fin 128 → EReal)
    (r : Fin 64) (d : Fin 128) : EReal :=
  E r d + ∑ c : Fin 64, (message W1₀ b1₀ W2₀ b2₀ E r c d * (oneW - a r c) + message W1₁ b1₁ W2₁ b2₁ E r c d * a r c)

/-- The arrays' shapes, as literals (each printed program names the same literals in its own namespace). -/
abbrev SE : Shape := ⟨3, ![32, 64, 128]⟩
abbrev SA : Shape := ⟨3, ![32, 64, 64]⟩
abbrev SW1 : Shape := ⟨2, ![256, 256]⟩
abbrev SB1 : Shape := ⟨1, ![256]⟩
abbrev SW2 : Shape := ⟨2, ![128, 256]⟩
abbrev SB2 : Shape := ⟨1, ![128]⟩
abbrev SOut : Shape := ⟨2, ![32, 128]⟩

/-- One round on the whole arrays: batch entry `b` of the result is `roundRow` of batch entry `b` of the embeddings and of
    the edge types (signed integers read as reals), with the shared weights. -/
def roundG (E : SE.Idx → EReal) (arcs : SA.Idx → BitVec 32)
    (W1₀ : SW1.Idx → EReal) (b1₀ : SB1.Idx → EReal) (W2₀ : SW2.Idx → EReal) (b2₀ : SB2.Idx → EReal)
    (W1₁ : SW1.Idx → EReal) (b1₁ : SB1.Idx → EReal) (W2₁ : SW2.Idx → EReal) (b2₁ : SB2.Idx → EReal) : SE.Idx → EReal :=
  fun i => roundRow (fun r d => E (ix3 (i 0) r d)) (fun r c => FloatOps.sitofp (F := Ideal) .f32 (arcs (ix3 (i 0) r c)))
    (fun h e => W1₀ (ix2 h e)) (fun h => b1₀ (ix1 h)) (fun d h => W2₀ (ix2 d h)) (fun d => b2₀ (ix1 d))
    (fun h e => W1₁ (ix2 h e)) (fun h => b1₁ (ix1 h)) (fun d h => W2₁ (ix2 d h)) (fun d => b2₁ (ix1 d)) (i 1) (i 2)

theorem roundG_ix3 (E : SE.Idx → EReal) (arcs : SA.Idx → BitVec 32)
    (W1₀ : SW1.Idx → EReal) (b1₀ : SB1.Idx → EReal) (W2₀ : SW2.Idx → EReal) (b2₀ : SB2.Idx → EReal)
    (W1₁ : SW1.Idx → EReal) (b1₁ : SB1.Idx → EReal) (W2₁ : SW2.Idx → EReal) (b2₁ : SB2.Idx → EReal)
    (b : Fin 32) (r : Fin 64) (d : Fin 128) :
    roundG E arcs W1₀ b1₀ W2₀ b2₀ W1₁ b1₁ W2₁ b2₁ (ix3 b r d)
      = roundRow (fun r d => E (ix3 b r d)) (fun r c => FloatOps.sitofp (F := Ideal) .f32 (arcs (ix3 b r c)))
          (fun h e => W1₀ (ix2 h e)) (fun h => b1₀ (ix1 h)) (fun d h => W2₀ (ix2 d h)) (fun d => b2₀ (ix1 d))
          (fun h e => W1₁ (ix2 h e)) (fun h => b1₁ (ix1 h)) (fun d h => W2₁ (ix2 d h)) (fun d => b2₁ (ix1 d)) r d := rfl

/-- Node 0 of every batch entry. -/
def firstNode (E : SE.Idx → EReal) : SOut.Idx → EReal := fun i => E (ix3 (i 0) 0 (i 1))

theorem firstNode_ix2 (E : SE.Idx → EReal) (b : Fin 32) (d : Fin 128) : firstNode E (ix2 b d) = E (ix3 b 0 d) := rfl

end Cert.Spec

end
-- ==== Proof.Block0.lean ====
/-
  What one grid point of the message-passing kernel leaves in its output block, read at an index.

  The body loads the batch entry's embeddings `x0 : [1, 64, 128]` and edge types `x1 : [1, 64, 64]` and the eight weight
  arrays whole, lays the pairs' features out as a [4096, 256] matrix (row `64·r + c` is the pair (receiver r, sender c):
  the sender's embedding then the receiver's), multiplies it by each network's transposed weights into a zero accumulator,
  adds the bias rows, rectifies, blends the two [64, 64, 128] message arrays by the edge type, sums over the sender axis and
  adds the embeddings. At the extended reals a change of float format is the identity, so entry (0, r, d) of the stored block
  is `Spec.roundRow` of the loaded arrays at (r, d).
-/
import proofs.«135701_j65085934403743_1_alg».proof.Proof.Gen.KernelIdeal.Frame
import proofs.«135701_j65085934403743_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.KernelIdeal.Round

open Cert.KernelIdeal Cert.KernelIdeal.Gen Cert.Spec ValueIdx

/-- The zero offsets of the whole-buffer rectangles, rank by rank. -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Row `64·r + c` of the pair matrix stands for the ordered pair (receiver `r`, sender `c`); it is below 4096. -/
theorem pairRow_lt (r c : Fin 64) : 64 * r.val + c.val < 4096 := by have := r.isLt; have := c.isLt; omega

/-! ## The layout operations of the body, each read at explicit coordinates -/

/-- Dropping the unit batch axis of a [1, 64, n] block. -/
theorem dropUnit_apply {α : Type} {n : Nat} (x : (⟨3, ![1, 64, n]⟩ : Shape).Idx → α)
    (h : (⟨3, ![1, 64, n]⟩ : Shape).ShapeCasts ⟨2, ![64, n]⟩) (r : Fin 64) (d : Fin n) :
    shapeCast ⟨2, ![64, n]⟩ x h (ix2 r d) = x (ix3 0 r d) := by
  refine shapeCast_apply x h (ix2 r d) (ix3 0 r d) ?_
  rw [Shape.rowMajor_val_three, Shape.rowMajor_val_two]
  show (0 * 64 + r.val) * n + d.val = r.val * n + d.val
  rw [Nat.zero_mul, Nat.zero_add]

/-- Restoring the unit batch axis of a [64, 128] block. -/
theorem addUnit_apply {α : Type} (x : S64x128.Idx → α) (h : S64x128.ShapeCasts S1x64x128) (r : Fin 64) (d : Fin 128) :
    shapeCast S1x64x128 x h (ix3 0 r d) = x (ix2 r d) := by
  refine shapeCast_apply x h (ix3 0 r d) (ix2 r d) ?_
  rw [Shape.rowMajor_val_three, Shape.rowMajor_val_two]
  show r.val * 128 + d.val = (0 * 64 + r.val) * 128 + d.val
  omega

theorem k0_pay2_apply (x0 : Vec Ideal S1x64x128 .f32) (r : Fin 64) (d : Fin 128) :
    k0_pay2 x0 (ix2 r d) = x0 (ix3 0 r d) := by
  unfold k0_pay2
  exact dropUnit_apply x0 _ r d

theorem k0_pay3_apply (x1 : Vec Ideal S1x64x64 .i32) (r c : Fin 64) :
    k0_pay3 (F := Ideal) x1 (ix2 r c) = x1 (ix3 0 r c) := by
  unfold k0_pay3
  exact dropUnit_apply x1 _ r c

/-- A [1, 64, 128] block repeated over a new leading axis: entry (r, c, k) is the block's (0, c, k). -/
theorem bcastLead_apply {α : Type} (x : S1x64x128.Idx → α) (h : S1x64x128.Broadcasts S64x64x128) (r c : Fin 64) (k : Fin 128) :
    broadcastTo S64x64x128 x h (ix3 r c k) = x (ix3 0 c k) :=
  broadcastTo_apply x h (ix3 r c k) (ix3 0 c k) (fun a => match a with
    | ⟨0, _⟩ => by show (0 : Nat) = if (1 : Nat) = 1 then 0 else r.val; rw [if_pos rfl]
    | ⟨1, _⟩ => by show c.val = if (64 : Nat) = 1 then 0 else c.val; rw [if_neg (by decide)]
    | ⟨2, _⟩ => by show k.val = if (128 : Nat) = 1 then 0 else k.val; rw [if_neg (by decide)])

/-- A [64, 128] block with a unit middle axis put in. -/
theorem midUnit_apply {α : Type} (x : S64x128.Idx → α) (h : S64x128.ShapeCasts S64x1x128) (r : Fin 64) (k : Fin 128) :
    shapeCast S64x1x128 x h (ix3 r 0 k) = x (ix2 r k) := by
  refine shapeCast_apply x h (ix3 r 0 k) (ix2 r k) ?_
  rw [Shape.rowMajor_val_three, Shape.rowMajor_val_two]
  show r.val * 128 + k.val = (r.val * 1 + 0) * 128 + k.val
  omega

/-- A [64, 1, 128] block repeated along its unit middle axis: entry (r, c, k) is the block's (r, 0, k). -/
theorem bcastMid_apply {α : Type} (x : S64x1x128.Idx → α) (h : S64x1x128.Broadcasts S64x64x128) (r c : Fin 64) (k : Fin 128) :
    broadcastTo S64x64x128 x h (ix3 r c k) = x (ix3 r 0 k) :=
  broadcastTo_apply x h (ix3 r c k) (ix3 r 0 k) (fun a => match a with
    | ⟨0, _⟩ => by show r.val = if (64 : Nat) = 1 then 0 else r.val; rw [if_neg (by decide)]
    | ⟨1, _⟩ => by show (0 : Nat) = if (1 : Nat) = 1 then 0 else c.val; rw [if_pos rfl]
    | ⟨2, _⟩ => by show k.val = if (128 : Nat) = 1 then 0 else k.val; rw [if_neg (by decide)])

/-- Two [64, 64, 128] arrays joined along the last axis, read in the first half … -/
theorem joinLast_lo {α : Type} (x₁ x₂ : S64x64x128.Idx → α) (h : Shape.Concatenates [S64x64x128, S64x64x128] S64x64x256 2)
    (r c : Fin 64) (e : Fin 256) (he : e.val < 128) :
    concatenate S64x64x256 2 [⟨S64x64x128, x₁⟩, ⟨S64x64x128, x₂⟩] h (ix3 r c e) = x₁ (ix3 r c ⟨e.val, he⟩) :=
  concatenate_pair_apply_left 2 x₁ x₂ h (ix3 r c e) rfl (ix3 r c ⟨e.val, he⟩) (fun b => match b with
    | ⟨0, _⟩ => rfl
    | ⟨1, _⟩ => rfl
    | ⟨2, _⟩ => rfl)

/-- … and in the second half. -/
theorem joinLast_hi {α : Type} (x₁ x₂ : S64x64x128.Idx → α) (h : Shape.Concatenates [S64x64x128, S64x64x128] S64x64x256 2)
    (r c : Fin 64) (e : Fin 256) (he : ¬ e.val < 128) :
    concatenate S64x64x256 2 [⟨S64x64x128, x₁⟩, ⟨S64x64x128, x₂⟩] h (ix3 r c e)
      = x₂ (ix3 r c ⟨e.val - 128, by have := e.isLt; omega⟩) :=
  concatenate_pair_apply_right 2 x₁ x₂ h (ix3 r c e) rfl rfl (ix3 r c ⟨e.val - 128, by have := e.isLt; omega⟩)
    (fun b => match b with
      | ⟨0, _⟩ => fun _ => rfl
      | ⟨1, _⟩ => fun _ => rfl
      | ⟨2, _⟩ => fun hb => absurd rfl hb)
    (by show (e.val - 128) + 128 = e.val; omega)

/-- The pairs' axes flattened: row `64·r + c` of the [4096, n] matrix is entry (r, c) of the [64, 64, n] array … -/
theorem flattenPairs_apply {α : Type} {n : Nat} (x : (⟨3, ![64, 64, n]⟩ : Shape).Idx → α)
    (h : (⟨3, ![64, 64, n]⟩ : Shape).ShapeCasts ⟨2, ![4096, n]⟩) (r c : Fin 64) (e : Fin n) :
    shapeCast ⟨2, ![4096, n]⟩ x h (ix2 (⟨64 * r.val + c.val, pairRow_lt r c⟩ : Fin 4096) e) = x (ix3 r c e) := by
  refine shapeCast_apply x h (ix2 (⟨64 * r.val + c.val, pairRow_lt r c⟩ : Fin 4096) e) (ix3 r c e) ?_
  rw [Shape.rowMajor_val_three, Shape.rowMajor_val_two]
  show (r.val * 64 + c.val) * n + e.val = (64 * r.val + c.val) * n + e.val
  rw [Nat.mul_comm r.val 64]

/-- … and unflattened again. -/
theorem unflattenPairs_apply {α : Type} {n : Nat} (x : (⟨2, ![4096, n]⟩ : Shape).Idx → α)
    (h : (⟨2, ![4096, n]⟩ : Shape).ShapeCasts ⟨3, ![64, 64, n]⟩) (r c : Fin 64) (e : Fin n) :
    shapeCast ⟨3, ![64, 64, n]⟩ x h (ix3 r c e) = x (ix2 (⟨64 * r.val + c.val, pairRow_lt r c⟩ : Fin 4096) e) := by
  refine shapeCast_apply x h (ix3 r c e) (ix2 (⟨64 * r.val + c.val, pairRow_lt r c⟩ : Fin 4096) e) ?_
  rw [Shape.rowMajor_val_three, Shape.rowMajor_val_two]
  show (64 * r.val + c.val) * n + e.val = (r.val * 64 + c.val) * n + e.val
  rw [Nat.mul_comm r.val 64]

/-- The pair-feature matrix: row `64·r + c`, column `e` is feature `e` of the pair (receiver r, sender c). -/
theorem k0_pay4_apply (x0 : Vec Ideal S1x64x128 .f32) (r c : Fin 64) (e : Fin 256) :
    k0_pay4 x0 (ix2 (⟨64 * r.val + c.val, pairRow_lt r c⟩ : Fin 4096) e) = pairFeat (fun r d => x0 (ix3 0 r d)) r c e := by
  unfold k0_pay4
  rw [truncf_apply, flattenPairs_apply]
  unfold pairFeat
  by_cases he : e.val < 128
  · rw [dif_pos he, joinLast_lo _ _ _ r c e he, bcastLead_apply, shapeCast_self, addUnit_apply, k0_pay2_apply]
  · rw [dif_neg he, joinLast_hi _ _ _ r c e he, bcastMid_apply, shapeCast_self, midUnit_apply, k0_pay2_apply]

/-! ## The two products: the pair matrix, or the hidden matrix, times a network's TRANSPOSED weights -/

theorem lhs_first_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_first_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_first_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_first_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

theorem lhs_second_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
theorem lhs_second_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
theorem rhs_second_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
theorem rhs_second_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- Row \`p\` of a [4096, 256] matrix against row \`h\` of the first layer's weights: the product with the transposed weights into a zero accumulator. -/
theorem firstProduct_apply (P : FVec Ideal S4096x256 .bf16) (W : FVec Ideal S256x256 .f32) (hb : FTy.bits .bf16 < FTy.bits .f32)
    (ht : S256x256.Transposes [1, 0] S256x256) (p : Fin 4096) (h : Fin 256) :
    matmul dot_S4096x256_S256x256_S4096x256_1_0_0_1_n_n none P (transpose S256x256 [1, 0] (truncf .bf16 W hb) ht) (constant S4096x256 .f32 0x00000000#32) (ix2 p h)
      = ∑ e : Fin 256, P (ix2 p e) * W (ix2 h e) := by
  refine (Ideal.matmul_constant_zero_apply dot_S4096x256_S256x256_S4096x256_1_0_0_1_n_n none P _ (ix2 p h)).trans ?_
  rw [← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 p h) ((contrEquiv1 dot_S4096x256_S256x256_S4096x256_1_0_0_1_n_n 256 rfl rfl).symm k) = ix2 p k := funext fun a => Fin.ext (by
    match a with
    | ⟨0, _⟩ => exact lhs_first_0 _ _
    | ⟨1, _⟩ => exact (lhs_first_1 _ _).trans hk)
  have er : transpose S256x256 [1, 0] (truncf .bf16 W hb) ht (dot_S4096x256_S256x256_S4096x256_1_0_0_1_n_n.rhsIdx (ix2 p h) ((contrEquiv1 dot_S4096x256_S256x256_S4096x256_1_0_0_1_n_n 256 rfl rfl).symm k)) = W (ix2 h k) :=
    (transpose_apply [1, 0] (truncf .bf16 W hb) ht _ (ix2 h k) (fun b => match b with
      | ⟨0, _⟩ => ((rhs_first_0 (ix2 p h) _).trans hk).symm
      | ⟨1, _⟩ => (rhs_first_1 (ix2 p h) _).symm)).trans (truncf_apply W hb _)
  rw [el, er]

/-- Row \`p\` of a [4096, 256] matrix against row \`h\` of the second layer's weights. -/
theorem secondProduct_apply (P : FVec Ideal S4096x256 .bf16) (W : FVec Ideal S128x256 .f32) (hb : FTy.bits .bf16 < FTy.bits .f32)
    (ht : S128x256.Transposes [1, 0] S256x128) (p : Fin 4096) (h : Fin 128) :
    matmul dot_S4096x256_S256x128_S4096x128_1_0_0_1_n_n none P (transpose S256x128 [1, 0] (truncf .bf16 W hb) ht) (constant S4096x128 .f32 0x00000000#32) (ix2 p h)
      = ∑ e : Fin 256, P (ix2 p e) * W (ix2 h e) := by
  refine (Ideal.matmul_constant_zero_apply dot_S4096x256_S256x128_S4096x128_1_0_0_1_n_n none P _ (ix2 p h)).trans ?_
  rw [← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 p h) ((contrEquiv1 dot_S4096x256_S256x128_S4096x128_1_0_0_1_n_n 256 rfl rfl).symm k) = ix2 p k := funext fun a => Fin.ext (by
    match a with
    | ⟨0, _⟩ => exact lhs_second_0 _ _
    | ⟨1, _⟩ => exact (lhs_second_1 _ _).trans hk)
  have er : transpose S256x128 [1, 0] (truncf .bf16 W hb) ht (dot_S4096x256_S256x128_S4096x128_1_0_0_1_n_n.rhsIdx (ix2 p h) ((contrEquiv1 dot_S4096x256_S256x128_S4096x128_1_0_0_1_n_n 256 rfl rfl).symm k)) = W (ix2 h k) :=
    (transpose_apply [1, 0] (truncf .bf16 W hb) ht _ (ix2 h k) (fun b => match b with
      | ⟨0, _⟩ => ((rhs_second_0 (ix2 p h) _).trans hk).symm
      | ⟨1, _⟩ => (rhs_second_1 (ix2 p h) _).symm)).trans (truncf_apply W hb _)
  rw [el, er]

/-- A bias vector laid out as one row and repeated over the 4096 rows. -/
theorem biasRow_apply {α : Type} {n : Nat} (b : (⟨1, ![n]⟩ : Shape).Idx → α) (h1 : (⟨1, ![n]⟩ : Shape).ShapeCasts ⟨2, ![1, n]⟩)
    (h2 : (⟨2, ![1, n]⟩ : Shape).Broadcasts ⟨2, ![4096, n]⟩) (p : Fin 4096) (h : Fin n) :
    broadcastTo ⟨2, ![4096, n]⟩ (shapeCast ⟨2, ![1, n]⟩ b h1) h2 (ix2 p h) = b (ix1 h) := by
  rw [broadcastTo_1b_ab_apply, shapeCast_a_1a_apply]

/-! ## The layers -/

/-- A first layer at (row `p`, unit `h`): the product with the transposed weights, the bias row, the rectifier. -/
theorem firstLayer_apply (P : FVec Ideal S4096x256 .bf16) (W : FVec Ideal S256x256 .f32) (b : FVec Ideal S256 .f32)
    (hb : FTy.bits .bf16 < FTy.bits .f32) (ht : S256x256.Transposes [1, 0] S256x256) (h1 : S256.ShapeCasts S1x256)
    (h2 : S1x256.Broadcasts S4096x256) (p : Fin 4096) (h : Fin 256) :
    maximumf (addf (matmul dot_S4096x256_S256x256_S4096x256_1_0_0_1_n_n none P (transpose S256x256 [1, 0] (truncf .bf16 W hb) ht) (constant S4096x256 .f32 0x00000000#32))
        (broadcastTo S4096x256 (shapeCast S1x256 b h1) h2)) (broadcast S4096x256 (Scalar.ofBits (F := Ideal) .f32 0x00000000#32)) (ix2 p h)
      = max ((∑ e : Fin 256, P (ix2 p e) * W (ix2 h e)) + b (ix1 h)) zeroW := by
  rw [maximumf_apply, addf_apply, firstProduct_apply, biasRow_apply]
  rfl

/-- A second layer at (row `p`, coordinate `d`), from the hidden matrix `Hd`. -/
theorem secondLayer_apply (Hd : FVec Ideal S4096x256 .f32) (W : FVec Ideal S128x256 .f32) (b : FVec Ideal S128 .f32)
    (hb : FTy.bits .bf16 < FTy.bits .f32) (ht : S128x256.Transposes [1, 0] S256x128) (h1 : S128.ShapeCasts S1x128)
    (h2 : S1x128.Broadcasts S4096x128) (p : Fin 4096) (d : Fin 128) :
    maximumf (addf (matmul dot_S4096x256_S256x128_S4096x128_1_0_0_1_n_n none (truncf .bf16 Hd hb) (transpose S256x128 [1, 0] (truncf .bf16 W hb) ht) (constant S4096x128 .f32 0x00000000#32))
        (broadcastTo S4096x128 (shapeCast S1x128 b h1) h2)) (broadcast S4096x128 (Scalar.ofBits (F := Ideal) .f32 0x00000000#32)) (ix2 p d)
      = max ((∑ h : Fin 256, Hd (ix2 p h) * W (ix2 d h)) + b (ix1 d)) zeroW := by
  rw [maximumf_apply, addf_apply, secondProduct_apply, biasRow_apply]
  rfl

/-! ## The two networks' payloads -/

/-- The first network's message array at (receiver r, sender c, coordinate d). -/
theorem k0_pay5_apply (x0 : Vec Ideal S1x64x128 .f32) (W1 : Vec Ideal S256x256 .f32) (b1 : Vec Ideal S256 .f32)
    (W2 : Vec Ideal S128x256 .f32) (b2 : Vec Ideal S128 .f32) (r c : Fin 64) (d : Fin 128) :
    k0_pay5 x0 W1 b1 W2 b2 (ix3 r c d)
      = message (fun h e => W1 (ix2 h e)) (fun h => b1 (ix1 h)) (fun d h => W2 (ix2 d h)) (fun d => b2 (ix1 d))
          (fun r d => x0 (ix3 0 r d)) r c d := by
  unfold k0_pay5
  rw [unflattenPairs_apply, secondLayer_apply]
  unfold message Spec.hidden
  refine congrArg (fun s => max (s + b2 (ix1 d)) zeroW) (Finset.sum_congr rfl fun h _ => ?_)
  rw [firstLayer_apply]
  refine congrArg (fun s => max (s + b1 (ix1 h)) zeroW * W2 (ix2 d h)) (Finset.sum_congr rfl fun e _ => ?_)
  rw [k0_pay4_apply]

/-- The second network's first product at (row `64·r + c`, unit h). -/
theorem k0_pay6_apply (x0 : Vec Ideal S1x64x128 .f32) (W1 : Vec Ideal S256x256 .f32) (r c : Fin 64) (h : Fin 256) :
    k0_pay6 x0 W1 (ix2 (⟨64 * r.val + c.val, pairRow_lt r c⟩ : Fin 4096) h) = ∑ e : Fin 256, pairFeat (fun r d => x0 (ix3 0 r d)) r c e * W1 (ix2 h e) := by
  unfold k0_pay6
  rw [firstProduct_apply]
  simp only [k0_pay4_apply]

/-! ## The blend, the sum over the senders and the residual -/

/-- The index of the [64, 64, 128] array over (r, d) with the sender coordinate `c` put in. -/
theorem lift_senders (h : S64x64x128.Reduces [1] S64x128) (r : Fin 64) (d : Fin 128) (c : Fin 64) :
    h.lift (ix2 r d) c = ix3 r c d := by
  funext a
  apply Fin.ext
  match a with
  | ⟨0, _⟩ => rfl
  | ⟨1, _⟩ => rfl
  | ⟨2, _⟩ => rfl

/-- The sum over the sender axis, read at (r, d). -/
theorem sumSenders_apply (src : FVec Ideal S64x64x128 .f32) (h : S64x64x128.Reduces [1] S64x128) (hφ : FKind.Formats .f32)
    (hacc : (0x00000000#32 : BitVec 32) = 0x00000000#32) (r : Fin 64) (d : Fin 128) :
    multiReduction (F := Ideal) .add [1] S64x128 src 0x00000000#32 h hφ hacc (ix2 r d) = ∑ c : Fin 64, src (ix3 r c d) := by
  refine (Ideal.multiReduction_add_single src 0x00000000#32 h hφ hacc (ix2 r d)).trans ?_
  show ∑ c : Fin 64, src (h.lift (ix2 r d) c) = _
  exact Finset.sum_congr rfl fun c _ => congrArg src (lift_senders h r d c)

/-- A [64, 64] array with a unit last axis put in. -/
theorem lastUnit_apply {α : Type} (x : S64x64.Idx → α) (h : S64x64.ShapeCasts S64x64x1) (r c : Fin 64) :
    shapeCast S64x64x1 x h (ix3 r c 0) = x (ix2 r c) := by
  refine shapeCast_apply x h (ix3 r c 0) (ix2 r c) ?_
  rw [Shape.rowMajor_val_three, Shape.rowMajor_val_two]
  show r.val * 64 + c.val = (r.val * 64 + c.val) * 1 + 0
  omega

/-- A [64, 64, 1] array repeated along its unit last axis. -/
theorem bcastLast_apply {α : Type} (x : S64x64x1.Idx → α) (h : S64x64x1.Broadcasts S64x64x128) (r c : Fin 64) (d : Fin 128) :
    broadcastTo S64x64x128 x h (ix3 r c d) = x (ix3 r c 0) :=
  broadcastTo_apply x h (ix3 r c d) (ix3 r c 0) (fun a => match a with
    | ⟨0, _⟩ => by show r.val = if (64 : Nat) = 1 then 0 else r.val; rw [if_neg (by decide)]
    | ⟨1, _⟩ => by show c.val = if (64 : Nat) = 1 then 0 else c.val; rw [if_neg (by decide)]
    | ⟨2, _⟩ => by show (0 : Nat) = if (1 : Nat) = 1 then 0 else d.val; rw [if_pos rfl])

/-- The rest of the body, from the embeddings `v1`, the edge types `v3`, the first network's messages `v34` and the second
    network's first product `v38`: the second network is finished, the two message arrays are blended by the edge type,
    summed over the senders and added to the embeddings. -/
theorem k0_pay1_apply (v1 : FVec Ideal S64x128 .f32) (v3 : IVec S64x64 32) (v34 : FVec Ideal S64x64x128 .f32)
    (v38 : FVec Ideal S4096x256 .f32) (b1 : Vec Ideal S256 .f32) (W2 : Vec Ideal S128x256 .f32) (b2 : Vec Ideal S128 .f32)
    (r : Fin 64) (d : Fin 128) :
    k0_pay1 v1 v3 v34 v38 b1 W2 b2 (ix3 0 r d)
      = v1 (ix2 r d) + ∑ c : Fin 64, (v34 (ix3 r c d) * (oneW - FloatOps.sitofp (F := Ideal) .f32 (v3 (ix2 r c)))
          + max ((∑ h : Fin 256, max (v38 (ix2 (⟨64 * r.val + c.val, pairRow_lt r c⟩ : Fin 4096) h) + b1 (ix1 h)) zeroW * W2 (ix2 d h)) + b2 (ix1 d)) zeroW
            * FloatOps.sitofp (F := Ideal) .f32 (v3 (ix2 r c))) := by
  unfold k0_pay1
  rw [addUnit_apply, addf_apply, sumSenders_apply]
  refine congrArg (v1 (ix2 r d) + ·) (Finset.sum_congr rfl fun c _ => ?_)
  rw [addf_apply, mulf_apply, mulf_apply, bcastLast_apply, bcastLast_apply, subf_apply, lastUnit_apply, broadcast_apply,
    sitofp_apply, unflattenPairs_apply, secondLayer_apply]
  simp only [maximumf_apply, addf_apply, biasRow_apply, broadcast_apply]
  rfl

/-- Entry (0, r, d) of the block a grid point stores is one round of message passing on the blocks it loaded. -/
theorem block_out0 (x0 : Vec Ideal S1x64x128 .f32) (x1 : Vec Ideal S1x64x64 .i32) (x2 : Vec Ideal S256x256 .f32)
    (x3 : Vec Ideal S256 .f32) (x4 : Vec Ideal S128x256 .f32) (x5 : Vec Ideal S128 .f32) (x6 : Vec Ideal S256x256 .f32)
    (x7 : Vec Ideal S256 .f32) (x8 : Vec Ideal S128x256 .f32) (x9 : Vec Ideal S128 .f32) (r : Fin 64) (d : Fin 128) :
    out0_10 x0 x1 x2 x3 x4 x5 x6 x7 x8 x9 (ix3 0 r d)
      = roundRow (fun r d => x0 (ix3 0 r d)) (fun r c => FloatOps.sitofp (F := Ideal) .f32 (x1 (ix3 0 r c)))
          (fun h e => x2 (ix2 h e)) (fun h => x3 (ix1 h)) (fun d h => x4 (ix2 d h)) (fun d => x5 (ix1 d))
          (fun h e => x6 (ix2 h e)) (fun h => x7 (ix1 h)) (fun d h => x8 (ix2 d h)) (fun d => x9 (ix1 d)) r d := by
  unfold out0_10
  rw [View.canon_unit_zero hz3]
  simp only [View.ld_unit_zero (S := S1x64x128) hz3, View.ld_unit_zero (S := S1x64x64) hz3, View.ld_unit_zero (S := S256x256) hz2,
    View.ld_unit_zero (S := S256) hz1, View.ld_unit_zero (S := S128x256) hz2, View.ld_unit_zero (S := S128) hz1]
  rw [k0_pay1_apply]
  unfold roundRow
  simp only [k0_pay2_apply, k0_pay3_apply, k0_pay5_apply, k0_pay6_apply]
  rfl

end Cert.KernelIdeal.Round

end
-- ==== Proof.WeightBlocks0.lean ====
/-
  The first region's eight weight windows: each window's index map is constant at the origin and its block is its whole array,
  so at every grid point the window's block, read at an index, is the array as the region finds it, read at that index.
-/
import proofs.«135701_j65085934403743_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem

namespace Cert.KernelIdeal.Round

open Cert.KernelIdeal Cert.KernelIdeal.Gen ValueIdx

variable (V : (c : Dev nD) → (b : Ref sig .tc) → Buf (Elt Ideal) ((c : Thread nD τ).loc b))

/-- The weight windows' index maps over the grid: all at the origin. -/
theorem weight_idx0 : ∀ t : Fin cfg0.N,
    (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ (win0_8.index t (0 : Fin 2) = 0 ∧ win0_8.index t (1 : Fin 2) = 0)
    ∧ win0_9.index t (0 : Fin 1) = 0 :=
  (by decide +kernel : ∀ t : Fin grid0.N, _)

/-- The first network's first weight matrix is staged whole at every point. -/
theorem w1a0 (c : Dev nD) (t : Fin cfg0.N) (p : Fin 256) (q : Fin 256) :
    (iblk0 V c 2 t : Vec Ideal S256x256 .f32) (ix2 p q) = (V c main_arg4 : S256x256.Idx → EReal) (ix2 p q) := by
  have e := weight_idx0 t
  unfold iblk0
  rw [View.read_apply]
  show V c main_arg4 _ = V c main_arg4 _
  congr 1
  funext a
  apply Fin.ext
  match a with
  | ⟨0, _⟩ => show win0_2.index t (0 : Fin 2) * 256 + 1 * p.val = p.val; omega
  | ⟨1, _⟩ => show win0_2.index t (1 : Fin 2) * 256 + 1 * q.val = q.val; omega

/-- The first network's first bias is staged whole at every point. -/
theorem b1a0 (c : Dev nD) (t : Fin cfg0.N) (p : Fin 256) :
    (iblk0 V c 3 t : Vec Ideal S256 .f32) (ix1 p) = (V c main_arg5 : S256.Idx → EReal) (ix1 p) := by
  have e := weight_idx0 t
  unfold iblk0
  rw [View.read_apply]
  show V c main_arg5 _ = V c main_arg5 _
  congr 1
  funext a
  apply Fin.ext
  match a with
  | ⟨0, _⟩ => show win0_3.index t (0 : Fin 1) * 256 + 1 * p.val = p.val; omega

/-- The first network's second weight matrix is staged whole at every point. -/
theorem w2a0 (c : Dev nD) (t : Fin cfg0.N) (p : Fin 128) (q : Fin 256) :
    (iblk0 V c 4 t : Vec Ideal S128x256 .f32) (ix2 p q) = (V c main_arg6 : S128x256.Idx → EReal) (ix2 p q) := by
  have e := weight_idx0 t
  unfold iblk0
  rw [View.read_apply]
  show V c main_arg6 _ = V c main_arg6 _
  congr 1
  funext a
  apply Fin.ext
  match a with
  | ⟨0, _⟩ => show win0_4.index t (0 : Fin 2) * 128 + 1 * p.val = p.val; omega
  | ⟨1, _⟩ => show win0_4.index t (1 : Fin 2) * 256 + 1 * q.val = q.val; omega

/-- The first network's second bias is staged whole at every point. -/
theorem b2a0 (c : Dev nD) (t : Fin cfg0.N) (p : Fin 128) :
    (iblk0 V c 5 t : Vec Ideal S128 .f32) (ix1 p) = (V c main_arg7 : S128.Idx → EReal) (ix1 p) := by
  have e := weight_idx0 t
  unfold iblk0
  rw [View.read_apply]
  show V c main_arg7 _ = V c main_arg7 _
  congr 1
  funext a
  apply Fin.ext
  match a with
  | ⟨0, _⟩ => show win0_5.index t (0 : Fin 1) * 128 + 1 * p.val = p.val; omega

/-- The second network's first weight matrix is staged whole at every point. -/
theorem w1b0 (c : Dev nD) (t : Fin cfg0.N) (p : Fin 256) (q : Fin 256) :
    (iblk0 V c 6 t : Vec Ideal S256x256 .f32) (ix2 p q) = (V c main_arg8 : S256x256.Idx → EReal) (ix2 p q) := by
  have e := weight_idx0 t
  unfold iblk0
  rw [View.read_apply]
  show V c main_arg8 _ = V c main_arg8 _
  congr 1
  funext a
  apply Fin.ext
  match a with
  | ⟨0, _⟩ => show win0_6.index t (0 : Fin 2) * 256 + 1 * p.val = p.val; omega
  | ⟨1, _⟩ => show win0_6.index t (1 : Fin 2) * 256 + 1 * q.val = q.val; omega

/-- The second network's first bias is staged whole at every point. -/
theorem b1b0 (c : Dev nD) (t : Fin cfg0.N) (p : Fin 256) :
    (iblk0 V c 7 t : Vec Ideal S256 .f32) (ix1 p) = (V c main_arg9 : S256.Idx → EReal) (ix1 p) := by
  have e := weight_idx0 t
  unfold iblk0
  rw [View.read_apply]
  show V c main_arg9 _ = V c main_arg9 _
  congr 1
  funext a
  apply Fin.ext
  match a with
  | ⟨0, _⟩ => show win0_7.index t (0 : Fin 1) * 256 + 1 * p.val = p.val; omega

/-- The second network's second weight matrix is staged whole at every point. -/
theorem w2b0 (c : Dev nD) (t : Fin cfg0.N) (p : Fin 128) (q : Fin 256) :
    (iblk0 V c 8 t : Vec Ideal S128x256 .f32) (ix2 p q) = (V c main_arg10 : S128x256.Idx → EReal) (ix2 p q) := by
  have e := weight_idx0 t
  unfold iblk0
  rw [View.read_apply]
  show V c main_arg10 _ = V c main_arg10 _
  congr 1
  funext a
  apply Fin.ext
  match a with
  | ⟨0, _⟩ => show win0_8.index t (0 : Fin 2) * 128 + 1 * p.val = p.val; omega
  | ⟨1, _⟩ => show win0_8.index t (1 : Fin 2) * 256 + 1 * q.val = q.val; omega

/-- The second network's second bias is staged whole at every point. -/
theorem b2b0 (c : Dev nD) (t : Fin cfg0.N) (p : Fin 128) :
    (iblk0 V c 9 t : Vec Ideal S128 .f32) (ix1 p) = (V c main_arg11 : S128.Idx → EReal) (ix1 p) := by
  have e := weight_idx0 t
  unfold iblk0
  rw [View.read_apply]
  show V c main_arg11 _ = V c main_arg11 _
  congr 1
  funext a
  apply Fin.ext
  match a with
  | ⟨0, _⟩ => show win0_9.index t (0 : Fin 1) * 128 + 1 * p.val = p.val; omega

end Cert.KernelIdeal.Round

end
-- ==== Proof.Region0.lean ====
/-
  What the first message-passing region leaves in its result array.

  The region's grid has one point per batch entry. At point `t` the embeddings window and the edge-type window hold batch
  entry `t` of their arrays, the eight weight windows hold their arrays whole, and the output window's block is batch entry
  `t` of the result array. So what point `t` writes back is batch entry `t` of `Spec.roundG` of the arrays as the region finds
  them; the 32 blocks tile the result array (entry (b, r, d) lies in the block of point `b`), hence after the region the whole
  array holds `Spec.roundG` of the entry contents.
-/
import proofs.«135701_j65085934403743_1_alg».proof.Proof.Gen.KernelIdeal.Frame
import proofs.«135701_j65085934403743_1_alg».proof.Proof.Spec
import proofs.«135701_j65085934403743_1_alg».proof.Proof.Block0
import proofs.«135701_j65085934403743_1_alg».proof.Proof.WeightBlocks0
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Round

open Cert.KernelIdeal Cert.KernelIdeal.Gen Cert.Spec ValueIdx

variable (V : (c : Dev nD) → (b : Ref sig .tc) → Buf (Elt Ideal) ((c : Thread nD τ).loc b))

/-- The printed index maps over the grid: the two batched inputs and the output sit at batch entry `t`. -/
theorem idx_facts0 : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_10.index t (0 : Fin 3) = t.val ∧ win0_10.index t (1 : Fin 3) = 0 ∧ win0_10.index t (2 : Fin 3) = 0) :=
  (by decide +kernel : ∀ t : Fin grid0.N, _)

/-- A grid point is a batch entry. -/
theorem point_lt0 (t : Fin cfg0.N) : t.val < 32 := lt_of_lt_of_eq t.isLt N_0

/-- The embeddings window's block at point `t` is batch entry `t` of its array. -/
theorem embBlock0 (c : Dev nD) (t : Fin cfg0.N) (r : Fin 64) (d : Fin 128) :
    (iblk0 V c 0 t : Vec Ideal S1x64x128 .f32) (ix3 0 r d)
      = (V c main_v6 : S32x64x128.Idx → EReal) (ix3 ⟨t.val, point_lt0 t⟩ r d) := by
  obtain ⟨⟨e0, e1, e2⟩, -⟩ := idx_facts0 t
  unfold iblk0
  rw [View.read_apply]
  show V c main_v6 _ = V c main_v6 _
  congr 1
  funext a
  apply Fin.ext
  match a with
  | ⟨0, _⟩ => show win0_0.index t (0 : Fin 3) * 1 + 1 * 0 = t.val; omega
  | ⟨1, _⟩ => show win0_0.index t (1 : Fin 3) * 64 + 1 * r.val = r.val; omega
  | ⟨2, _⟩ => show win0_0.index t (2 : Fin 3) * 128 + 1 * d.val = d.val; omega

/-- The edge-type window's block at point `t` is batch entry `t` of its array. -/
theorem arcBlock0 (c : Dev nD) (t : Fin cfg0.N) (r s : Fin 64) :
    (iblk0 V c 1 t : Vec Ideal S1x64x64 .i32) (ix3 0 r s)
      = (V c main_arg1 : S32x64x64.Idx → BitVec 32) (ix3 ⟨t.val, point_lt0 t⟩ r s) := by
  obtain ⟨-, ⟨e0, e1, e2⟩, -⟩ := idx_facts0 t
  unfold iblk0
  rw [View.read_apply]
  show V c main_arg1 _ = V c main_arg1 _
  congr 1
  funext a
  apply Fin.ext
  match a with
  | ⟨0, _⟩ => show win0_1.index t (0 : Fin 3) * 1 + 1 * 0 = t.val; omega
  | ⟨1, _⟩ => show win0_1.index t (1 : Fin 3) * 64 + 1 * r.val = r.val; omega
  | ⟨2, _⟩ => show win0_1.index t (2 : Fin 3) * 64 + 1 * s.val = s.val; omega

/-- The result array's entry that the output block's entry (0, r, d) at point `t` is written to. -/
theorem outEmb0 (t : Fin cfg0.N) (r : Fin 64) (d : Fin 128) :
    ((cfg0.win 10).blk t).view.emb (ix3 0 r d) = (ix3 ⟨t.val, point_lt0 t⟩ r d : S32x64x128.Idx) := by
  obtain ⟨-, -, e0, e1, e2⟩ := idx_facts0 t
  funext a
  apply Fin.ext
  match a with
  | ⟨0, _⟩ => show win0_10.index t (0 : Fin 3) * 1 + 1 * 0 = t.val; omega
  | ⟨1, _⟩ => show win0_10.index t (1 : Fin 3) * 64 + 1 * r.val = r.val; omega
  | ⟨2, _⟩ => show win0_10.index t (2 : Fin 3) * 128 + 1 * d.val = d.val; omega

/-- What point `t` writes back is batch entry `t` of one round of message passing on the arrays as the region finds them. -/
theorem flushed_eq0 (c : Dev nD) (t : Fin cfg0.N) :
    (dat0 V c).flushed 10 t = ((cfg0.win 10).blk t).view.read (Elt Ideal) (roundG (V c main_v6) (V c main_arg1) (V c main_arg4) (V c main_arg5) (V c main_arg6) (V c main_arg7) (V c main_arg8) (V c main_arg9) (V c main_arg10) (V c main_arg11)) := by
  show (cfg0.win 10).cut (grid0.coords t) ((dat0 V c).after 10 t) = _
  rw [after0_10]
  funext j
  obtain ⟨q, r, d, rfl⟩ : ∃ (q : Fin 1) (r : Fin 64) (d : Fin 128), j = ix3 q r d := ⟨j 0, j 1, j 2, eq_ix3 j⟩
  obtain rfl : q = 0 := Subsingleton.elim _ _
  show out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ix3 0 r d)
    = roundG (V c main_v6) (V c main_arg1) (V c main_arg4) (V c main_arg5) (V c main_arg6) (V c main_arg7) (V c main_arg8) (V c main_arg9) (V c main_arg10) (V c main_arg11) (((cfg0.win 10).blk t).view.emb (ix3 0 r d))
  rw [outEmb0 t r d, roundG_ix3]
  refine (block_out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) r d).trans ?_
  simp only [embBlock0 V c t, arcBlock0 V c t, w1a0 V c t, b1a0 V c t, w2a0 V c t, b2a0 V c t, w1b0 V c t, b1b0 V c t, w2b0 V c t, b2b0 V c t]

/-- An entry of the result array is in point `t`'s block iff each coordinate is in the block's range on its axis. -/
theorem mem_blk0 (t : Fin cfg0.N) (i : S32x64x128.Idx) :
    i ∈ ((cfg0.win 10).blk t).view.set ↔ ∀ a : Fin 3, win0_10.index t a * S1x64x128.size a ≤ (i a).val ∧ (i a).val < win0_10.index t a * S1x64x128.size a + S1x64x128.size a := by
  show i ∈ ((View.whole main_v7).slice (win0_10.rect t)).set ↔ _
  rw [View.set_slice_whole, Rect.mem_set_unit]
  exact Iff.rfl

/-- Every entry of the result array lies in the block of the point that is its batch entry. -/
theorem covered0 (i : S32x64x128.Idx) : ∃ t : Fin cfg0.N, (cfg0.win 10).flush t = true ∧ i ∈ ((cfg0.win 10).blk t).view.set := by
  have h0 : (i 0).val < 32 := (i 0).isLt
  have h1 : (i 1).val < 64 := (i 1).isLt
  have h2 : (i 2).val < 128 := (i 2).isLt
  obtain ⟨t, ht⟩ : ∃ t : Fin cfg0.N, t.val = (i 0).val := ⟨⟨(i 0).val, lt_of_lt_of_eq h0 N_0.symm⟩, rfl⟩
  obtain ⟨-, -, e0, e1, e2⟩ := idx_facts0 t
  refine ⟨t, flush0_10 t, ?_⟩
  rw [mem_blk0]
  intro a
  match a with
  | ⟨0, _⟩ => show win0_10.index t (0 : Fin 3) * 1 ≤ (i 0).val ∧ (i 0).val < win0_10.index t (0 : Fin 3) * 1 + 1; rw [e0]; omega
  | ⟨1, _⟩ => show win0_10.index t (1 : Fin 3) * 64 ≤ (i 1).val ∧ (i 1).val < win0_10.index t (1 : Fin 3) * 64 + 64; rw [e1]; omega
  | ⟨2, _⟩ => show win0_10.index t (2 : Fin 3) * 128 ≤ (i 2).val ∧ (i 2).val < win0_10.index t (2 : Fin 3) * 128 + 128; rw [e2]; omega

/-- After the region its result array holds one round of message passing on the arrays as the region finds them. -/
theorem region_value0 (c : Dev nD) :
    (dat0 V c).arrAt 10 cfg0.N = roundG (V c main_v6) (V c main_arg1) (V c main_arg4) (V c main_arg5) (V c main_arg6) (V c main_arg7) (V c main_arg8) (V c main_arg9) (V c main_arg10) (V c main_arg11) :=
  (dat0 V c).arrAt_eq_of_cover 10 _ (fun t _ => flushed_eq0 V c t) covered0

end Cert.KernelIdeal.Round

end
-- ==== Proof.BlockSiblings.lean ====
/-
  The second and the third region run the same body as the first: their block functions are, by definition, the first
  region's, so what a grid point of either leaves in its output block is the same round of message passing.
-/
import proofs.«135701_j65085934403743_1_alg».proof.Proof.Block0

noncomputable section

open Idealize.ShloMosaic Idealize.ShloMosaic.TcCoe Idealize.SL.Sem

namespace Cert.KernelIdeal.Round

open Cert.KernelIdeal Cert.KernelIdeal.Gen Cert.Spec ValueIdx

/-- The second region's block function is the first region's. -/
theorem out1_is_out0 (x0 : Vec Ideal S1x64x128 .f32) (x1 : Vec Ideal S1x64x64 .i32) (x2 : Vec Ideal S256x256 .f32)
    (x3 : Vec Ideal S256 .f32) (x4 : Vec Ideal S128x256 .f32) (x5 : Vec Ideal S128 .f32) (x6 : Vec Ideal S256x256 .f32)
    (x7 : Vec Ideal S256 .f32) (x8 : Vec Ideal S128x256 .f32) (x9 : Vec Ideal S128 .f32) :
    out1_10 x0 x1 x2 x3 x4 x5 x6 x7 x8 x9 = out0_10 x0 x1 x2 x3 x4 x5 x6 x7 x8 x9 := rfl

/-- The third region's block function is the first region's. -/
theorem out2_is_out0 (x0 : Vec Ideal S1x64x128 .f32) (x1 : Vec Ideal S1x64x64 .i32) (x2 : Vec Ideal S256x256 .f32)
    (x3 : Vec Ideal S256 .f32) (x4 : Vec Ideal S128x256 .f32) (x5 : Vec Ideal S128 .f32) (x6 : Vec Ideal S256x256 .f32)
    (x7 : Vec Ideal S256 .f32) (x8 : Vec Ideal S128x256 .f32) (x9 : Vec Ideal S128 .f32) :
    out2_10 x0 x1 x2 x3 x4 x5 x6 x7 x8 x9 = out0_10 x0 x1 x2 x3 x4 x5 x6 x7 x8 x9 := rfl

/-- Entry (0, r, d) of the block a grid point of the second region stores. -/
theorem block_out1 (x0 : Vec Ideal S1x64x128 .f32) (x1 : Vec Ideal S1x64x64 .i32) (x2 : Vec Ideal S256x256 .f32)
    (x3 : Vec Ideal S256 .f32) (x4 : Vec Ideal S128x256 .f32) (x5 : Vec Ideal S128 .f32) (x6 : Vec Ideal S256x256 .f32)
    (x7 : Vec Ideal S256 .f32) (x8 : Vec Ideal S128x256 .f32) (x9 : Vec Ideal S128 .f32) (r : Fin 64) (d : Fin 128) :
    out1_10 x0 x1 x2 x3 x4 x5 x6 x7 x8 x9 (ix3 0 r d)
      = roundRow (fun r d => x0 (ix3 0 r d)) (fun r c => FloatOps.sitofp (F := Ideal) .f32 (x1 (ix3 0 r c)))
          (fun h e => x2 (ix2 h e)) (fun h => x3 (ix1 h)) (fun d h => x4 (ix2 d h)) (fun d => x5 (ix1 d))
          (fun h e => x6 (ix2 h e)) (fun h => x7 (ix1 h)) (fun d h => x8 (ix2 d h)) (fun d => x9 (ix1 d)) r d :=
  (congrFun (out1_is_out0 x0 x1 x2 x3 x4 x5 x6 x7 x8 x9) (ix3 0 r d)).trans (block_out0 x0 x1 x2 x3 x4 x5 x6 x7 x8 x9 r d)

/-- Entry (0, r, d) of the block a grid point of the third region stores. -/
theorem block_out2 (x0 : Vec Ideal S1x64x128 .f32) (x1 : Vec Ideal S1x64x64 .i32) (x2 : Vec Ideal S256x256 .f32)
    (x3 : Vec Ideal S256 .f32) (x4 : Vec Ideal S128x256 .f32) (x5 : Vec Ideal S128 .f32) (x6 : Vec Ideal S256x256 .f32)
    (x7 : Vec Ideal S256 .f32) (x8 : Vec Ideal S128x256 .f32) (x9 : Vec Ideal S128 .f32) (r : Fin 64) (d : Fin 128) :
    out2_10 x0 x1 x2 x3 x4 x5 x6 x7 x8 x9 (ix3 0 r d)
      = roundRow (fun r d => x0 (ix3 0 r d)) (fun r c => FloatOps.sitofp (F := Ideal) .f32 (x1 (ix3 0 r c)))
          (fun h e => x2 (ix2 h e)) (fun h => x3 (ix1 h)) (fun d h => x4 (ix2 d h)) (fun d => x5 (ix1 d))
          (fun h e => x6 (ix2 h e)) (fun h => x7 (ix1 h)) (fun d h => x8 (ix2 d h)) (fun d => x9 (ix1 d)) r d :=
  (congrFun (out2_is_out0 x0 x1 x2 x3 x4 x5 x6 x7 x8 x9) (ix3 0 r d)).trans (block_out0 x0 x1 x2 x3 x4 x5 x6 x7 x8 x9 r d)

end Cert.KernelIdeal.Round

end
-- ==== Proof.WeightBlocks1.lean ====
/-
  The second region's eight weight windows: each window's index map is constant at the origin and its block is its whole array,
  so at every grid point the window's block, read at an index, is the array as the region finds it, read at that index.
-/
import proofs.«135701_j65085934403743_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem

namespace Cert.KernelIdeal.Round

open Cert.KernelIdeal Cert.KernelIdeal.Gen ValueIdx

variable (V : (c : Dev nD) → (b : Ref sig .tc) → Buf (Elt Ideal) ((c : Thread nD τ).loc b))

/-- The weight windows' index maps over the grid: all at the origin. -/
theorem weight_idx1 : ∀ t : Fin cfg1.N,
    (win1_2.index t (0 : Fin 2) = 0 ∧ win1_2.index t (1 : Fin 2) = 0)
    ∧ win1_3.index t (0 : Fin 1) = 0
    ∧ (win1_4.index t (0 : Fin 2) = 0 ∧ win1_4.index t (1 : Fin 2) = 0)
    ∧ win1_5.index t (0 : Fin 1) = 0
    ∧ (win1_6.index t (0 : Fin 2) = 0 ∧ win1_6.index t (1 : Fin 2) = 0)
    ∧ win1_7.index t (0 : Fin 1) = 0
    ∧ (win1_8.index t (0 : Fin 2) = 0 ∧ win1_8.index t (1 : Fin 2) = 0)
    ∧ win1_9.index t (0 : Fin 1) = 0 :=
  (by decide +kernel : ∀ t : Fin grid1.N, _)

/-- The first network's first weight matrix is staged whole at every point. -/
theorem w1a1 (c : Dev nD) (t : Fin cfg1.N) (p : Fin 256) (q : Fin 256) :
    (iblk1 V c 2 t : Vec Ideal S256x256 .f32) (ix2 p q) = (V c main_arg4 : S256x256.Idx → EReal) (ix2 p q) := by
  have e := weight_idx1 t
  unfold iblk1
  rw [View.read_apply]
  show V c main_arg4 _ = V c main_arg4 _
  congr 1
  funext a
  apply Fin.ext
  match a with
  | ⟨0, _⟩ => show win1_2.index t (0 : Fin 2) * 256 + 1 * p.val = p.val; omega
  | ⟨1, _⟩ => show win1_2.index t (1 : Fin 2) * 256 + 1 * q.val = q.val; omega

/-- The first network's first bias is staged whole at every point. -/
theorem b1a1 (c : Dev nD) (t : Fin cfg1.N) (p : Fin 256) :
    (iblk1 V c 3 t : Vec Ideal S256 .f32) (ix1 p) = (V c main_arg5 : S256.Idx → EReal) (ix1 p) := by
  have e := weight_idx1 t
  unfold iblk1
  rw [View.read_apply]
  show V c main_arg5 _ = V c main_arg5 _
  congr 1
  funext a
  apply Fin.ext
  match a with
  | ⟨0, _⟩ => show win1_3.index t (0 : Fin 1) * 256 + 1 * p.val = p.val; omega

/-- The first network's second weight matrix is staged whole at every point. -/
theorem w2a1 (c : Dev nD) (t : Fin cfg1.N) (p : Fin 128) (q : Fin 256) :
    (iblk1 V c 4 t : Vec Ideal S128x256 .f32) (ix2 p q) = (V c main_arg6 : S128x256.Idx → EReal) (ix2 p q) := by
  have e := weight_idx1 t
  unfold iblk1
  rw [View.read_apply]
  show V c main_arg6 _ = V c main_arg6 _
  congr 1
  funext a
  apply Fin.ext
  match a with
  | ⟨0, _⟩ => show win1_4.index t (0 : Fin 2) * 128 + 1 * p.val = p.val; omega
  | ⟨1, _⟩ => show win1_4.index t (1 : Fin 2) * 256 + 1 * q.val = q.val; omega

/-- The first network's second bias is staged whole at every point. -/
theorem b2a1 (c : Dev nD) (t : Fin cfg1.N) (p : Fin 128) :
    (iblk1 V c 5 t : Vec Ideal S128 .f32) (ix1 p) = (V c main_arg7 : S128.Idx → EReal) (ix1 p) := by
  have e := weight_idx1 t
  unfold iblk1
  rw [View.read_apply]
  show V c main_arg7 _ = V c main_arg7 _
  congr 1
  funext a
  apply Fin.ext
  match a with
  | ⟨0, _⟩ => show win1_5.index t (0 : Fin 1) * 128 + 1 * p.val = p.val; omega

/-- The second network's first weight matrix is staged whole at every point. -/
theorem w1b1 (c : Dev nD) (t : Fin cfg1.N) (p : Fin 256) (q : Fin 256) :
    (iblk1 V c 6 t : Vec Ideal S256x256 .f32) (ix2 p q) = (V c main_arg8 : S256x256.Idx → EReal) (ix2 p q) := by
  have e := weight_idx1 t
  unfold iblk1
  rw [View.read_apply]
  show V c main_arg8 _ = V c main_arg8 _
  congr 1
  funext a
  apply Fin.ext
  match a with
  | ⟨0, _⟩ => show win1_6.index t (0 : Fin 2) * 256 + 1 * p.val = p.val; omega
  | ⟨1, _⟩ => show win1_6.index t (1 : Fin 2) * 256 + 1 * q.val = q.val; omega

/-- The second network's first bias is staged whole at every point. -/
theorem b1b1 (c : Dev nD) (t : Fin cfg1.N) (p : Fin 256) :
    (iblk1 V c 7 t : Vec Ideal S256 .f32) (ix1 p) = (V c main_arg9 : S256.Idx → EReal) (ix1 p) := by
  have e := weight_idx1 t
  unfold iblk1
  rw [View.read_apply]
  show V c main_arg9 _ = V c main_arg9 _
  congr 1
  funext a
  apply Fin.ext
  match a with
  | ⟨0, _⟩ => show win1_7.index t (0 : Fin 1) * 256 + 1 * p.val = p.val; omega

/-- The second network's second weight matrix is staged whole at every point. -/
theorem w2b1 (c : Dev nD) (t : Fin cfg1.N) (p : Fin 128) (q : Fin 256) :
    (iblk1 V c 8 t : Vec Ideal S128x256 .f32) (ix2 p q) = (V c main_arg10 : S128x256.Idx → EReal) (ix2 p q) := by
  have e := weight_idx1 t
  unfold iblk1
  rw [View.read_apply]
  show V c main_arg10 _ = V c main_arg10 _
  congr 1
  funext a
  apply Fin.ext
  match a with
  | ⟨0, _⟩ => show win1_8.index t (0 : Fin 2) * 128 + 1 * p.val = p.val; omega
  | ⟨1, _⟩ => show win1_8.index t (1 : Fin 2) * 256 + 1 * q.val = q.val; omega

/-- The second network's second bias is staged whole at every point. -/
theorem b2b1 (c : Dev nD) (t : Fin cfg1.N) (p : Fin 128) :
    (iblk1 V c 9 t : Vec Ideal S128 .f32) (ix1 p) = (V c main_arg11 : S128.Idx → EReal) (ix1 p) := by
  have e := weight_idx1 t
  unfold iblk1
  rw [View.read_apply]
  show V c main_arg11 _ = V c main_arg11 _
  congr 1
  funext a
  apply Fin.ext
  match a with
  | ⟨0, _⟩ => show win1_9.index t (0 : Fin 1) * 128 + 1 * p.val = p.val; omega

end Cert.KernelIdeal.Round

end
-- ==== Proof.Region1.lean ====
/-
  What the second message-passing region leaves in its result array.

  The region's grid has one point per batch entry. At point `t` the embeddings window and the edge-type window hold batch
  entry `t` of their arrays, the eight weight windows hold their arrays whole, and the output window's block is batch entry
  `t` of the result array. So what point `t` writes back is batch entry `t` of `Spec.roundG` of the arrays as the region finds
  them; the 32 blocks tile the result array (entry (b, r, d) lies in the block of point `b`), hence after the region the whole
  array holds `Spec.roundG` of the entry contents.
-/
import proofs.«135701_j65085934403743_1_alg».proof.Proof.Gen.KernelIdeal.Frame
import proofs.«135701_j65085934403743_1_alg».proof.Proof.Spec
import proofs.«135701_j65085934403743_1_alg».proof.Proof.BlockSiblings
import proofs.«135701_j65085934403743_1_alg».proof.Proof.WeightBlocks1
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Round

open Cert.KernelIdeal Cert.KernelIdeal.Gen Cert.Spec ValueIdx

variable (V : (c : Dev nD) → (b : Ref sig .tc) → Buf (Elt Ideal) ((c : Thread nD τ).loc b))

/-- The printed index maps over the grid: the two batched inputs and the output sit at batch entry `t`. -/
theorem idx_facts1 : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_10.index t (0 : Fin 3) = t.val ∧ win1_10.index t (1 : Fin 3) = 0 ∧ win1_10.index t (2 : Fin 3) = 0) :=
  (by decide +kernel : ∀ t : Fin grid1.N, _)

/-- A grid point is a batch entry. -/
theorem point_lt1 (t : Fin cfg1.N) : t.val < 32 := lt_of_lt_of_eq t.isLt N_1

/-- The embeddings window's block at point `t` is batch entry `t` of its array. -/
theorem embBlock1 (c : Dev nD) (t : Fin cfg1.N) (r : Fin 64) (d : Fin 128) :
    (iblk1 V c 0 t : Vec Ideal S1x64x128 .f32) (ix3 0 r d)
      = (V c main_v7 : S32x64x128.Idx → EReal) (ix3 ⟨t.val, point_lt1 t⟩ r d) := by
  obtain ⟨⟨e0, e1, e2⟩, -⟩ := idx_facts1 t
  unfold iblk1
  rw [View.read_apply]
  show V c main_v7 _ = V c main_v7 _
  congr 1
  funext a
  apply Fin.ext
  match a with
  | ⟨0, _⟩ => show win1_0.index t (0 : Fin 3) * 1 + 1 * 0 = t.val; omega
  | ⟨1, _⟩ => show win1_0.index t (1 : Fin 3) * 64 + 1 * r.val = r.val; omega
  | ⟨2, _⟩ => show win1_0.index t (2 : Fin 3) * 128 + 1 * d.val = d.val; omega

/-- The edge-type window's block at point `t` is batch entry `t` of its array. -/
theorem arcBlock1 (c : Dev nD) (t : Fin cfg1.N) (r s : Fin 64) :
    (iblk1 V c 1 t : Vec Ideal S1x64x64 .i32) (ix3 0 r s)
      = (V c main_arg1 : S32x64x64.Idx → BitVec 32) (ix3 ⟨t.val, point_lt1 t⟩ r s) := by
  obtain ⟨-, ⟨e0, e1, e2⟩, -⟩ := idx_facts1 t
  unfold iblk1
  rw [View.read_apply]
  show V c main_arg1 _ = V c main_arg1 _
  congr 1
  funext a
  apply Fin.ext
  match a with
  | ⟨0, _⟩ => show win1_1.index t (0 : Fin 3) * 1 + 1 * 0 = t.val; omega
  | ⟨1, _⟩ => show win1_1.index t (1 : Fin 3) * 64 + 1 * r.val = r.val; omega
  | ⟨2, _⟩ => show win1_1.index t (2 : Fin 3) * 64 + 1 * s.val = s.val; omega

/-- The result array's entry that the output block's entry (0, r, d) at point `t` is written to. -/
theorem outEmb1 (t : Fin cfg1.N) (r : Fin 64) (d : Fin 128) :
    ((cfg1.win 10).blk t).view.emb (ix3 0 r d) = (ix3 ⟨t.val, point_lt1 t⟩ r d : S32x64x128.Idx) := by
  obtain ⟨-, -, e0, e1, e2⟩ := idx_facts1 t
  funext a
  apply Fin.ext
  match a with
  | ⟨0, _⟩ => show win1_10.index t (0 : Fin 3) * 1 + 1 * 0 = t.val; omega
  | ⟨1, _⟩ => show win1_10.index t (1 : Fin 3) * 64 + 1 * r.val = r.val; omega
  | ⟨2, _⟩ => show win1_10.index t (2 : Fin 3) * 128 + 1 * d.val = d.val; omega

/-- What point `t` writes back is batch entry `t` of one round of message passing on the arrays as the region finds them. -/
theorem flushed_eq1 (c : Dev nD) (t : Fin cfg1.N) :
    (dat1 V c).flushed 10 t = ((cfg1.win 10).blk t).view.read (Elt Ideal) (roundG (V c main_v7) (V c main_arg1) (V c main_arg4) (V c main_arg5) (V c main_arg6) (V c main_arg7) (V c main_arg8) (V c main_arg9) (V c main_arg10) (V c main_arg11)) := by
  show (cfg1.win 10).cut (grid1.coords t) ((dat1 V c).after 10 t) = _
  rw [after1_10]
  funext j
  obtain ⟨q, r, d, rfl⟩ : ∃ (q : Fin 1) (r : Fin 64) (d : Fin 128), j = ix3 q r d := ⟨j 0, j 1, j 2, eq_ix3 j⟩
  obtain rfl : q = 0 := Subsingleton.elim _ _
  show out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (ix3 0 r d)
    = roundG (V c main_v7) (V c main_arg1) (V c main_arg4) (V c main_arg5) (V c main_arg6) (V c main_arg7) (V c main_arg8) (V c main_arg9) (V c main_arg10) (V c main_arg11) (((cfg1.win 10).blk t).view.emb (ix3 0 r d))
  rw [outEmb1 t r d, roundG_ix3]
  refine (block_out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) r d).trans ?_
  simp only [embBlock1 V c t, arcBlock1 V c t, w1a1 V c t, b1a1 V c t, w2a1 V c t, b2a1 V c t, w1b1 V c t, b1b1 V c t, w2b1 V c t, b2b1 V c t]

/-- An entry of the result array is in point `t`'s block iff each coordinate is in the block's range on its axis. -/
theorem mem_blk1 (t : Fin cfg1.N) (i : S32x64x128.Idx) :
    i ∈ ((cfg1.win 10).blk t).view.set ↔ ∀ a : Fin 3, win1_10.index t a * S1x64x128.size a ≤ (i a).val ∧ (i a).val < win1_10.index t a * S1x64x128.size a + S1x64x128.size a := by
  show i ∈ ((View.whole main_v8).slice (win1_10.rect t)).set ↔ _
  rw [View.set_slice_whole, Rect.mem_set_unit]
  exact Iff.rfl

/-- Every entry of the result array lies in the block of the point that is its batch entry. -/
theorem covered1 (i : S32x64x128.Idx) : ∃ t : Fin cfg1.N, (cfg1.win 10).flush t = true ∧ i ∈ ((cfg1.win 10).blk t).view.set := by
  have h0 : (i 0).val < 32 := (i 0).isLt
  have h1 : (i 1).val < 64 := (i 1).isLt
  have h2 : (i 2).val < 128 := (i 2).isLt
  obtain ⟨t, ht⟩ : ∃ t : Fin cfg1.N, t.val = (i 0).val := ⟨⟨(i 0).val, lt_of_lt_of_eq h0 N_1.symm⟩, rfl⟩
  obtain ⟨-, -, e0, e1, e2⟩ := idx_facts1 t
  refine ⟨t, flush1_10 t, ?_⟩
  rw [mem_blk1]
  intro a
  match a with
  | ⟨0, _⟩ => show win1_10.index t (0 : Fin 3) * 1 ≤ (i 0).val ∧ (i 0).val < win1_10.index t (0 : Fin 3) * 1 + 1; rw [e0]; omega
  | ⟨1, _⟩ => show win1_10.index t (1 : Fin 3) * 64 ≤ (i 1).val ∧ (i 1).val < win1_10.index t (1 : Fin 3) * 64 + 64; rw [e1]; omega
  | ⟨2, _⟩ => show win1_10.index t (2 : Fin 3) * 128 ≤ (i 2).val ∧ (i 2).val < win1_10.index t (2 : Fin 3) * 128 + 128; rw [e2]; omega

/-- After the region its result array holds one round of message passing on the arrays as the region finds them. -/
theorem region_value1 (c : Dev nD) :
    (dat1 V c).arrAt 10 cfg1.N = roundG (V c main_v7) (V c main_arg1) (V c main_arg4) (V c main_arg5) (V c main_arg6) (V c main_arg7) (V c main_arg8) (V c main_arg9) (V c main_arg10) (V c main_arg11) :=
  (dat1 V c).arrAt_eq_of_cover 10 _ (fun t _ => flushed_eq1 V c t) covered1

end Cert.KernelIdeal.Round

end
-- ==== Proof.WeightBlocks2.lean ====
/-
  The third region's eight weight windows: each window's index map is constant at the origin and its block is its whole array,
  so at every grid point the window's block, read at an index, is the array as the region finds it, read at that index.
-/
import proofs.«135701_j65085934403743_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem

namespace Cert.KernelIdeal.Round

open Cert.KernelIdeal Cert.KernelIdeal.Gen ValueIdx

variable (V : (c : Dev nD) → (b : Ref sig .tc) → Buf (Elt Ideal) ((c : Thread nD τ).loc b))

/-- The weight windows' index maps over the grid: all at the origin. -/
theorem weight_idx2 : ∀ t : Fin cfg2.N,
    (win2_2.index t (0 : Fin 2) = 0 ∧ win2_2.index t (1 : Fin 2) = 0)
    ∧ win2_3.index t (0 : Fin 1) = 0
    ∧ (win2_4.index t (0 : Fin 2) = 0 ∧ win2_4.index t (1 : Fin 2) = 0)
    ∧ win2_5.index t (0 : Fin 1) = 0
    ∧ (win2_6.index t (0 : Fin 2) = 0 ∧ win2_6.index t (1 : Fin 2) = 0)
    ∧ win2_7.index t (0 : Fin 1) = 0
    ∧ (win2_8.index t (0 : Fin 2) = 0 ∧ win2_8.index t (1 : Fin 2) = 0)
    ∧ win2_9.index t (0 : Fin 1) = 0 :=
  (by decide +kernel : ∀ t : Fin grid2.N, _)

/-- The first network's first weight matrix is staged whole at every point. -/
theorem w1a2 (c : Dev nD) (t : Fin cfg2.N) (p : Fin 256) (q : Fin 256) :
    (iblk2 V c 2 t : Vec Ideal S256x256 .f32) (ix2 p q) = (V c main_arg4 : S256x256.Idx → EReal) (ix2 p q) := by
  have e := weight_idx2 t
  unfold iblk2
  rw [View.read_apply]
  show V c main_arg4 _ = V c main_arg4 _
  congr 1
  funext a
  apply Fin.ext
  match a with
  | ⟨0, _⟩ => show win2_2.index t (0 : Fin 2) * 256 + 1 * p.val = p.val; omega
  | ⟨1, _⟩ => show win2_2.index t (1 : Fin 2) * 256 + 1 * q.val = q.val; omega

/-- The first network's first bias is staged whole at every point. -/
theorem b1a2 (c : Dev nD) (t : Fin cfg2.N) (p : Fin 256) :
    (iblk2 V c 3 t : Vec Ideal S256 .f32) (ix1 p) = (V c main_arg5 : S256.Idx → EReal) (ix1 p) := by
  have e := weight_idx2 t
  unfold iblk2
  rw [View.read_apply]
  show V c main_arg5 _ = V c main_arg5 _
  congr 1
  funext a
  apply Fin.ext
  match a with
  | ⟨0, _⟩ => show win2_3.index t (0 : Fin 1) * 256 + 1 * p.val = p.val; omega

/-- The first network's second weight matrix is staged whole at every point. -/
theorem w2a2 (c : Dev nD) (t : Fin cfg2.N) (p : Fin 128) (q : Fin 256) :
    (iblk2 V c 4 t : Vec Ideal S128x256 .f32) (ix2 p q) = (V c main_arg6 : S128x256.Idx → EReal) (ix2 p q) := by
  have e := weight_idx2 t
  unfold iblk2
  rw [View.read_apply]
  show V c main_arg6 _ = V c main_arg6 _
  congr 1
  funext a
  apply Fin.ext
  match a with
  | ⟨0, _⟩ => show win2_4.index t (0 : Fin 2) * 128 + 1 * p.val = p.val; omega
  | ⟨1, _⟩ => show win2_4.index t (1 : Fin 2) * 256 + 1 * q.val = q.val; omega

/-- The first network's second bias is staged whole at every point. -/
theorem b2a2 (c : Dev nD) (t : Fin cfg2.N) (p : Fin 128) :
    (iblk2 V c 5 t : Vec Ideal S128 .f32) (ix1 p) = (V c main_arg7 : S128.Idx → EReal) (ix1 p) := by
  have e := weight_idx2 t
  unfold iblk2
  rw [View.read_apply]
  show V c main_arg7 _ = V c main_arg7 _
  congr 1
  funext a
  apply Fin.ext
  match a with
  | ⟨0, _⟩ => show win2_5.index t (0 : Fin 1) * 128 + 1 * p.val = p.val; omega

/-- The second network's first weight matrix is staged whole at every point. -/
theorem w1b2 (c : Dev nD) (t : Fin cfg2.N) (p : Fin 256) (q : Fin 256) :
    (iblk2 V c 6 t : Vec Ideal S256x256 .f32) (ix2 p q) = (V c main_arg8 : S256x256.Idx → EReal) (ix2 p q) := by
  have e := weight_idx2 t
  unfold iblk2
  rw [View.read_apply]
  show V c main_arg8 _ = V c main_arg8 _
  congr 1
  funext a
  apply Fin.ext
  match a with
  | ⟨0, _⟩ => show win2_6.index t (0 : Fin 2) * 256 + 1 * p.val = p.val; omega
  | ⟨1, _⟩ => show win2_6.index t (1 : Fin 2) * 256 + 1 * q.val = q.val; omega

/-- The second network's first bias is staged whole at every point. -/
theorem b1b2 (c : Dev nD) (t : Fin cfg2.N) (p : Fin 256) :
    (iblk2 V c 7 t : Vec Ideal S256 .f32) (ix1 p) = (V c main_arg9 : S256.Idx → EReal) (ix1 p) := by
  have e := weight_idx2 t
  unfold iblk2
  rw [View.read_apply]
  show V c main_arg9 _ = V c main_arg9 _
  congr 1
  funext a
  apply Fin.ext
  match a with
  | ⟨0, _⟩ => show win2_7.index t (0 : Fin 1) * 256 + 1 * p.val = p.val; omega

/-- The second network's second weight matrix is staged whole at every point. -/
theorem w2b2 (c : Dev nD) (t : Fin cfg2.N) (p : Fin 128) (q : Fin 256) :
    (iblk2 V c 8 t : Vec Ideal S128x256 .f32) (ix2 p q) = (V c main_arg10 : S128x256.Idx → EReal) (ix2 p q) := by
  have e := weight_idx2 t
  unfold iblk2
  rw [View.read_apply]
  show V c main_arg10 _ = V c main_arg10 _
  congr 1
  funext a
  apply Fin.ext
  match a with
  | ⟨0, _⟩ => show win2_8.index t (0 : Fin 2) * 128 + 1 * p.val = p.val; omega
  | ⟨1, _⟩ => show win2_8.index t (1 : Fin 2) * 256 + 1 * q.val = q.val; omega

/-- The second network's second bias is staged whole at every point. -/
theorem b2b2 (c : Dev nD) (t : Fin cfg2.N) (p : Fin 128) :
    (iblk2 V c 9 t : Vec Ideal S128 .f32) (ix1 p) = (V c main_arg11 : S128.Idx → EReal) (ix1 p) := by
  have e := weight_idx2 t
  unfold iblk2
  rw [View.read_apply]
  show V c main_arg11 _ = V c main_arg11 _
  congr 1
  funext a
  apply Fin.ext
  match a with
  | ⟨0, _⟩ => show win2_9.index t (0 : Fin 1) * 128 + 1 * p.val = p.val; omega

end Cert.KernelIdeal.Round

end
-- ==== Proof.Region2.lean ====
/-
  What the third message-passing region leaves in its result array.

  The region's grid has one point per batch entry. At point `t` the embeddings window and the edge-type window hold batch
  entry `t` of their arrays, the eight weight windows hold their arrays whole, and the output window's block is batch entry
  `t` of the result array. So what point `t` writes back is batch entry `t` of `Spec.roundG` of the arrays as the region finds
  them; the 32 blocks tile the result array (entry (b, r, d) lies in the block of point `b`), hence after the region the whole
  array holds `Spec.roundG` of the entry contents.
-/
import proofs.«135701_j65085934403743_1_alg».proof.Proof.Gen.KernelIdeal.Frame
import proofs.«135701_j65085934403743_1_alg».proof.Proof.Spec
import proofs.«135701_j65085934403743_1_alg».proof.Proof.BlockSiblings
import proofs.«135701_j65085934403743_1_alg».proof.Proof.WeightBlocks2
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Round

open Cert.KernelIdeal Cert.KernelIdeal.Gen Cert.Spec ValueIdx

variable (V : (c : Dev nD) → (b : Ref sig .tc) → Buf (Elt Ideal) ((c : Thread nD τ).loc b))

/-- The printed index maps over the grid: the two batched inputs and the output sit at batch entry `t`. -/
theorem idx_facts2 : ∀ t : Fin cfg2.N,
    (win2_0.index t (0 : Fin 3) = t.val ∧ win2_0.index t (1 : Fin 3) = 0 ∧ win2_0.index t (2 : Fin 3) = 0)
    ∧ (win2_1.index t (0 : Fin 3) = t.val ∧ win2_1.index t (1 : Fin 3) = 0 ∧ win2_1.index t (2 : Fin 3) = 0)
    ∧ (win2_10.index t (0 : Fin 3) = t.val ∧ win2_10.index t (1 : Fin 3) = 0 ∧ win2_10.index t (2 : Fin 3) = 0) :=
  (by decide +kernel : ∀ t : Fin grid2.N, _)

/-- A grid point is a batch entry. -/
theorem point_lt2 (t : Fin cfg2.N) : t.val < 32 := lt_of_lt_of_eq t.isLt N_2

/-- The embeddings window's block at point `t` is batch entry `t` of its array. -/
theorem embBlock2 (c : Dev nD) (t : Fin cfg2.N) (r : Fin 64) (d : Fin 128) :
    (iblk2 V c 0 t : Vec Ideal S1x64x128 .f32) (ix3 0 r d)
      = (V c main_v8 : S32x64x128.Idx → EReal) (ix3 ⟨t.val, point_lt2 t⟩ r d) := by
  obtain ⟨⟨e0, e1, e2⟩, -⟩ := idx_facts2 t
  unfold iblk2
  rw [View.read_apply]
  show V c main_v8 _ = V c main_v8 _
  congr 1
  funext a
  apply Fin.ext
  match a with
  | ⟨0, _⟩ => show win2_0.index t (0 : Fin 3) * 1 + 1 * 0 = t.val; omega
  | ⟨1, _⟩ => show win2_0.index t (1 : Fin 3) * 64 + 1 * r.val = r.val; omega
  | ⟨2, _⟩ => show win2_0.index t (2 : Fin 3) * 128 + 1 * d.val = d.val; omega

/-- The edge-type window's block at point `t` is batch entry `t` of its array. -/
theorem arcBlock2 (c : Dev nD) (t : Fin cfg2.N) (r s : Fin 64) :
    (iblk2 V c 1 t : Vec Ideal S1x64x64 .i32) (ix3 0 r s)
      = (V c main_arg1 : S32x64x64.Idx → BitVec 32) (ix3 ⟨t.val, point_lt2 t⟩ r s) := by
  obtain ⟨-, ⟨e0, e1, e2⟩, -⟩ := idx_facts2 t
  unfold iblk2
  rw [View.read_apply]
  show V c main_arg1 _ = V c main_arg1 _
  congr 1
  funext a
  apply Fin.ext
  match a with
  | ⟨0, _⟩ => show win2_1.index t (0 : Fin 3) * 1 + 1 * 0 = t.val; omega
  | ⟨1, _⟩ => show win2_1.index t (1 : Fin 3) * 64 + 1 * r.val = r.val; omega
  | ⟨2, _⟩ => show win2_1.index t (2 : Fin 3) * 64 + 1 * s.val = s.val; omega

/-- The result array's entry that the output block's entry (0, r, d) at point `t` is written to. -/
theorem outEmb2 (t : Fin cfg2.N) (r : Fin 64) (d : Fin 128) :
    ((cfg2.win 10).blk t).view.emb (ix3 0 r d) = (ix3 ⟨t.val, point_lt2 t⟩ r d : S32x64x128.Idx) := by
  obtain ⟨-, -, e0, e1, e2⟩ := idx_facts2 t
  funext a
  apply Fin.ext
  match a with
  | ⟨0, _⟩ => show win2_10.index t (0 : Fin 3) * 1 + 1 * 0 = t.val; omega
  | ⟨1, _⟩ => show win2_10.index t (1 : Fin 3) * 64 + 1 * r.val = r.val; omega
  | ⟨2, _⟩ => show win2_10.index t (2 : Fin 3) * 128 + 1 * d.val = d.val; omega

/-- What point `t` writes back is batch entry `t` of one round of message passing on the arrays as the region finds them. -/
theorem flushed_eq2 (c : Dev nD) (t : Fin cfg2.N) :
    (dat2 V c).flushed 10 t = ((cfg2.win 10).blk t).view.read (Elt Ideal) (roundG (V c main_v8) (V c main_arg1) (V c main_arg4) (V c main_arg5) (V c main_arg6) (V c main_arg7) (V c main_arg8) (V c main_arg9) (V c main_arg10) (V c main_arg11)) := by
  show (cfg2.win 10).cut (grid2.coords t) ((dat2 V c).after 10 t) = _
  rw [after2_10]
  funext j
  obtain ⟨q, r, d, rfl⟩ : ∃ (q : Fin 1) (r : Fin 64) (d : Fin 128), j = ix3 q r d := ⟨j 0, j 1, j 2, eq_ix3 j⟩
  obtain rfl : q = 0 := Subsingleton.elim _ _
  show out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (ix3 0 r d)
    = roundG (V c main_v8) (V c main_arg1) (V c main_arg4) (V c main_arg5) (V c main_arg6) (V c main_arg7) (V c main_arg8) (V c main_arg9) (V c main_arg10) (V c main_arg11) (((cfg2.win 10).blk t).view.emb (ix3 0 r d))
  rw [outEmb2 t r d, roundG_ix3]
  refine (block_out2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) r d).trans ?_
  simp only [embBlock2 V c t, arcBlock2 V c t, w1a2 V c t, b1a2 V c t, w2a2 V c t, b2a2 V c t, w1b2 V c t, b1b2 V c t, w2b2 V c t, b2b2 V c t]

/-- An entry of the result array is in point `t`'s block iff each coordinate is in the block's range on its axis. -/
theorem mem_blk2 (t : Fin cfg2.N) (i : S32x64x128.Idx) :
    i ∈ ((cfg2.win 10).blk t).view.set ↔ ∀ a : Fin 3, win2_10.index t a * S1x64x128.size a ≤ (i a).val ∧ (i a).val < win2_10.index t a * S1x64x128.size a + S1x64x128.size a := by
  show i ∈ ((View.whole main_v9).slice (win2_10.rect t)).set ↔ _
  rw [View.set_slice_whole, Rect.mem_set_unit]
  exact Iff.rfl

/-- Every entry of the result array lies in the block of the point that is its batch entry. -/
theorem covered2 (i : S32x64x128.Idx) : ∃ t : Fin cfg2.N, (cfg2.win 10).flush t = true ∧ i ∈ ((cfg2.win 10).blk t).view.set := by
  have h0 : (i 0).val < 32 := (i 0).isLt
  have h1 : (i 1).val < 64 := (i 1).isLt
  have h2 : (i 2).val < 128 := (i 2).isLt
  obtain ⟨t, ht⟩ : ∃ t : Fin cfg2.N, t.val = (i 0).val := ⟨⟨(i 0).val, lt_of_lt_of_eq h0 N_2.symm⟩, rfl⟩
  obtain ⟨-, -, e0, e1, e2⟩ := idx_facts2 t
  refine ⟨t, flush2_10 t, ?_⟩
  rw [mem_blk2]
  intro a
  match a with
  | ⟨0, _⟩ => show win2_10.index t (0 : Fin 3) * 1 ≤ (i 0).val ∧ (i 0).val < win2_10.index t (0 : Fin 3) * 1 + 1; rw [e0]; omega
  | ⟨1, _⟩ => show win2_10.index t (1 : Fin 3) * 64 ≤ (i 1).val ∧ (i 1).val < win2_10.index t (1 : Fin 3) * 64 + 64; rw [e1]; omega
  | ⟨2, _⟩ => show win2_10.index t (2 : Fin 3) * 128 ≤ (i 2).val ∧ (i 2).val < win2_10.index t (2 : Fin 3) * 128 + 128; rw [e2]; omega

/-- After the region its result array holds one round of message passing on the arrays as the region finds them. -/
theorem region_value2 (c : Dev nD) :
    (dat2 V c).arrAt 10 cfg2.N = roundG (V c main_v8) (V c main_arg1) (V c main_arg4) (V c main_arg5) (V c main_arg6) (V c main_arg7) (V c main_arg8) (V c main_arg9) (V c main_arg10) (V c main_arg11) :=
  (dat2 V c).arrAt_eq_of_cover 10 _ (fun t _ => flushed_eq2 V c t) covered2

end Cert.KernelIdeal.Round

end
-- ==== Proof.KernelValue.lean ====
/-
  The value the kernel's program leaves in its result buffer.

  The host prologue gathers the embeddings of the tokens; each of the three regions replaces the embeddings array by one round
  of message passing on it, reading the edge types and the eight weight arrays, which nothing writes; the two closing host
  operations keep node 0 of every batch entry (a slice of the node axis, then the unit axis dropped). So the result buffer ends at
  `firstNode (roundG (roundG (roundG gathered …) …) …)` of the launch contents of the arguments.
-/
import proofs.«135701_j65085934403743_1_alg».proof.Proof.Prologue
import proofs.«135701_j65085934403743_1_alg».proof.Proof.ArgsKept
import proofs.«135701_j65085934403743_1_alg».proof.Proof.Region0
import proofs.«135701_j65085934403743_1_alg».proof.Proof.Region1
import proofs.«135701_j65085934403743_1_alg».proof.Proof.Region2
import proofs.«135701_j65085934403743_1_alg».proof.Proof.Spec
import proofs.«135701_j65085934403743_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Round

open Cert.KernelIdeal Cert.KernelIdeal.Gen Cert.Spec ValueIdx

variable (m : (ℓ : Loc nD τ sig) → Buf (Elt Ideal) ℓ) (ρ : Dev nD → PrngReg)

/-- The embeddings after one, two and three rounds, as functions of the launch contents of the arguments. -/
def round1 (c : Dev nD) : SE.Idx → EReal :=
  roundG (gathered (m ((c : Thread nD τ).loc main_arg0)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
def round2 (c : Dev nD) : SE.Idx → EReal := roundG (round1 m c) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
def round3 (c : Dev nD) : SE.Idx → EReal := roundG (round2 m c) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The second region is entered with the embeddings array at one round. -/
theorem entry2_emb (c : Dev nD) : V2 m ρ c main_v7 = round1 m c := by
  refine ((W2_arr m ρ c 10).trans (region_value0 (V1 m ρ) c)).trans ?_
  rw [entry1_emb, entry1_main_arg1, entry1_main_arg4, entry1_main_arg5, entry1_main_arg6, entry1_main_arg7, entry1_main_arg8, entry1_main_arg9, entry1_main_arg10, entry1_main_arg11]
  rfl

/-- The third region is entered with the embeddings array at two rounds. -/
theorem entry3_emb (c : Dev nD) : V3 m ρ c main_v8 = round2 m c := by
  refine ((W3_arr m ρ c 10).trans (region_value1 (V2 m ρ) c)).trans ?_
  rw [entry2_emb, entry2_main_arg1, entry2_main_arg4, entry2_main_arg5, entry2_main_arg6, entry2_main_arg7, entry2_main_arg8, entry2_main_arg9, entry2_main_arg10, entry2_main_arg11]
  rfl

/-- The third region leaves the embeddings array at three rounds. -/
theorem exit3_emb (c : Dev nD) : V4 m ρ c main_v9 = round3 m c := by
  refine ((W4_arr m ρ c 10).trans (region_value2 (V3 m ρ) c)).trans ?_
  rw [entry3_emb, entry3_main_arg1, entry3_main_arg4, entry3_main_arg5, entry3_main_arg6, entry3_main_arg7, entry3_main_arg8, entry3_main_arg9, entry3_main_arg10, entry3_main_arg11]
  rfl

/-- The result buffer ends at node 0 of every batch entry of the embeddings after three rounds. -/
theorem result_value (c : Dev nD) :
    (W5 m ρ c (Proc.devRef .tc main_v11) : SOut.Idx → EReal) = firstNode (round3 m c) := by
  have e : (W5 m ρ c (Proc.devRef .tc main_v11) : S32x128.Idx → EReal)
      = shapeCast S32x128 (extractStridedSlice S32x1x128 ![0, 0, 0] (V4 m ρ c main_v9 : S32x64x128.Idx → EReal) slices_S32x64x128_S32x1x128_0_0_0) shapeCasts_S32x1x128_S32x128 := by
    show StableHlo.after hostOps3 (W4 m ρ c) (Proc.devRef .tc main_v11) = _
    after_results
    rfl
  rw [e, exit3_emb]
  funext i
  obtain ⟨b, d, rfl⟩ : ∃ (b : Fin 32) (d : Fin 128), i = ix2 b d := ⟨i 0, i 1, eq_ix2 i⟩
  rw [firstNode_ix2]
  refine (shapeCast_apply _ shapeCasts_S32x1x128_S32x128 (ix2 b d) (ix3 b 0 d : S32x1x128.Idx) ?_).trans ?_
  · rw [Shape.rowMajor_val_three, Shape.rowMajor_val_two]
    show (b.val * 1 + 0) * 128 + d.val = b.val * 128 + d.val
    omega
  · refine extractStridedSlice_apply _ _ slices_S32x64x128_S32x1x128_0_0_0 (ix3 b 0 d : S32x1x128.Idx) (ix3 b 0 d : S32x64x128.Idx) fun a => ?_
    match a with
    | ⟨0, _⟩ => show b.val = 0 + b.val; omega
    | ⟨1, _⟩ => rfl
    | ⟨2, _⟩ => show d.val = 0 + d.val; omega

end Cert.KernelIdeal.Round

end
-- ==== Proof.RefRound1.lean ====
/-
  The reference's first round of message passing, read index by index.

  From the gathered embeddings `E` ([32, 64, 128]) and the edge types the host program broadcasts the sender's and the
  receiver's embedding over the [32, 64, 64] pairs, joins them along the feature axis, contracts the joined features with each
  network's first weight matrix, adds the bias, rectifies, contracts with the second weight matrix, adds the bias, rectifies,
  blends the two message arrays by the edge type, sums over the sender axis and adds `E`. Entry (b, r, d) of the result is
  `Spec.roundRow` of batch entry `b` at (r, d): the contraction over the joined axis is the sum over the 256 pair features,
  and the host sum's initial value is the zero word.
-/
import proofs.«135701_j65085934403743_1_alg».proof.Proof.RefRead
import proofs.«135701_j65085934403743_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.ReferenceIdeal.Round

open Cert.ReferenceIdeal Cert.ReferenceIdeal.ReadP Cert.Spec ValueIdx

/-! ### Where each layout operation reads, at explicit coordinates -/

/-- The sender's copy of the embeddings at pair (b, r, c), coordinate d, is the embedding of node c. -/
theorem sender_idx (b : Fin 32) (r c : Fin 64) (d : Fin 128) :
    idx_main_v9 (idx_main_v10 (ix4 b r c d)) = ix3 b c d :=
  funext fun a => Fin.ext (by match a with | ⟨0, _⟩ => rfl | ⟨1, _⟩ => rfl | ⟨2, _⟩ => rfl)

/-- The receiver's copy of the embeddings at pair (b, r, c), coordinate d, is the embedding of node r. -/
theorem receiver_idx (b : Fin 32) (r c : Fin 64) (d : Fin 128) :
    idx_main_v11 (idx_main_v12 (ix4 b r c d)) = ix3 b r d :=
  funext fun a => Fin.ext (by match a with | ⟨0, _⟩ => rfl | ⟨1, _⟩ => rfl | ⟨2, _⟩ => rfl)

/-- First layer, first network: term k of hidden unit h reads pair feature k … -/
theorem feat_lidx0 (b : Fin 32) (r c : Fin 64) (h k : Fin 256) :
    lidx_main_v14 (ix4 b r c h) k = ix4 b r c k :=
  funext fun a => Fin.ext (by match a with | ⟨0, _⟩ => rfl | ⟨1, _⟩ => rfl | ⟨2, _⟩ => rfl | ⟨3, _⟩ => rfl)

/-- … and the weight at (h, k). -/
theorem w1_ridx0 (b : Fin 32) (r c : Fin 64) (h k : Fin 256) :
    ridx_main_v14 (ix4 b r c h) k = ix2 h k :=
  funext fun a => Fin.ext (by match a with | ⟨0, _⟩ => rfl | ⟨1, _⟩ => rfl)

/-- The first layer's bias of the first network, broadcast over the pairs, is read at the hidden unit. -/
theorem b1_idx0 (b : Fin 32) (r c : Fin 64) (h : Fin 256) :
    idx_main_v15 (idx_main_v16 (ix4 b r c h)) = ix1 h :=
  funext fun a => Fin.ext (by match a with | ⟨0, _⟩ => rfl)

/-- Second layer, first network: term k of message coordinate d reads hidden unit k … -/
theorem hid_lidx0 (b : Fin 32) (r c : Fin 64) (d : Fin 128) (k : Fin 256) :
    lidx_main_v19 (ix4 b r c d) k = ix4 b r c k :=
  funext fun a => Fin.ext (by match a with | ⟨0, _⟩ => rfl | ⟨1, _⟩ => rfl | ⟨2, _⟩ => rfl | ⟨3, _⟩ => rfl)

/-- … and the weight at (d, k). -/
theorem w2_ridx0 (b : Fin 32) (r c : Fin 64) (d : Fin 128) (k : Fin 256) :
    ridx_main_v19 (ix4 b r c d) k = ix2 d k :=
  funext fun a => Fin.ext (by match a with | ⟨0, _⟩ => rfl | ⟨1, _⟩ => rfl)

/-- The second layer's bias of the first network is read at the message coordinate. -/
theorem b2_idx0 (b : Fin 32) (r c : Fin 64) (d : Fin 128) :
    idx_main_v20 (idx_main_v21 (ix4 b r c d)) = ix1 d :=
  funext fun a => Fin.ext (by match a with | ⟨0, _⟩ => rfl)

/-- The same four readings for the second network's first layer … -/
theorem feat_lidx1 (b : Fin 32) (r c : Fin 64) (h k : Fin 256) :
    lidx_main_v24 (ix4 b r c h) k = ix4 b r c k :=
  funext fun a => Fin.ext (by match a with | ⟨0, _⟩ => rfl | ⟨1, _⟩ => rfl | ⟨2, _⟩ => rfl | ⟨3, _⟩ => rfl)

theorem w1_ridx1 (b : Fin 32) (r c : Fin 64) (h k : Fin 256) :
    ridx_main_v24 (ix4 b r c h) k = ix2 h k :=
  funext fun a => Fin.ext (by match a with | ⟨0, _⟩ => rfl | ⟨1, _⟩ => rfl)

theorem b1_idx1 (b : Fin 32) (r c : Fin 64) (h : Fin 256) :
    idx_main_v25 (idx_main_v26 (ix4 b r c h)) = ix1 h :=
  funext fun a => Fin.ext (by match a with | ⟨0, _⟩ => rfl)

/-- … and for its second layer. -/
theorem hid_lidx1 (b : Fin 32) (r c : Fin 64) (d : Fin 128) (k : Fin 256) :
    lidx_main_v29 (ix4 b r c d) k = ix4 b r c k :=
  funext fun a => Fin.ext (by match a with | ⟨0, _⟩ => rfl | ⟨1, _⟩ => rfl | ⟨2, _⟩ => rfl | ⟨3, _⟩ => rfl)

theorem w2_ridx1 (b : Fin 32) (r c : Fin 64) (d : Fin 128) (k : Fin 256) :
    ridx_main_v29 (ix4 b r c d) k = ix2 d k :=
  funext fun a => Fin.ext (by match a with | ⟨0, _⟩ => rfl | ⟨1, _⟩ => rfl)

theorem b2_idx1 (b : Fin 32) (r c : Fin 64) (d : Fin 128) :
    idx_main_v30 (idx_main_v31 (ix4 b r c d)) = ix1 d :=
  funext fun a => Fin.ext (by match a with | ⟨0, _⟩ => rfl)

/-- The edge type of the pair (b, r, c), broadcast along the message coordinate: the factor of the first network's
    message … -/
theorem edge_idx0 (b : Fin 32) (r c : Fin 64) (d : Fin 128) :
    idx_main_v8 (idx_main_v36 (ix4 b r c d)) = ix3 b r c :=
  funext fun a => Fin.ext (by match a with | ⟨0, _⟩ => rfl | ⟨1, _⟩ => rfl | ⟨2, _⟩ => rfl)

/-- … and of the second network's. -/
theorem edge_idx1 (b : Fin 32) (r c : Fin 64) (d : Fin 128) :
    idx_main_v8 (idx_main_v38 (ix4 b r c d)) = ix3 b r c :=
  funext fun a => Fin.ext (by match a with | ⟨0, _⟩ => rfl | ⟨1, _⟩ => rfl | ⟨2, _⟩ => rfl)

/-- Term c of the sum over the senders, at receiver r and coordinate d. -/
theorem sum_idx (b : Fin 32) (r : Fin 64) (d : Fin 128) (c : Fin 64) :
    idx_main_v41 (ix3 b r d) c = ix4 b r c d :=
  funext fun a => Fin.ext (by match a with | ⟨0, _⟩ => rfl | ⟨1, _⟩ => rfl | ⟨2, _⟩ => rfl | ⟨3, _⟩ => rfl)

/-! ### The stages, at explicit coordinates -/

section Stages

variable (x0 : (⟨S32x64, .i32⟩ : BufTy).Contents (Elt Ideal)) (x1 : (⟨S32x64x64, .i32⟩ : BufTy).Contents (Elt Ideal)) (x3 : (⟨S32000x128, .f32⟩ : BufTy).Contents (Elt Ideal))
  (x4 : (⟨S256x256, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal))
  (x8 : (⟨S256x256, .f32⟩ : BufTy).Contents (Elt Ideal)) (x9 : (⟨S256, .f32⟩ : BufTy).Contents (Elt Ideal)) (x10 : (⟨S128x256, .f32⟩ : BufTy).Contents (Elt Ideal)) (x11 : (⟨S128, .f32⟩ : BufTy).Contents (Elt Ideal))

/-- The joined features of the pair (receiver r, sender c): the sender's embedding on entries 0…127, the receiver's on
    entries 128…255. -/
theorem feat_apply (b : Fin 32) (r c : Fin 64) (e : Fin 256) :
    val_main_v13 (F := Ideal) x0 x3 (ix4 b r c e)
      = pairFeat (fun r d => val_main_v6 (F := Ideal) x0 x3 (ix3 b r d)) r c e := by
  unfold val_main_v13 pairFeat
  by_cases h : e.val < 128
  · rw [dif_pos h,
      concatenate_pair_apply_left (t := S32x64x64x256) (s₁ := S32x64x64x128) (s₂ := S32x64x64x128) 3 _ _ _ (ix4 b r c e) rfl
        (ix4 b r c (⟨e.val, h⟩ : Fin 128))
        (fun a => by match a with | ⟨0, _⟩ => rfl | ⟨1, _⟩ => rfl | ⟨2, _⟩ => rfl | ⟨3, _⟩ => rfl),
      val_main_v10_apply, val_main_v9_apply, sender_idx]
  · rw [dif_neg h,
      concatenate_pair_apply_right (t := S32x64x64x256) (s₁ := S32x64x64x128) (s₂ := S32x64x64x128) 3 _ _ _ (ix4 b r c e) rfl rfl
        (ix4 b r c (⟨e.val - 128, by have := e.isLt; omega⟩ : Fin 128))
        (fun a => by match a with
          | ⟨0, _⟩ => exact fun _ => rfl
          | ⟨1, _⟩ => exact fun _ => rfl
          | ⟨2, _⟩ => exact fun _ => rfl
          | ⟨3, _⟩ => exact fun hne => absurd rfl hne)
        (by show e.val - 128 + 128 = e.val; omega),
      val_main_v12_apply, val_main_v11_apply, receiver_idx]

/-- The first network's hidden units on the pair (r, c). -/
theorem hidden0_apply (b : Fin 32) (r c : Fin 64) (h : Fin 256) :
    val_main_v18 (F := Ideal) x0 x3 x4 x5 (ix4 b r c h)
      = hidden (fun h e => x4 (ix2 h e)) (fun h => x5 (ix1 h))
          (fun r d => val_main_v6 (F := Ideal) x0 x3 (ix3 b r d)) r c h := by
  rw [val_main_v18_apply, val_main_v17_apply, val_main_v14_apply, val_main_v16_apply, val_main_v15_apply,
    val_main_call0_v0_apply, val_main_call0_cst_apply, b1_idx0]
  simp only [feat_lidx0, w1_ridx0, feat_apply]
  rfl

/-- The first network's message along the pair (r, c). -/
theorem message0_apply (b : Fin 32) (r c : Fin 64) (d : Fin 128) :
    val_main_v23 (F := Ideal) x0 x3 x4 x5 x6 x7 (ix4 b r c d)
      = message (fun h e => x4 (ix2 h e)) (fun h => x5 (ix1 h)) (fun d h => x6 (ix2 d h)) (fun d => x7 (ix1 d))
          (fun r d => val_main_v6 (F := Ideal) x0 x3 (ix3 b r d)) r c d := by
  rw [val_main_v23_apply, val_main_v22_apply, val_main_v19_apply, val_main_v21_apply, val_main_v20_apply,
    val_main_call1_v0_apply, val_main_call1_cst_apply, b2_idx0]
  simp only [hid_lidx0, w2_ridx0, hidden0_apply]
  rfl

/-- The second network's hidden units on the pair (r, c). -/
theorem hidden1_apply (b : Fin 32) (r c : Fin 64) (h : Fin 256) :
    val_main_v28 (F := Ideal) x0 x3 x8 x9 (ix4 b r c h)
      = hidden (fun h e => x8 (ix2 h e)) (fun h => x9 (ix1 h))
          (fun r d => val_main_v6 (F := Ideal) x0 x3 (ix3 b r d)) r c h := by
  rw [val_main_v28_apply, val_main_v27_apply, val_main_v24_apply, val_main_v26_apply, val_main_v25_apply,
    val_main_call2_v0_apply, val_main_call2_cst_apply, b1_idx1]
  simp only [feat_lidx1, w1_ridx1, feat_apply]
  rfl

/-- The second network's message along the pair (r, c). -/
theorem message1_apply (b : Fin 32) (r c : Fin 64) (d : Fin 128) :
    val_main_v33 (F := Ideal) x0 x3 x8 x9 x10 x11 (ix4 b r c d)
      = message (fun h e => x8 (ix2 h e)) (fun h => x9 (ix1 h)) (fun d h => x10 (ix2 d h)) (fun d => x11 (ix1 d))
          (fun r d => val_main_v6 (F := Ideal) x0 x3 (ix3 b r d)) r c d := by
  rw [val_main_v33_apply, val_main_v32_apply, val_main_v29_apply, val_main_v31_apply, val_main_v30_apply,
    val_main_call3_v0_apply, val_main_call3_cst_apply, b2_idx1]
  simp only [hid_lidx1, w2_ridx1, hidden1_apply]
  rfl

/-- The two messages blended by the edge type of the pair (r, c). -/
theorem blend_apply (b : Fin 32) (r c : Fin 64) (d : Fin 128) :
    val_main_v40 (F := Ideal) x0 x1 x3 x4 x5 x6 x7 x8 x9 x10 x11 (ix4 b r c d)
      = message (fun h e => x4 (ix2 h e)) (fun h => x5 (ix1 h)) (fun d h => x6 (ix2 d h)) (fun d => x7 (ix1 d))
            (fun r d => val_main_v6 (F := Ideal) x0 x3 (ix3 b r d)) r c d
          * (oneW - FloatOps.sitofp (F := Ideal) .f32 (x1 (ix3 b r c)))
        + message (fun h e => x8 (ix2 h e)) (fun h => x9 (ix1 h)) (fun d h => x10 (ix2 d h)) (fun d => x11 (ix1 d))
            (fun r d => val_main_v6 (F := Ideal) x0 x3 (ix3 b r d)) r c d
          * FloatOps.sitofp (F := Ideal) .f32 (x1 (ix3 b r c)) := by
  rw [val_main_v40_apply, val_main_v37_apply, val_main_v39_apply, val_main_v36_apply, val_main_v35_apply,
    val_main_v34_apply, val_main_cst_apply, val_main_v38_apply]
  simp only [val_main_v8_apply, val_main_v7_apply, edge_idx0, edge_idx1, message0_apply, message1_apply]
  rfl

end Stages

/-- The reference's array after its first round is one round of message passing on the gathered embeddings. -/
theorem ref_round1 (x0 : (⟨S32x64, .i32⟩ : BufTy).Contents (Elt Ideal)) (x1 : (⟨S32x64x64, .i32⟩ : BufTy).Contents (Elt Ideal)) (x3 : (⟨S32000x128, .f32⟩ : BufTy).Contents (Elt Ideal))
    (x4 : (⟨S256x256, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal))
    (x8 : (⟨S256x256, .f32⟩ : BufTy).Contents (Elt Ideal)) (x9 : (⟨S256, .f32⟩ : BufTy).Contents (Elt Ideal)) (x10 : (⟨S128x256, .f32⟩ : BufTy).Contents (Elt Ideal)) (x11 : (⟨S128, .f32⟩ : BufTy).Contents (Elt Ideal)) :
    val_main_v42 (F := Ideal) x0 x1 x3 x4 x5 x6 x7 x8 x9 x10 x11
      = roundG (val_main_v6 (F := Ideal) x0 x3) x1 x4 x5 x6 x7 x8 x9 x10 x11 := by
  funext i
  obtain ⟨b, r, d, rfl⟩ : ∃ (b : Fin 32) (r : Fin 64) (d : Fin 128), i = ix3 b r d := ⟨i 0, i 1, i 2, eq_ix3 i⟩
  rw [roundG_ix3, val_main_v42_apply, val_main_v41_apply, val_main_cst_1_apply]
  simp only [sum_idx, blend_apply]
  unfold roundRow
  show _ + (Ideal.ofBits .f32 0x00000000#32 + _) = _
  rw [Ideal.ofBits_zero_f32, zero_add]

end Cert.ReferenceIdeal.Round

end
-- ==== Proof.RefRound2.lean ====
/-
  The reference's second round of message passing, read index by index.

  From the previous round's embeddings `E` ([32, 64, 128]) and the edge types the host program broadcasts the sender's and the
  receiver's embedding over the [32, 64, 64] pairs, joins them along the feature axis, contracts the joined features with each
  network's first weight matrix, adds the bias, rectifies, contracts with the second weight matrix, adds the bias, rectifies,
  blends the two message arrays by the edge type, sums over the sender axis and adds `E`. Entry (b, r, d) of the result is
  `Spec.roundRow` of batch entry `b` at (r, d): the contraction over the joined axis is the sum over the 256 pair features,
  and the host sum's initial value is the zero word.
-/
import proofs.«135701_j65085934403743_1_alg».proof.Proof.RefRead
import proofs.«135701_j65085934403743_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.ReferenceIdeal.Round2

open Cert.ReferenceIdeal Cert.ReferenceIdeal.ReadP Cert.Spec ValueIdx

/-! ### Where each layout operation reads, at explicit coordinates -/

/-- The sender's copy of the embeddings at pair (b, r, c), coordinate d, is the embedding of node c. -/
theorem sender_idx (b : Fin 32) (r c : Fin 64) (d : Fin 128) :
    idx_main_v43 (idx_main_v44 (ix4 b r c d)) = ix3 b c d :=
  funext fun a => Fin.ext (by match a with | ⟨0, _⟩ => rfl | ⟨1, _⟩ => rfl | ⟨2, _⟩ => rfl)

/-- The receiver's copy of the embeddings at pair (b, r, c), coordinate d, is the embedding of node r. -/
theorem receiver_idx (b : Fin 32) (r c : Fin 64) (d : Fin 128) :
    idx_main_v45 (idx_main_v46 (ix4 b r c d)) = ix3 b r d :=
  funext fun a => Fin.ext (by match a with | ⟨0, _⟩ => rfl | ⟨1, _⟩ => rfl | ⟨2, _⟩ => rfl)

/-- First layer, first network: term k of hidden unit h reads pair feature k … -/
theorem feat_lidx0 (b : Fin 32) (r c : Fin 64) (h k : Fin 256) :
    lidx_main_v48 (ix4 b r c h) k = ix4 b r c k :=
  funext fun a => Fin.ext (by match a with | ⟨0, _⟩ => rfl | ⟨1, _⟩ => rfl | ⟨2, _⟩ => rfl | ⟨3, _⟩ => rfl)

/-- … and the weight at (h, k). -/
theorem w1_ridx0 (b : Fin 32) (r c : Fin 64) (h k : Fin 256) :
    ridx_main_v48 (ix4 b r c h) k = ix2 h k :=
  funext fun a => Fin.ext (by match a with | ⟨0, _⟩ => rfl | ⟨1, _⟩ => rfl)

/-- The first layer's bias of the first network, broadcast over the pairs, is read at the hidden unit. -/
theorem b1_idx0 (b : Fin 32) (r c : Fin 64) (h : Fin 256) :
    idx_main_v49 (idx_main_v50 (ix4 b r c h)) = ix1 h :=
  funext fun a => Fin.ext (by match a with | ⟨0, _⟩ => rfl)

/-- Second layer, first network: term k of message coordinate d reads hidden unit k … -/
theorem hid_lidx0 (b : Fin 32) (r c : Fin 64) (d : Fin 128) (k : Fin 256) :
    lidx_main_v53 (ix4 b r c d) k = ix4 b r c k :=
  funext fun a => Fin.ext (by match a with | ⟨0, _⟩ => rfl | ⟨1, _⟩ => rfl | ⟨2, _⟩ => rfl | ⟨3, _⟩ => rfl)

/-- … and the weight at (d, k). -/
theorem w2_ridx0 (b : Fin 32) (r c : Fin 64) (d : Fin 128) (k : Fin 256) :
    ridx_main_v53 (ix4 b r c d) k = ix2 d k :=
  funext fun a => Fin.ext (by match a with | ⟨0, _⟩ => rfl | ⟨1, _⟩ => rfl)

/-- The second layer's bias of the first network is read at the message coordinate. -/
theorem b2_idx0 (b : Fin 32) (r c : Fin 64) (d : Fin 128) :
    idx_main_v54 (idx_main_v55 (ix4 b r c d)) = ix1 d :=
  funext fun a => Fin.ext (by match a with | ⟨0, _⟩ => rfl)

/-- The same four readings for the second network's first layer … -/
theorem feat_lidx1 (b : Fin 32) (r c : Fin 64) (h k : Fin 256) :
    lidx_main_v58 (ix4 b r c h) k = ix4 b r c k :=
  funext fun a => Fin.ext (by match a with | ⟨0, _⟩ => rfl | ⟨1, _⟩ => rfl | ⟨2, _⟩ => rfl | ⟨3, _⟩ => rfl)

theorem w1_ridx1 (b : Fin 32) (r c : Fin 64) (h k : Fin 256) :
    ridx_main_v58 (ix4 b r c h) k = ix2 h k :=
  funext fun a => Fin.ext (by match a with | ⟨0, _⟩ => rfl | ⟨1, _⟩ => rfl)

theorem b1_idx1 (b : Fin 32) (r c : Fin 64) (h : Fin 256) :
    idx_main_v59 (idx_main_v60 (ix4 b r c h)) = ix1 h :=
  funext fun a => Fin.ext (by match a with | ⟨0, _⟩ => rfl)

/-- … and for its second layer. -/
theorem hid_lidx1 (b : Fin 32) (r c : Fin 64) (d : Fin 128) (k : Fin 256) :
    lidx_main_v63 (ix4 b r c d) k = ix4 b r c k :=
  funext fun a => Fin.ext (by match a with | ⟨0, _⟩ => rfl | ⟨1, _⟩ => rfl | ⟨2, _⟩ => rfl | ⟨3, _⟩ => rfl)

theorem w2_ridx1 (b : Fin 32) (r c : Fin 64) (d : Fin 128) (k : Fin 256) :
    ridx_main_v63 (ix4 b r c d) k = ix2 d k :=
  funext fun a => Fin.ext (by match a with | ⟨0, _⟩ => rfl | ⟨1, _⟩ => rfl)

theorem b2_idx1 (b : Fin 32) (r c : Fin 64) (d : Fin 128) :
    idx_main_v64 (idx_main_v65 (ix4 b r c d)) = ix1 d :=
  funext fun a => Fin.ext (by match a with | ⟨0, _⟩ => rfl)

/-- The edge type of the pair (b, r, c), broadcast along the message coordinate: the factor of the first network's
    message … -/
theorem edge_idx0 (b : Fin 32) (r c : Fin 64) (d : Fin 128) :
    idx_main_v8 (idx_main_v70 (ix4 b r c d)) = ix3 b r c :=
  funext fun a => Fin.ext (by match a with | ⟨0, _⟩ => rfl | ⟨1, _⟩ => rfl | ⟨2, _⟩ => rfl)

/-- … and of the second network's. -/
theorem edge_idx1 (b : Fin 32) (r c : Fin 64) (d : Fin 128) :
    idx_main_v8 (idx_main_v72 (ix4 b r c d)) = ix3 b r c :=
  funext fun a => Fin.ext (by match a with | ⟨0, _⟩ => rfl | ⟨1, _⟩ => rfl | ⟨2, _⟩ => rfl)

/-- Term c of the sum over the senders, at receiver r and coordinate d. -/
theorem sum_idx (b : Fin 32) (r : Fin 64) (d : Fin 128) (c : Fin 64) :
    idx_main_v75 (ix3 b r d) c = ix4 b r c d :=
  funext fun a => Fin.ext (by match a with | ⟨0, _⟩ => rfl | ⟨1, _⟩ => rfl | ⟨2, _⟩ => rfl | ⟨3, _⟩ => rfl)

/-! ### The stages, at explicit coordinates -/

section Stages

variable (x0 : (⟨S32x64, .i32⟩ : BufTy).Contents (Elt Ideal)) (x1 : (⟨S32x64x64, .i32⟩ : BufTy).Contents (Elt Ideal)) (x3 : (⟨S32000x128, .f32⟩ : BufTy).Contents (Elt Ideal))
  (x4 : (⟨S256x256, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal))
  (x8 : (⟨S256x256, .f32⟩ : BufTy).Contents (Elt Ideal)) (x9 : (⟨S256, .f32⟩ : BufTy).Contents (Elt Ideal)) (x10 : (⟨S128x256, .f32⟩ : BufTy).Contents (Elt Ideal)) (x11 : (⟨S128, .f32⟩ : BufTy).Contents (Elt Ideal))

/-- The joined features of the pair (receiver r, sender c): the sender's embedding on entries 0…127, the receiver's on
    entries 128…255. -/
theorem feat_apply (b : Fin 32) (r c : Fin 64) (e : Fin 256) :
    val_main_v47 (F := Ideal) x0 x1 x3 x4 x5 x6 x7 x8 x9 x10 x11 (ix4 b r c e)
      = pairFeat (fun r d => val_main_v42 (F := Ideal) x0 x1 x3 x4 x5 x6 x7 x8 x9 x10 x11 (ix3 b r d)) r c e := by
  unfold val_main_v47 pairFeat
  by_cases h : e.val < 128
  · rw [dif_pos h,
      concatenate_pair_apply_left (t := S32x64x64x256) (s₁ := S32x64x64x128) (s₂ := S32x64x64x128) 3 _ _ _ (ix4 b r c e) rfl
        (ix4 b r c (⟨e.val, h⟩ : Fin 128))
        (fun a => by match a with | ⟨0, _⟩ => rfl | ⟨1, _⟩ => rfl | ⟨2, _⟩ => rfl | ⟨3, _⟩ => rfl),
      val_main_v44_apply, val_main_v43_apply, sender_idx]
  · rw [dif_neg h,
      concatenate_pair_apply_right (t := S32x64x64x256) (s₁ := S32x64x64x128) (s₂ := S32x64x64x128) 3 _ _ _ (ix4 b r c e) rfl rfl
        (ix4 b r c (⟨e.val - 128, by have := e.isLt; omega⟩ : Fin 128))
        (fun a => by match a with
          | ⟨0, _⟩ => exact fun _ => rfl
          | ⟨1, _⟩ => exact fun _ => rfl
          | ⟨2, _⟩ => exact fun _ => rfl
          | ⟨3, _⟩ => exact fun hne => absurd rfl hne)
        (by show e.val - 128 + 128 = e.val; omega),
      val_main_v46_apply, val_main_v45_apply, receiver_idx]

/-- The first network's hidden units on the pair (r, c). -/
theorem hidden0_apply (b : Fin 32) (r c : Fin 64) (h : Fin 256) :
    val_main_v52 (F := Ideal) x0 x1 x3 x4 x5 x6 x7 x8 x9 x10 x11 (ix4 b r c h)
      = hidden (fun h e => x4 (ix2 h e)) (fun h => x5 (ix1 h))
          (fun r d => val_main_v42 (F := Ideal) x0 x1 x3 x4 x5 x6 x7 x8 x9 x10 x11 (ix3 b r d)) r c h := by
  rw [val_main_v52_apply, val_main_v51_apply, val_main_v48_apply, val_main_v50_apply, val_main_v49_apply,
    val_main_call4_v0_apply, val_main_call4_cst_apply, b1_idx0]
  simp only [feat_lidx0, w1_ridx0, feat_apply]
  rfl

/-- The first network's message along the pair (r, c). -/
theorem message0_apply (b : Fin 32) (r c : Fin 64) (d : Fin 128) :
    val_main_v57 (F := Ideal) x0 x1 x3 x4 x5 x6 x7 x8 x9 x10 x11 (ix4 b r c d)
      = message (fun h e => x4 (ix2 h e)) (fun h => x5 (ix1 h)) (fun d h => x6 (ix2 d h)) (fun d => x7 (ix1 d))
          (fun r d => val_main_v42 (F := Ideal) x0 x1 x3 x4 x5 x6 x7 x8 x9 x10 x11 (ix3 b r d)) r c d := by
  rw [val_main_v57_apply, val_main_v56_apply, val_main_v53_apply, val_main_v55_apply, val_main_v54_apply,
    val_main_call5_v0_apply, val_main_call5_cst_apply, b2_idx0]
  simp only [hid_lidx0, w2_ridx0, hidden0_apply]
  rfl

/-- The second network's hidden units on the pair (r, c). -/
theorem hidden1_apply (b : Fin 32) (r c : Fin 64) (h : Fin 256) :
    val_main_v62 (F := Ideal) x0 x1 x3 x4 x5 x6 x7 x8 x9 x10 x11 (ix4 b r c h)
      = hidden (fun h e => x8 (ix2 h e)) (fun h => x9 (ix1 h))
          (fun r d => val_main_v42 (F := Ideal) x0 x1 x3 x4 x5 x6 x7 x8 x9 x10 x11 (ix3 b r d)) r c h := by
  rw [val_main_v62_apply, val_main_v61_apply, val_main_v58_apply, val_main_v60_apply, val_main_v59_apply,
    val_main_call6_v0_apply, val_main_call6_cst_apply, b1_idx1]
  simp only [feat_lidx1, w1_ridx1, feat_apply]
  rfl

/-- The second network's message along the pair (r, c). -/
theorem message1_apply (b : Fin 32) (r c : Fin 64) (d : Fin 128) :
    val_main_v67 (F := Ideal) x0 x1 x3 x4 x5 x6 x7 x8 x9 x10 x11 (ix4 b r c d)
      = message (fun h e => x8 (ix2 h e)) (fun h => x9 (ix1 h)) (fun d h => x10 (ix2 d h)) (fun d => x11 (ix1 d))
          (fun r d => val_main_v42 (F := Ideal) x0 x1 x3 x4 x5 x6 x7 x8 x9 x10 x11 (ix3 b r d)) r c d := by
  rw [val_main_v67_apply, val_main_v66_apply, val_main_v63_apply, val_main_v65_apply, val_main_v64_apply,
    val_main_call7_v0_apply, val_main_call7_cst_apply, b2_idx1]
  simp only [hid_lidx1, w2_ridx1, hidden1_apply]
  rfl

/-- The two messages blended by the edge type of the pair (r, c). -/
theorem blend_apply (b : Fin 32) (r c : Fin 64) (d : Fin 128) :
    val_main_v74 (F := Ideal) x0 x1 x3 x4 x5 x6 x7 x8 x9 x10 x11 (ix4 b r c d)
      = message (fun h e => x4 (ix2 h e)) (fun h => x5 (ix1 h)) (fun d h => x6 (ix2 d h)) (fun d => x7 (ix1 d))
            (fun r d => val_main_v42 (F := Ideal) x0 x1 x3 x4 x5 x6 x7 x8 x9 x10 x11 (ix3 b r d)) r c d
          * (oneW - FloatOps.sitofp (F := Ideal) .f32 (x1 (ix3 b r c)))
        + message (fun h e => x8 (ix2 h e)) (fun h => x9 (ix1 h)) (fun d h => x10 (ix2 d h)) (fun d => x11 (ix1 d))
            (fun r d => val_main_v42 (F := Ideal) x0 x1 x3 x4 x5 x6 x7 x8 x9 x10 x11 (ix3 b r d)) r c d
          * FloatOps.sitofp (F := Ideal) .f32 (x1 (ix3 b r c)) := by
  rw [val_main_v74_apply, val_main_v71_apply, val_main_v73_apply, val_main_v70_apply, val_main_v69_apply,
    val_main_v68_apply, val_main_cst_2_apply, val_main_v72_apply]
  simp only [val_main_v8_apply, val_main_v7_apply, edge_idx0, edge_idx1, message0_apply, message1_apply]
  rfl

end Stages

/-- The reference's array after its second round is one round of message passing on the previous round's array. -/
theorem ref_round2 (x0 : (⟨S32x64, .i32⟩ : BufTy).Contents (Elt Ideal)) (x1 : (⟨S32x64x64, .i32⟩ : BufTy).Contents (Elt Ideal)) (x3 : (⟨S32000x128, .f32⟩ : BufTy).Contents (Elt Ideal))
    (x4 : (⟨S256x256, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal))
    (x8 : (⟨S256x256, .f32⟩ : BufTy).Contents (Elt Ideal)) (x9 : (⟨S256, .f32⟩ : BufTy).Contents (Elt Ideal)) (x10 : (⟨S128x256, .f32⟩ : BufTy).Contents (Elt Ideal)) (x11 : (⟨S128, .f32⟩ : BufTy).Contents (Elt Ideal)) :
    val_main_v76 (F := Ideal) x0 x1 x3 x4 x5 x6 x7 x8 x9 x10 x11
      = roundG (val_main_v42 (F := Ideal) x0 x1 x3 x4 x5 x6 x7 x8 x9 x10 x11) x1 x4 x5 x6 x7 x8 x9 x10 x11 := by
  funext i
  obtain ⟨b, r, d, rfl⟩ : ∃ (b : Fin 32) (r : Fin 64) (d : Fin 128), i = ix3 b r d := ⟨i 0, i 1, i 2, eq_ix3 i⟩
  rw [roundG_ix3, val_main_v76_apply, val_main_v75_apply, val_main_cst_3_apply]
  simp only [sum_idx, blend_apply]
  unfold roundRow
  show _ + (Ideal.ofBits .f32 0x00000000#32 + _) = _
  rw [Ideal.ofBits_zero_f32, zero_add]

end Cert.ReferenceIdeal.Round2

end
-- ==== Proof.RefRound3.lean ====
/-
  The reference's third round of message passing, read index by index.

  From the previous round's embeddings `E` ([32, 64, 128]) and the edge types the host program broadcasts the sender's and the
  receiver's embedding over the [32, 64, 64] pairs, joins them along the feature axis, contracts the joined features with each
  network's first weight matrix, adds the bias, rectifies, contracts with the second weight matrix, adds the bias, rectifies,
  blends the two message arrays by the edge type, sums over the sender axis and adds `E`. Entry (b, r, d) of the result is
  `Spec.roundRow` of batch entry `b` at (r, d): the contraction over the joined axis is the sum over the 256 pair features,
  and the host sum's initial value is the zero word.
-/
import proofs.«135701_j65085934403743_1_alg».proof.Proof.RefRead
import proofs.«135701_j65085934403743_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.ReferenceIdeal.Round3

open Cert.ReferenceIdeal Cert.ReferenceIdeal.ReadP Cert.Spec ValueIdx

/-! ### Where each layout operation reads, at explicit coordinates -/

/-- The sender's copy of the embeddings at pair (b, r, c), coordinate d, is the embedding of node c. -/
theorem sender_idx (b : Fin 32) (r c : Fin 64) (d : Fin 128) :
    idx_main_v77 (idx_main_v78 (ix4 b r c d)) = ix3 b c d :=
  funext fun a => Fin.ext (by match a with | ⟨0, _⟩ => rfl | ⟨1, _⟩ => rfl | ⟨2, _⟩ => rfl)

/-- The receiver's copy of the embeddings at pair (b, r, c), coordinate d, is the embedding of node r. -/
theorem receiver_idx (b : Fin 32) (r c : Fin 64) (d : Fin 128) :
    idx_main_v79 (idx_main_v80 (ix4 b r c d)) = ix3 b r d :=
  funext fun a => Fin.ext (by match a with | ⟨0, _⟩ => rfl | ⟨1, _⟩ => rfl | ⟨2, _⟩ => rfl)

/-- First layer, first network: term k of hidden unit h reads pair feature k … -/
theorem feat_lidx0 (b : Fin 32) (r c : Fin 64) (h k : Fin 256) :
    lidx_main_v82 (ix4 b r c h) k = ix4 b r c k :=
  funext fun a => Fin.ext (by match a with | ⟨0, _⟩ => rfl | ⟨1, _⟩ => rfl | ⟨2, _⟩ => rfl | ⟨3, _⟩ => rfl)

/-- … and the weight at (h, k). -/
theorem w1_ridx0 (b : Fin 32) (r c : Fin 64) (h k : Fin 256) :
    ridx_main_v82 (ix4 b r c h) k = ix2 h k :=
  funext fun a => Fin.ext (by match a with | ⟨0, _⟩ => rfl | ⟨1, _⟩ => rfl)

/-- The first layer's bias of the first network, broadcast over the pairs, is read at the hidden unit. -/
theorem b1_idx0 (b : Fin 32) (r c : Fin 64) (h : Fin 256) :
    idx_main_v83 (idx_main_v84 (ix4 b r c h)) = ix1 h :=
  funext fun a => Fin.ext (by match a with | ⟨0, _⟩ => rfl)

/-- Second layer, first network: term k of message coordinate d reads hidden unit k … -/
theorem hid_lidx0 (b : Fin 32) (r c : Fin 64) (d : Fin 128) (k : Fin 256) :
    lidx_main_v87 (ix4 b r c d) k = ix4 b r c k :=
  funext fun a => Fin.ext (by match a with | ⟨0, _⟩ => rfl | ⟨1, _⟩ => rfl | ⟨2, _⟩ => rfl | ⟨3, _⟩ => rfl)

/-- … and the weight at (d, k). -/
theorem w2_ridx0 (b : Fin 32) (r c : Fin 64) (d : Fin 128) (k : Fin 256) :
    ridx_main_v87 (ix4 b r c d) k = ix2 d k :=
  funext fun a => Fin.ext (by match a with | ⟨0, _⟩ => rfl | ⟨1, _⟩ => rfl)

/-- The second layer's bias of the first network is read at the message coordinate. -/
theorem b2_idx0 (b : Fin 32) (r c : Fin 64) (d : Fin 128) :
    idx_main_v88 (idx_main_v89 (ix4 b r c d)) = ix1 d :=
  funext fun a => Fin.ext (by match a with | ⟨0, _⟩ => rfl)

/-- The same four readings for the second network's first layer … -/
theorem feat_lidx1 (b : Fin 32) (r c : Fin 64) (h k : Fin 256) :
    lidx_main_v92 (ix4 b r c h) k = ix4 b r c k :=
  funext fun a => Fin.ext (by match a with | ⟨0, _⟩ => rfl | ⟨1, _⟩ => rfl | ⟨2, _⟩ => rfl | ⟨3, _⟩ => rfl)

theorem w1_ridx1 (b : Fin 32) (r c : Fin 64) (h k : Fin 256) :
    ridx_main_v92 (ix4 b r c h) k = ix2 h k :=
  funext fun a => Fin.ext (by match a with | ⟨0, _⟩ => rfl | ⟨1, _⟩ => rfl)

theorem b1_idx1 (b : Fin 32) (r c : Fin 64) (h : Fin 256) :
    idx_main_v93 (idx_main_v94 (ix4 b r c h)) = ix1 h :=
  funext fun a => Fin.ext (by match a with | ⟨0, _⟩ => rfl)

/-- … and for its second layer. -/
theorem hid_lidx1 (b : Fin 32) (r c : Fin 64) (d : Fin 128) (k : Fin 256) :
    lidx_main_v97 (ix4 b r c d) k = ix4 b r c k :=
  funext fun a => Fin.ext (by match a with | ⟨0, _⟩ => rfl | ⟨1, _⟩ => rfl | ⟨2, _⟩ => rfl | ⟨3, _⟩ => rfl)

theorem w2_ridx1 (b : Fin 32) (r c : Fin 64) (d : Fin 128) (k : Fin 256) :
    ridx_main_v97 (ix4 b r c d) k = ix2 d k :=
  funext fun a => Fin.ext (by match a with | ⟨0, _⟩ => rfl | ⟨1, _⟩ => rfl)

theorem b2_idx1 (b : Fin 32) (r c : Fin 64) (d : Fin 128) :
    idx_main_v98 (idx_main_v99 (ix4 b r c d)) = ix1 d :=
  funext fun a => Fin.ext (by match a with | ⟨0, _⟩ => rfl)

/-- The edge type of the pair (b, r, c), broadcast along the message coordinate: the factor of the first network's
    message … -/
theorem edge_idx0 (b : Fin 32) (r c : Fin 64) (d : Fin 128) :
    idx_main_v8 (idx_main_v104 (ix4 b r c d)) = ix3 b r c :=
  funext fun a => Fin.ext (by match a with | ⟨0, _⟩ => rfl | ⟨1, _⟩ => rfl | ⟨2, _⟩ => rfl)

/-- … and of the second network's. -/
theorem edge_idx1 (b : Fin 32) (r c : Fin 64) (d : Fin 128) :
    idx_main_v8 (idx_main_v106 (ix4 b r c d)) = ix3 b r c :=
  funext fun a => Fin.ext (by match a with | ⟨0, _⟩ => rfl | ⟨1, _⟩ => rfl | ⟨2, _⟩ => rfl)

/-- Term c of the sum over the senders, at receiver r and coordinate d. -/
theorem sum_idx (b : Fin 32) (r : Fin 64) (d : Fin 128) (c : Fin 64) :
    idx_main_v109 (ix3 b r d) c = ix4 b r c d :=
  funext fun a => Fin.ext (by match a with | ⟨0, _⟩ => rfl | ⟨1, _⟩ => rfl | ⟨2, _⟩ => rfl | ⟨3, _⟩ => rfl)

/-! ### The stages, at explicit coordinates -/

section Stages

variable (x0 : (⟨S32x64, .i32⟩ : BufTy).Contents (Elt Ideal)) (x1 : (⟨S32x64x64, .i32⟩ : BufTy).Contents (Elt Ideal)) (x3 : (⟨S32000x128, .f32⟩ : BufTy).Contents (Elt Ideal))
  (x4 : (⟨S256x256, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal))
  (x8 : (⟨S256x256, .f32⟩ : BufTy).Contents (Elt Ideal)) (x9 : (⟨S256, .f32⟩ : BufTy).Contents (Elt Ideal)) (x10 : (⟨S128x256, .f32⟩ : BufTy).Contents (Elt Ideal)) (x11 : (⟨S128, .f32⟩ : BufTy).Contents (Elt Ideal))

/-- The joined features of the pair (receiver r, sender c): the sender's embedding on entries 0…127, the receiver's on
    entries 128…255. -/
theorem feat_apply (b : Fin 32) (r c : Fin 64) (e : Fin 256) :
    val_main_v81 (F := Ideal) x0 x1 x3 x4 x5 x6 x7 x8 x9 x10 x11 (ix4 b r c e)
      = pairFeat (fun r d => val_main_v76 (F := Ideal) x0 x1 x3 x4 x5 x6 x7 x8 x9 x10 x11 (ix3 b r d)) r c e := by
  unfold val_main_v81 pairFeat
  by_cases h : e.val < 128
  · rw [dif_pos h,
      concatenate_pair_apply_left (t := S32x64x64x256) (s₁ := S32x64x64x128) (s₂ := S32x64x64x128) 3 _ _ _ (ix4 b r c e) rfl
        (ix4 b r c (⟨e.val, h⟩ : Fin 128))
        (fun a => by match a with | ⟨0, _⟩ => rfl | ⟨1, _⟩ => rfl | ⟨2, _⟩ => rfl | ⟨3, _⟩ => rfl),
      val_main_v78_apply, val_main_v77_apply, sender_idx]
  · rw [dif_neg h,
      concatenate_pair_apply_right (t := S32x64x64x256) (s₁ := S32x64x64x128) (s₂ := S32x64x64x128) 3 _ _ _ (ix4 b r c e) rfl rfl
        (ix4 b r c (⟨e.val - 128, by have := e.isLt; omega⟩ : Fin 128))
        (fun a => by match a with
          | ⟨0, _⟩ => exact fun _ => rfl
          | ⟨1, _⟩ => exact fun _ => rfl
          | ⟨2, _⟩ => exact fun _ => rfl
          | ⟨3, _⟩ => exact fun hne => absurd rfl hne)
        (by show e.val - 128 + 128 = e.val; omega),
      val_main_v80_apply, val_main_v79_apply, receiver_idx]

/-- The first network's hidden units on the pair (r, c). -/
theorem hidden0_apply (b : Fin 32) (r c : Fin 64) (h : Fin 256) :
    val_main_v86 (F := Ideal) x0 x1 x3 x4 x5 x6 x7 x8 x9 x10 x11 (ix4 b r c h)
      = hidden (fun h e => x4 (ix2 h e)) (fun h => x5 (ix1 h))
          (fun r d => val_main_v76 (F := Ideal) x0 x1 x3 x4 x5 x6 x7 x8 x9 x10 x11 (ix3 b r d)) r c h := by
  rw [val_main_v86_apply, val_main_v85_apply, val_main_v82_apply, val_main_v84_apply, val_main_v83_apply,
    val_main_call8_v0_apply, val_main_call8_cst_apply, b1_idx0]
  simp only [feat_lidx0, w1_ridx0, feat_apply]
  rfl

/-- The first network's message along the pair (r, c). -/
theorem message0_apply (b : Fin 32) (r c : Fin 64) (d : Fin 128) :
    val_main_v91 (F := Ideal) x0 x1 x3 x4 x5 x6 x7 x8 x9 x10 x11 (ix4 b r c d)
      = message (fun h e => x4 (ix2 h e)) (fun h => x5 (ix1 h)) (fun d h => x6 (ix2 d h)) (fun d => x7 (ix1 d))
          (fun r d => val_main_v76 (F := Ideal) x0 x1 x3 x4 x5 x6 x7 x8 x9 x10 x11 (ix3 b r d)) r c d := by
  rw [val_main_v91_apply, val_main_v90_apply, val_main_v87_apply, val_main_v89_apply, val_main_v88_apply,
    val_main_call9_v0_apply, val_main_call9_cst_apply, b2_idx0]
  simp only [hid_lidx0, w2_ridx0, hidden0_apply]
  rfl

/-- The second network's hidden units on the pair (r, c). -/
theorem hidden1_apply (b : Fin 32) (r c : Fin 64) (h : Fin 256) :
    val_main_v96 (F := Ideal) x0 x1 x3 x4 x5 x6 x7 x8 x9 x10 x11 (ix4 b r c h)
      = hidden (fun h e => x8 (ix2 h e)) (fun h => x9 (ix1 h))
          (fun r d => val_main_v76 (F := Ideal) x0 x1 x3 x4 x5 x6 x7 x8 x9 x10 x11 (ix3 b r d)) r c h := by
  rw [val_main_v96_apply, val_main_v95_apply, val_main_v92_apply, val_main_v94_apply, val_main_v93_apply,
    val_main_call10_v0_apply, val_main_call10_cst_apply, b1_idx1]
  simp only [feat_lidx1, w1_ridx1, feat_apply]
  rfl

/-- The second network's message along the pair (r, c). -/
theorem message1_apply (b : Fin 32) (r c : Fin 64) (d : Fin 128) :
    val_main_v101 (F := Ideal) x0 x1 x3 x4 x5 x6 x7 x8 x9 x10 x11 (ix4 b r c d)
      = message (fun h e => x8 (ix2 h e)) (fun h => x9 (ix1 h)) (fun d h => x10 (ix2 d h)) (fun d => x11 (ix1 d))
          (fun r d => val_main_v76 (F := Ideal) x0 x1 x3 x4 x5 x6 x7 x8 x9 x10 x11 (ix3 b r d)) r c d := by
  rw [val_main_v101_apply, val_main_v100_apply, val_main_v97_apply, val_main_v99_apply, val_main_v98_apply,
    val_main_call11_v0_apply, val_main_call11_cst_apply, b2_idx1]
  simp only [hid_lidx1, w2_ridx1, hidden1_apply]
  rfl

/-- The two messages blended by the edge type of the pair (r, c). -/
theorem blend_apply (b : Fin 32) (r c : Fin 64) (d : Fin 128) :
    val_main_v108 (F := Ideal) x0 x1 x3 x4 x5 x6 x7 x8 x9 x10 x11 (ix4 b r c d)
      = message (fun h e => x4 (ix2 h e)) (fun h => x5 (ix1 h)) (fun d h => x6 (ix2 d h)) (fun d => x7 (ix1 d))
            (fun r d => val_main_v76 (F := Ideal) x0 x1 x3 x4 x5 x6 x7 x8 x9 x10 x11 (ix3 b r d)) r c d
          * (oneW - FloatOps.sitofp (F := Ideal) .f32 (x1 (ix3 b r c)))
        + message (fun h e => x8 (ix2 h e)) (fun h => x9 (ix1 h)) (fun d h => x10 (ix2 d h)) (fun d => x11 (ix1 d))
            (fun r d => val_main_v76 (F := Ideal) x0 x1 x3 x4 x5 x6 x7 x8 x9 x10 x11 (ix3 b r d)) r c d
          * FloatOps.sitofp (F := Ideal) .f32 (x1 (ix3 b r c)) := by
  rw [val_main_v108_apply, val_main_v105_apply, val_main_v107_apply, val_main_v104_apply, val_main_v103_apply,
    val_main_v102_apply, val_main_cst_4_apply, val_main_v106_apply]
  simp only [val_main_v8_apply, val_main_v7_apply, edge_idx0, edge_idx1, message0_apply, message1_apply]
  rfl

end Stages

/-- The reference's array after its third round is one round of message passing on the previous round's array. -/
theorem ref_round3 (x0 : (⟨S32x64, .i32⟩ : BufTy).Contents (Elt Ideal)) (x1 : (⟨S32x64x64, .i32⟩ : BufTy).Contents (Elt Ideal)) (x3 : (⟨S32000x128, .f32⟩ : BufTy).Contents (Elt Ideal))
    (x4 : (⟨S256x256, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal))
    (x8 : (⟨S256x256, .f32⟩ : BufTy).Contents (Elt Ideal)) (x9 : (⟨S256, .f32⟩ : BufTy).Contents (Elt Ideal)) (x10 : (⟨S128x256, .f32⟩ : BufTy).Contents (Elt Ideal)) (x11 : (⟨S128, .f32⟩ : BufTy).Contents (Elt Ideal)) :
    val_main_v110 (F := Ideal) x0 x1 x3 x4 x5 x6 x7 x8 x9 x10 x11
      = roundG (val_main_v76 (F := Ideal) x0 x1 x3 x4 x5 x6 x7 x8 x9 x10 x11) x1 x4 x5 x6 x7 x8 x9 x10 x11 := by
  funext i
  obtain ⟨b, r, d, rfl⟩ : ∃ (b : Fin 32) (r : Fin 64) (d : Fin 128), i = ix3 b r d := ⟨i 0, i 1, i 2, eq_ix3 i⟩
  rw [roundG_ix3, val_main_v110_apply, val_main_v109_apply, val_main_cst_5_apply]
  simp only [sum_idx, blend_apply]
  unfold roundRow
  show _ + (Ideal.ofBits .f32 0x00000000#32 + _) = _
  rw [Ideal.ofBits_zero_f32, zero_add]

end Cert.ReferenceIdeal.Round3

end
-- ==== Proof.RefValue.lean ====
/-
  The reference's result: three rounds of message passing, then the first node of every batch entry.

  The host program runs the round three times, each on the previous round's array with the same edge types and weights,
  so its array after the third round is `roundG` applied three times to the gathered embeddings. The closing slice keeps
  node 0 of every batch entry ([32, 64, 128] → [32, 1, 128]) and the reshape drops the unit axis ([32, 1, 128] → [32, 128]):
  entry (b, d) of the result is entry (b, 0, d) of the third round's array, which is `Spec.firstNode`.
-/
import proofs.«135701_j65085934403743_1_alg».proof.Proof.RefRead
import proofs.«135701_j65085934403743_1_alg».proof.Proof.Spec
import proofs.«135701_j65085934403743_1_alg».proof.Proof.RefRound1
import proofs.«135701_j65085934403743_1_alg».proof.Proof.RefRound2
import proofs.«135701_j65085934403743_1_alg».proof.Proof.RefRound3
import Idealize.ShloMosaic.Lib.ValueIdx

noncomputable section

open Idealize.ShloMosaic Idealize.ShloMosaic.TcCoe Idealize.SL.Sem

namespace Cert.ReferenceIdeal.Round

open Cert.ReferenceIdeal Cert.ReferenceIdeal.ReadP Cert.Spec ValueIdx

/-- Entry (b, d) of the reshaped slice is entry (b, 0, d) of the sliced array: in row-major order position b · 128 + d
    of [32, 128] is position (b, 0, d) of [32, 1, 128], and the slice starts at node 0. -/
theorem first_node_idx (b : Fin 32) (d : Fin 128) :
    idx_main_v111 (idx_main_v112 (ix2 b d)) = ix3 b 0 d :=
  funext fun a => Fin.ext (by
    match a with
    | ⟨0, _⟩ => show (b.val * 128 + d.val) / 128 = b.val; have := d.isLt; omega
    | ⟨1, _⟩ => rfl
    | ⟨2, _⟩ => show (b.val * 128 + d.val) % 128 = d.val; have := d.isLt; omega)

/-- The reference's result is the first node of three rounds of message passing on the gathered embeddings. -/
theorem ref_value (x0 : (⟨S32x64, .i32⟩ : BufTy).Contents (Elt Ideal)) (x1 : (⟨S32x64x64, .i32⟩ : BufTy).Contents (Elt Ideal)) (x3 : (⟨S32000x128, .f32⟩ : BufTy).Contents (Elt Ideal))
    (x4 : (⟨S256x256, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal))
    (x8 : (⟨S256x256, .f32⟩ : BufTy).Contents (Elt Ideal)) (x9 : (⟨S256, .f32⟩ : BufTy).Contents (Elt Ideal)) (x10 : (⟨S128x256, .f32⟩ : BufTy).Contents (Elt Ideal)) (x11 : (⟨S128, .f32⟩ : BufTy).Contents (Elt Ideal)) :
    (val_main_v112 (F := Ideal) x0 x1 x3 x4 x5 x6 x7 x8 x9 x10 x11 : SOut.Idx → EReal)
      = firstNode (roundG (roundG (roundG (val_main_v6 (F := Ideal) x0 x3) x1 x4 x5 x6 x7 x8 x9 x10 x11)
          x1 x4 x5 x6 x7 x8 x9 x10 x11) x1 x4 x5 x6 x7 x8 x9 x10 x11) := by
  funext i
  obtain ⟨b, d, rfl⟩ : ∃ (b : Fin 32) (d : Fin 128), i = ix2 b d := ⟨i 0, i 1, eq_ix2 i⟩
  rw [firstNode_ix2, val_main_v112_apply, val_main_v111_apply, first_node_idx,
    Cert.ReferenceIdeal.Round3.ref_round3, Cert.ReferenceIdeal.Round2.ref_round2, ref_round1]

end Cert.ReferenceIdeal.Round

end
-- ==== Proof.lean ====
/-
  Three rounds of message passing on a dense graph, computed by a tiled kernel and by its array-level reference, agree on the
  extended reals.

  Both programs gather the tokens' embeddings the same way, apply `Spec.roundG` three times with the same edge types and
  weights, and keep node 0 of every batch entry. The kernel runs each round as a grid of 32 points, one batch entry per point,
  whose body lays the 64 × 64 ordered pairs out as the rows of a matrix and multiplies by the transposed weights; the reference
  contracts the four-dimensional pair array with the weights directly. Entry by entry each is the same finite sum of the same
  products, so the two results are equal whatever the inputs hold: no step needs an input to be finite.
  The kernel's idealization rewrites nothing, so `preserves` has nothing to state.
-/
import proofs.«135701_j65085934403743_1_alg».proof.Defs
import proofs.«135701_j65085934403743_1_alg».proof.Proof.Gen.Kernel
import proofs.«135701_j65085934403743_1_alg».proof.Proof.Gen.Kernel.Skeleton
import proofs.«135701_j65085934403743_1_alg».proof.Proof.Gen.Kernel.Launch
import proofs.«135701_j65085934403743_1_alg».proof.Proof.Gen.Kernel.Points
import proofs.«135701_j65085934403743_1_alg».proof.Proof.Gen.Kernel.Frame
import proofs.«135701_j65085934403743_1_alg».proof.Proof.Gen.KernelIdeal
import proofs.«135701_j65085934403743_1_alg».proof.Proof.Gen.KernelIdeal.Skeleton
import proofs.«135701_j65085934403743_1_alg».proof.Proof.Gen.KernelIdeal.Launch
import proofs.«135701_j65085934403743_1_alg».proof.Proof.Gen.KernelIdeal.Points
import proofs.«135701_j65085934403743_1_alg».proof.Proof.Gen.KernelIdeal.Frame
import proofs.«135701_j65085934403743_1_alg».proof.Proof.Gen.ReferenceIdeal
import proofs.«135701_j65085934403743_1_alg».proof.Proof.Gen.Pre_finite_inputs
import proofs.«135701_j65085934403743_1_alg».proof.Proof.RefRun
import proofs.«135701_j65085934403743_1_alg».proof.Proof.KernelRun
import proofs.«135701_j65085934403743_1_alg».proof.Proof.KernelValue
import proofs.«135701_j65085934403743_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization's ledger is empty. -/
theorem preserves : Cert.preserves_Kernel_KernelIdeal := trivial

/-- The two programs gather the embeddings by the same operations of the tokens and the table. -/
theorem gathered_eq (x0 : (⟨Cert.KernelIdeal.S32x64, .i32⟩ : BufTy).Contents (Elt Ideal))
    (x3 : (⟨Cert.KernelIdeal.S32000x128, .f32⟩ : BufTy).Contents (Elt Ideal)) :
    Cert.KernelIdeal.Round.gathered x0 x3 = Cert.ReferenceIdeal.ReadP.val_main_v6 (F := Ideal) x0 x3 := by
  unfold Cert.KernelIdeal.Round.gathered Cert.ReferenceIdeal.ReadP.val_main_v6 Cert.ReferenceIdeal.ReadP.val_main_v5
    Cert.ReferenceIdeal.ReadP.val_main_v4 Cert.ReferenceIdeal.ReadP.val_main_v3 Cert.ReferenceIdeal.ReadP.val_main_v2
    Cert.ReferenceIdeal.ReadP.val_main_v1 Cert.ReferenceIdeal.ReadP.val_main_v0 Cert.ReferenceIdeal.ReadP.val_main_c
    Cert.ReferenceIdeal.ReadP.val_main_c_0
  rfl

/-- From memories agreeing on the arguments both programs end with the result buffer at node 0 of the embeddings after three
    rounds: the kernel's by its regions' write-backs read back through the program, the reference's by its operations read one
    round at a time. -/
theorem algebraic : Cert.algebraic_KernelIdeal_ReferenceIdeal := by
  intro m ρ m' ρ' _ hagree
  refine ⟨fun c => Cert.Spec.firstNode (Cert.KernelIdeal.Round.round3 m c), ?_, ?_⟩
  · exact (θ_run Cert.KernelIdeal.defs _ _).mono
      (fun r h c => ⟨(h c).1.trans (Cert.KernelIdeal.Round.result_value m ρ c), (h c).2⟩)
      (Cert.KernelIdeal.RunValues.run_values (F := Ideal) m ρ)
  · refine (θ_run Cert.ReferenceIdeal.defs _ _).mono (fun r h c => ⟨(h c).1.trans ?_, (h c).2⟩)
      (Cert.ReferenceIdeal.HandRun.run (F := Ideal) m' ρ')
    obtain ⟨h0, h1, h2, h3, h4, h5, h6, h7, h8, h9, h10, h11⟩ := hagree c
    rw [h0, h1, h3, h4, h5, h6, h7, h8, h9, h10, h11]
    refine (Cert.ReferenceIdeal.Round.ref_value _ _ _ _ _ _ _ _ _ _ _).trans ?_
    show _ = Cert.Spec.firstNode (Cert.KernelIdeal.Round.round3 m c)
    unfold Cert.KernelIdeal.Round.round3 Cert.KernelIdeal.Round.round2 Cert.KernelIdeal.Round.round1
    rw [gathered_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
